-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1 : Shape := ⟨2, ![256, 1]⟩
abbrev S50000 : Shape := ⟨1, ![50000]⟩
abbrev S2x800000 : Shape := ⟨2, ![2, 800000]⟩
abbrev S800000 : Shape := ⟨1, ![800000]⟩
abbrev S50000x64 : Shape := ⟨2, ![50000, 64]⟩
abbrev S64x128 : Shape := ⟨2, ![64, 128]⟩
abbrev S128 : Shape := ⟨1, ![128]⟩
abbrev S192x128 : Shape := ⟨2, ![192, 128]⟩
abbrev S128x128 : Shape := ⟨2, ![128, 128]⟩
abbrev S128x1 : Shape := ⟨2, ![128, 1]⟩
abbrev S1 : Shape := ⟨1, ![1]⟩
abbrev S128x8 : Shape := ⟨2, ![128, 8]⟩
abbrev S8 : Shape := ⟨1, ![8]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S192x128 : S_.BroadcastsInDim S192x128 (![] : Fin 0 → Fin S192x128.rank)
  reducesTo_S192x128_S_d0_1 : S192x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S256x1 : S_.BroadcastsInDim S256x1 (![] : Fin 0 → Fin S256x1.rank)
  reducesTo_S256x1_S_d0_1 : S256x1.ReducesTo [0, 1] S_
  bcast_S_S50000 : S_.BroadcastsInDim S50000 (![] : Fin 0 → Fin S50000.rank)
  reducesTo_S50000_S_d0 : S50000.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_arg2 : IVec S2x800000 32) (main_v82 : IVec S_ 1) (main_v84 : IVec S2x800000 1) : IVec S_ 1 :=
  let main_c_33 : IVec S_ 32 := constantI S_ 32 50000#32
  let main_v85 : IVec S2x800000 32 := broadcastInDim S2x800000 ![] bcast_S_S2x800000 main_c_33
  let main_v86 : IVec S2x800000 1 := cmpi .slt main_arg2 main_v85
  let main_v87 : IVec S2x800000 1 := andi main_v84 main_v86
  let main_c_34 : IVec S_ 1 := constantI S_ 1 1#1
  let main_v88 : IVec S_ 1 := (fun x v => Host.reduce IntOp.andi x v reducesTo_S2x800000_S_d0_1 h_S_) main_v87 main_c_34
  let main_v89 : IVec S_ 1 := andi main_v82 main_v88
  main_v89

def fn_part4 {F : FTy → Type} [FloatOps F] (main_arg0 : IVec S256x1 32) (main_arg1 : IVec S50000 32) (main_arg2 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S256x1 32 := broadcastInDim S256x1 ![] bcast_S_S256x1 main_c_26
  let main_v70 : IVec S256x1 1 := cmpi .sge main_arg0 main_v69
  let main_c_27 : IVec S_ 32 := constantI S_ 32 50000#32
  let main_v71 : IVec S256x1 32 := broadcastInDim S256x1 ![] bcast_S_S256x1 main_c_27
  let main_v72 : IVec S256x1 1 := cmpi .slt main_arg0 main_v71
  let main_v73 : IVec S256x1 1 := andi main_v70 main_v72
  let main_c_28 : IVec S_ 1 := constantI S_ 1 1#1
  let main_v74 : IVec S_ 1 := (fun x v => Host.reduce IntOp.andi x v reducesTo_S256x1_S_d0_1 h_S_) main_v73 main_c_28
  let main_v75 : IVec S_ 1 := andi main_v68 main_v74
  let main_c_29 : IVec S_ 32 := constantI S_ 32 0#32
  let main_v76 : IVec S50000 32 := broadcastInDim S50000 ![] bcast_S_S50000 main_c_29
  let main_v77 : IVec S50000 1 := cmpi .sge main_arg1 main_v76
  let main_c_30 : IVec S_ 32 := constantI S_ 32 50000#32
  let main_v78 : IVec S50000 32 := broadcastInDim S50000 ![] bcast_S_S50000 main_c_30
  let main_v79 : IVec S50000 1 := cmpi .slt main_arg1 main_v78
  let main_v80 : IVec S50000 1 := andi main_v77 main_v79
  let main_c_31 : IVec S_ 1 := constantI S_ 1 1#1
  let main_v81 : IVec S_ 1 := (fun x v => Host.reduce IntOp.andi x v reducesTo_S50000_S_d0 h_S_) main_v80 main_c_31
  let main_v82 : IVec S_ 1 := andi main_v75 main_v81
  let main_c_32 : IVec S_ 32 := constantI S_ 32 0#32
  let main_v83 : IVec S2x800000 32 := broadcastInDim S2x800000 ![] bcast_S_S2x800000 main_c_32
  let main_v84 : IVec S2x800000 1 := cmpi .sge main_arg2 main_v83
  fn_part5 (F := F) main_arg2 main_v82 main_v84

def fn_part3 {F : FTy → Type} [FloatOps F] (main_arg0 : IVec S256x1 32) (main_arg1 : IVec S50000 32) (main_arg2 : IVec S2x800000 32) (main_arg14 : FVec F S1 .f32) (main_arg15 : FVec F S128x8 .f32) (main_arg16 : FVec F S8 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg14
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S128x8 .f32 := Host.absf main_arg15
  let main_cst_22 : FVec F S_ .f32 := constant S_ .f32 0x7F800000#32
  let main_v60 : FVec F S128x8 .f32 := broadcastInDim S128x8 ![] bcast_S_S128x8 main_cst_22
  let main_v61 : IVec S128x8 1 := cmpf .olt main_v59 main_v60
  let main_c_23 : IVec S_ 1 := constantI S_ 1 1#1
  let main_v62 : IVec S_ 1 := (fun x v => Host.reduce IntOp.andi x v reducesTo_S128x8_S_d0_1 h_S_) main_v61 main_c_23
  let main_v63 : IVec S_ 1 := andi main_v58 main_v62
  let main_v64 : FVec F S8 .f32 := Host.absf main_arg16
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_arg0 main_arg1 main_arg2 main_v63 main_v67

def fn_part2 {F : FTy → Type} [FloatOps F] (main_arg0 : IVec S256x1 32) (main_arg1 : IVec S50000 32) (main_arg2 : IVec S2x800000 32) (main_arg10 : FVec F S128 .f32) (main_arg11 : FVec F S128x128 .f32) (main_arg12 : FVec F S128 .f32) (main_arg13 : FVec F S128x1 .f32) (main_arg14 : FVec F S1 .f32) (main_arg15 : FVec F S128x8 .f32) (main_arg16 : FVec F S8 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg13
  let main_cst_18 : FVec F S_ .f32 := constant S_ .f32 0x7F800000#32
  let main_v50 : FVec F S128x1 .f32 := broadcastInDim S128x1 ![] bcast_S_S128x1 main_cst_18
  fn_part3 (F := F) main_arg0 main_arg1 main_arg2 main_arg14 main_arg15 main_arg16 main_v48 main_v49 main_v50

def fn_part1 {F : FTy → Type} [FloatOps F] (main_arg0 : IVec S256x1 32) (main_arg1 : IVec S50000 32) (main_arg2 : IVec S2x800000 32) (main_arg7 : FVec F S192x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) (main_arg15 : FVec F S128x8 .f32) (main_arg16 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S192x128 .f32 := Host.absf main_arg7
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg1 main_arg2 main_arg10 main_arg11 main_arg12 main_arg13 main_arg14 main_arg15 main_arg16 main_v33

def fn {F : FTy → Type} [FloatOps F] (main_arg0 : IVec S256x1 32) (main_arg1 : IVec S50000 32) (main_arg2 : IVec S2x800000 32) (main_arg3 : FVec F S800000 .f32) (main_arg4 : FVec F S50000x64 .f32) (main_arg5 : FVec F S64x128 .f32) (main_arg6 : FVec F S128 .f32) (main_arg7 : FVec F S192x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) (main_arg15 : FVec F S128x8 .f32) (main_arg16 : FVec F S8 .f32) : IVec S_ 1 :=
  let main_v0 : FVec F S800000 .f32 := Host.absf main_arg3
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S50000x64 .f32 := Host.absf main_arg4
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x128 .f32 := Host.absf main_arg5
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg2 main_arg7 main_arg8 main_arg9 main_arg10 main_arg11 main_arg12 main_arg13 main_arg14 main_arg15 main_arg16 main_v13 main_v16
-- ==== Kernel.lean ====
abbrev S256x1 : Shape := ⟨2, ![256, 1]⟩
abbrev S50000 : Shape := ⟨1, ![50000]⟩
abbrev S2x800000 : Shape := ⟨2, ![2, 800000]⟩
abbrev S800000 : Shape := ⟨1, ![800000]⟩
abbrev S50000x64 : Shape := ⟨2, ![50000, 64]⟩
abbrev S64x128 : Shape := ⟨2, ![64, 128]⟩
abbrev S128 : Shape := ⟨1, ![128]⟩
abbrev S192x128 : Shape := ⟨2, ![192, 128]⟩
abbrev S128x128 : Shape := ⟨2, ![128, 128]⟩
abbrev S128x1 : Shape := ⟨2, ![128, 1]⟩
abbrev S1 : Shape := ⟨1, ![1]⟩
abbrev S128x8 : Shape := ⟨2, ![128, 8]⟩
abbrev S8 : Shape := ⟨1, ![8]⟩
abbrev S_ : Shape := ⟨0, ![]⟩
abbrev S50000x1 : Shape := ⟨2, ![50000, 1]⟩
abbrev S1x1 : Shape := ⟨2, ![1, 1]⟩
abbrev S256 : Shape := ⟨1, ![256]⟩
abbrev S256x64 : Shape := ⟨2, ![256, 64]⟩
abbrev S1x800000 : Shape := ⟨2, ![1, 800000]⟩
abbrev S850000 : Shape := ⟨1, ![850000]⟩
abbrev S850000x1 : Shape := ⟨2, ![850000, 1]⟩
abbrev S50176x64 : Shape := ⟨2, ![50176, 64]⟩
abbrev S50176 : Shape := ⟨1, ![50176]⟩
abbrev S1x50176 : Shape := ⟨2, ![1, 50176]⟩
abbrev S1x64 : Shape := ⟨2, ![1, 64]⟩
abbrev S1x6272 : Shape := ⟨2, ![1, 6272]⟩
abbrev S6272x64 : Shape := ⟨2, ![6272, 64]⟩
abbrev S1x128 : Shape := ⟨2, ![1, 128]⟩
abbrev S1x8 : Shape := ⟨2, ![1, 8]⟩
abbrev S256x8 : Shape := ⟨2, ![256, 8]⟩
abbrev S256x128 : Shape := ⟨2, ![256, 128]⟩
abbrev S256x192 : Shape := ⟨2, ![256, 192]⟩

abbrev nBuf : Space → Nat
  | .hbm => 125
  | .vmem => 21
  | .smem => 0
  | _ => 0

abbrev bufTy : (tb : Table) → Fin (tcTables nBuf tb) → BufTy
  | .hbm, ⟨0, _⟩ => ⟨S256x1, .i32⟩
  | .hbm, ⟨1, _⟩ => ⟨S50000, .i32⟩
  | .hbm, ⟨2, _⟩ => ⟨S2x800000, .i32⟩
  | .hbm, ⟨3, _⟩ => ⟨S800000, .f32⟩
  | .hbm, ⟨4, _⟩ => ⟨S50000x64, .f32⟩
  | .hbm, ⟨5, _⟩ => ⟨S64x128, .f32⟩
  | .hbm, ⟨6, _⟩ => ⟨S128, .f32⟩
  | .hbm, ⟨7, _⟩ => ⟨S192x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S128x8, .f32⟩
  | .hbm, ⟨16, _⟩ => ⟨S8, .f32⟩
  | .hbm, ⟨17, _⟩ => ⟨S_, .i32⟩
  | .hbm, ⟨18, _⟩ => ⟨S50000, .i32⟩
  | .hbm, ⟨19, _⟩ => ⟨S50000, .i1⟩
  | .hbm, ⟨20, _⟩ => ⟨S_, .i32⟩
  | .hbm, ⟨21, _⟩ => ⟨S50000, .i32⟩
  | .hbm, ⟨22, _⟩ => ⟨S50000, .i32⟩
  | .hbm, ⟨23, _⟩ => ⟨S50000, .i32⟩
  | .hbm, ⟨24, _⟩ => ⟨S50000x1, .i32⟩
  | .hbm, ⟨25, _⟩ => ⟨S1, .i32⟩
  | .hbm, ⟨26, _⟩ => ⟨S_, .i32⟩
  | .hbm, ⟨27, _⟩ => ⟨S50000x1, .i32⟩
  | .hbm, ⟨28, _⟩ => ⟨S50000x1, .i1⟩
  | .hbm, ⟨29, _⟩ => ⟨S1x1, .i32⟩
  | .hbm, ⟨30, _⟩ => ⟨S50000x1, .i32⟩
  | .hbm, ⟨31, _⟩ => ⟨S50000x1, .i1⟩
  | .hbm, ⟨32, _⟩ => ⟨S50000x1, .i1⟩
  | .hbm, ⟨33, _⟩ => ⟨S_, .i1⟩
  | .hbm, ⟨34, _⟩ => ⟨S50000, .i1⟩
  | .hbm, ⟨35, _⟩ => ⟨S50000x64, .f32⟩
  | .hbm, ⟨36, _⟩ => ⟨S50000x64, .i1⟩
  | .hbm, ⟨37, _⟩ => ⟨S_, .f32⟩
  | .hbm, ⟨38, _⟩ => ⟨S50000x64, .f32⟩
  | .hbm, ⟨39, _⟩ => ⟨S50000x64, .f32⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256, .i32⟩
  | .hbm, ⟨48, _⟩ => ⟨S256x1, .i32⟩
  | .hbm, ⟨49, _⟩ => ⟨S1, .i32⟩
  | .hbm, ⟨50, _⟩ => ⟨S_, .i32⟩
  | .hbm, ⟨51, _⟩ => ⟨S256x1, .i32⟩
  | .hbm, ⟨52, _⟩ => ⟨S256x1, .i1⟩
  | .hbm, ⟨53, _⟩ => ⟨S1x1, .i32⟩
  | .hbm, ⟨54, _⟩ => ⟨S256x1, .i32⟩
  | .hbm, ⟨55, _⟩ => ⟨S256x1, .i1⟩
  | .hbm, ⟨56, _⟩ => ⟨S256x1, .i1⟩
  | .hbm, ⟨57, _⟩ => ⟨S_, .i1⟩
  | .hbm, ⟨58, _⟩ => ⟨S256, .i1⟩
  | .hbm, ⟨59, _⟩ => ⟨S256x64, .f32⟩
  | .hbm, ⟨60, _⟩ => ⟨S256x64, .i1⟩
  | .hbm, ⟨61, _⟩ => ⟨S_, .f32⟩
  | .hbm, ⟨62, _⟩ => ⟨S256x64, .f32⟩
  | .hbm, ⟨63, _⟩ => ⟨S256x64, .f32⟩
  | .hbm, ⟨64, _⟩ => ⟨S1x800000, .i32⟩
  | .hbm, ⟨65, _⟩ => ⟨S800000, .i32⟩
  | .hbm, ⟨66, _⟩ => ⟨S1x800000, .i32⟩
  | .hbm, ⟨67, _⟩ => ⟨S800000, .i32⟩
  | .hbm, ⟨68, _⟩ => ⟨S50000, .i32⟩
  | .hbm, ⟨69, _⟩ => ⟨S850000, .i32⟩
  | .hbm, ⟨70, _⟩ => ⟨S850000, .i32⟩
  | .hbm, ⟨71, _⟩ => ⟨S_, .f32⟩
  | .hbm, ⟨72, _⟩ => ⟨S50000, .f32⟩
  | .hbm, ⟨73, _⟩ => ⟨S850000, .f32⟩
  | .hbm, ⟨74, _⟩ => ⟨S_, .f32⟩
  | .hbm, ⟨75, _⟩ => ⟨S50000, .f32⟩
  | .hbm, ⟨76, _⟩ => ⟨S850000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000, .f32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .f32⟩
  | .hbm, ⟨107, _⟩ => ⟨S50000, .f32⟩
  | .hbm, ⟨108, _⟩ => ⟨S850000x1, .i32⟩
  | .hbm, ⟨109, _⟩ => ⟨S50000, .f32⟩
  | .hbm, ⟨110, _⟩ => ⟨S_, .i32⟩
  | .hbm, ⟨111, _⟩ => ⟨S_, .f32⟩
  | .hbm, ⟨112, _⟩ => ⟨S50176x64, .f32⟩
  | .hbm, ⟨113, _⟩ => ⟨S_, .i32⟩
  | .hbm, ⟨114, _⟩ => ⟨S_, .f32⟩
  | .hbm, ⟨115, _⟩ => ⟨S50176, .f32⟩
  | .hbm, ⟨116, _⟩ => ⟨S1x50176, .f32⟩
  | .hbm, ⟨117, _⟩ => ⟨S1x64, .f32⟩
  | .hbm, ⟨118, _⟩ => ⟨S1x128, .f32⟩
  | .hbm, ⟨119, _⟩ => ⟨S1x128, .f32⟩
  | .hbm, ⟨120, _⟩ => ⟨S1x128, .f32⟩
  | .hbm, ⟨121, _⟩ => ⟨S1x128, .f32⟩
  | .hbm, ⟨122, _⟩ => ⟨S1x1, .f32⟩
  | .hbm, ⟨123, _⟩ => ⟨S1x8, .f32⟩
  | .hbm, ⟨124, _⟩ => ⟨S256x8, .f32⟩
  | .local _ .vmem, ⟨0, _⟩ => ⟨S1x6272, .f32⟩
  | .local _ .vmem, ⟨1, _⟩ => ⟨S1x6272, .f32⟩
  | .local _ .vmem, ⟨2, _⟩ => ⟨S6272x64, .f32⟩
  | .local _ .vmem, ⟨3, _⟩ => ⟨S6272x64, .f32⟩
  | .local _ .vmem, ⟨4, _⟩ => ⟨S1x64, .f32⟩
  | .local _ .vmem, ⟨5, _⟩ => ⟨S1x64, .f32⟩
  | .local _ .vmem, ⟨6, _⟩ => ⟨S256x64, .f32⟩
  | .local _ .vmem, ⟨7, _⟩ => ⟨S1x64, .f32⟩
  | .local _ .vmem, ⟨8, _⟩ => ⟨S64x128, .f32⟩
  | .local _ .vmem, ⟨9, _⟩ => ⟨S1x128, .f32⟩
  | .local _ .vmem, ⟨10, _⟩ => ⟨S192x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S1x1, .f32⟩
  | .local _ .vmem, ⟨18, _⟩ => ⟨S128x8, .f32⟩
  | .local _ .vmem, ⟨19, _⟩ => ⟨S1x8, .f32⟩
  | .local _ .vmem, ⟨20, _⟩ => ⟨S256x8, .f32⟩
  | _, _ => ⟨S256x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_v1 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v2 : Ref sig .tc := ⟨.hbm, 63, rfl⟩
abbrev main_v3 : Ref sig .tc := ⟨.hbm, 64, rfl⟩
abbrev main_v4 : Ref sig .tc := ⟨.hbm, 65, rfl⟩
abbrev main_v5 : Ref sig .tc := ⟨.hbm, 66, rfl⟩
abbrev main_v6 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_cst : Ref sig .tc := ⟨.hbm, 71, rfl⟩
abbrev main_v10 : Ref sig .tc := ⟨.hbm, 72, rfl⟩
abbrev main_v11 : Ref sig .tc := ⟨.hbm, 73, rfl⟩
abbrev main_cst_0 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_cst_1 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_cst_2 : Ref sig .tc := ⟨.hbm, 82, rfl⟩
abbrev main_call2_v0 : Ref sig .tc := ⟨.hbm, 83, rfl⟩
abbrev main_call2_v1 : Ref sig .tc := ⟨.hbm, 84, rfl⟩
abbrev main_v18 : Ref sig .tc := ⟨.hbm, 85, rfl⟩
abbrev main_c : Ref sig .tc := ⟨.hbm, 86, rfl⟩
abbrev main_v19 : Ref sig .tc := ⟨.hbm, 87, rfl⟩
abbrev main_v20 : Ref sig .tc := ⟨.hbm, 88, rfl⟩
abbrev main_c_3 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_c_4 : Ref sig .tc := ⟨.hbm, 96, rfl⟩
abbrev main_v27 : Ref sig .tc := ⟨.hbm, 97, rfl⟩
abbrev main_v28 : Ref sig .tc := ⟨.hbm, 98, rfl⟩
abbrev main_c_5 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_cst_6 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_c_7 : Ref sig .tc := ⟨.hbm, 110, rfl⟩
abbrev main_call3_v0 : Ref sig .tc := ⟨.hbm, 111, rfl⟩
abbrev main_v38 : Ref sig .tc := ⟨.hbm, 112, rfl⟩
abbrev main_c_8 : Ref sig .tc := ⟨.hbm, 113, rfl⟩
abbrev main_call4_v0 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc1_stg13_0 : Ref sig .tc := ⟨.vmem, 19, rfl⟩
abbrev cc1_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem13_0 : DmaSem sig := 18
abbrev cc1_sem14_0 : DmaSem sig := 19

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v15 : BitVec 1 := Scalar.cmpi .eq arg0 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x6272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6272x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S192x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x8 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x8 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x8 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x64_0 : S50000.BroadcastsInDim S50000x64 (![0] : Fin 1 → Fin S50000x64.rank)
  bcast_S_S50000x64 : S_.BroadcastsInDim S50000x64 (![] : Fin 0 → Fin S50000x64.rank)
  shapeCasts_S256x1_S256 : S256x1.ShapeCasts S256
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1x1_S256x1_0_1 : S1x1.BroadcastsInDim S256x1 (![0, 1] : Fin 2 → Fin S256x1.rank)
  reducesTo_S256x1_S256_d1 : S256x1.ReducesTo [1] S256
  bcast_S256_S256x64_0 : S256.BroadcastsInDim S256x64 (![0] : Fin 1 → Fin S256x64.rank)
  bcast_S_S256x64 : S_.BroadcastsInDim S256x64 (![] : Fin 0 → Fin S256x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S850000_S850000x1_0 : S850000.BroadcastsInDim S850000x1 (![0] : Fin 1 → Fin S850000x1.rank)
  bcast_S_S850000 : S_.BroadcastsInDim S850000 (![] : Fin 0 → Fin S850000.rank)
  pads_S50000x64_S50176x64_01760_000 : S50000x64.Pads (![0, 0] : Fin 2 → Nat) ![176, 0] ![0, 0] S50176x64
  pads_S50000_S50176_01760 : S50000.Pads (![0] : Fin 1 → Nat) ![176] ![0] S50176
  shapeCasts_S50176_S1x50176 : S50176.ShapeCasts S1x50176
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x6272_S1x6272_0_0 : ∀ a, (![0, 0] : Fin 2 → Nat) a + S1x6272.size a ≤ S1x6272.size a
  h_S1x6272 : 0 < S1x6272.numel
  shapeCasts_S1x6272_S1x6272 : S1x6272.ShapeCasts S1x6272
  bitsLt_bf16_f32 : FTy.bits .bf16 < FTy.bits .f32
  inb_S6272x64_S6272x64_0_0 : ∀ a, (![0, 0] : Fin 2 → Nat) a + S6272x64.size a ≤ S6272x64.size a
  h_S6272x64 : 0 < S6272x64.numel
  shapeCasts_S6272x64_S6272x64 : S6272x64.ShapeCasts S6272x64
  shapeCasts_S128_S1x128 : S128.ShapeCasts S1x128
  shapeCasts_S1_S1x1 : S1.ShapeCasts S1x1
  shapeCasts_S8_S1x8 : S8.ShapeCasts S1x8
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  concatenates_S256x64_S256x128_S256x192_d1 : Shape.Concatenates [S256x64, S256x128] S256x192 1
  inb_S192x128_S192x128_0_0 : ∀ a, (![0, 0] : Fin 2 → Nat) a + S192x128.size a ≤ S192x128.size a
  h_S192x128 : 0 < S192x128.numel
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S128x8_S128x8_0_0 : ∀ a, (![0, 0] : Fin 2 → Nat) a + S128x8.size a ≤ S128x8.size a
  h_S128x8 : 0 < S128x8.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  reduces_S256x8_S256 : S256x8.Reduces [1] S256
  shapeCasts_S256_S256x1 : S256.ShapeCasts S256x1
  broadcasts_S256x1_S256x8 : S256x1.Broadcasts S256x8
  inb_S256x8_S256x8_0_0 : ∀ a, (![0, 0] : Fin 2 → Nat) a + S256x8.size a ≤ S256x8.size a
  h_S256x8 : 0 < S256x8.numel
  gather_S50000x64_S50000x1_S50000x64_1_0_n_n_0_1_164_wf : GatherDims.WF S50000x64 S50000x1 S50000x64 [1] [0] [] [0] [] 1 ![1, 64]
  gather_S50000x64_S256x1_S256x64_1_0_n_n_0_1_164_wf : GatherDims.WF S50000x64 S256x1 S256x64 [1] [0] [] [0] [] 1 ![1, 64]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1x6272_S6272x64_S1x64_1_0_0_1_n_n_wf : DotDims.WF S1x6272 S6272x64 S1x64 [1] [0] [0] [1] [] []
  dot_S1x64_S64x128_S1x128_1_0_0_1_n_n_wf : DotDims.WF S1x64 S64x128 S1x128 [1] [0] [0] [1] [] []
  dot_S256x192_S192x128_S256x128_1_0_0_1_n_n_wf : DotDims.WF S256x192 S192x128 S256x128 [1] [0] [0] [1] [] []
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []
  dot_S256x128_S128x8_S256x8_1_0_0_1_n_n_wf : DotDims.WF S256x128 S128x8 S256x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6272.size a ≤ S1x50176.size a
  hwx0_0 : ∀ i : grid0.Coords, EltTy.bits .f32 = 32 ∨ (Rect.block (s := S1x50176) S1x6272.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6272x64.size a ≤ S50176x64.size a
  hwx0_1 : ∀ i : grid0.Coords, EltTy.bits .f32 = 32 ∨ (Rect.block (s := S50176x64) S6272x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S256x64.size a
  hwx1_0 : ∀ i : grid1.Coords, EltTy.bits .f32 = 32 ∨ (Rect.block (s := S256x64) S256x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S192x128.size a ≤ S192x128.size a
  hwx1_4 : ∀ i : grid1.Coords, EltTy.bits .f32 = 32 ∨ (Rect.block (s := S192x128) S192x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x1.size a ≤ S128x1.size a
  hwx1_10 : ∀ i : grid1.Coords, EltTy.bits .f32 = 32 ∨ (Rect.block (s := S128x1) S128x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x8.size a ≤ S128x8.size a
  hwx1_12 : ∀ i : grid1.Coords, EltTy.bits .f32 = 32 ∨ (Rect.block (s := S128x8) S128x8.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x8.size a ≤ S1x8.size a
  hwx1_13 : ∀ i : grid1.Coords, EltTy.bits .f32 = 32 ∨ (Rect.block (s := S1x8) S1x8.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S256x8.size a ≤ S256x8.size a
  hwx1_14 : ∀ i : grid1.Coords, EltTy.bits .f32 = 32 ∨ (Rect.block (s := S256x8) S256x8.size (cc1_transform_14 i) (hinb1_14 i)).WholeWords (EltTy.packing .f32)

variable [Facts₀]

def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def gather_S50000x64_S256x1_S256x64_1_0_n_n_0_1_164 : GatherDims S50000x64 S256x1 S256x64 where
  offsetDims := [1]
  collapsedSliceDims := [0]
  operandBatchingDims := []
  startIndicesBatchingDims := []
  startIndexMap := [0]
  indexVectorDim := 1
  sliceSizes := ![1, 64]
  wf := gather_S50000x64_S256x1_S256x64_1_0_n_n_0_1_164_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1x6272_S6272x64_S1x64_1_0_0_1_n_n : DotDims S1x6272 S6272x64 S1x64 where
  lhsContracting := [1]
  rhsContracting := [0]
  lhsNonContracting := [0]
  rhsNonContracting := [1]
  lhsBatch := []
  rhsBatch := []
  wf := dot_S1x6272_S6272x64_S1x64_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S256x192_S192x128_S256x128_1_0_0_1_n_n : DotDims S256x192 S192x128 S256x128 where
  lhsContracting := [1]
  rhsContracting := [0]
  lhsNonContracting := [0]
  rhsNonContracting := [1]
  lhsBatch := []
  rhsBatch := []
  wf := dot_S256x192_S192x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf
def dot_S256x128_S128x8_S256x8_1_0_0_1_n_n : DotDims S256x128 S128x8 S256x8 where
  lhsContracting := [1]
  rhsContracting := [0]
  lhsNonContracting := [0]
  rhsNonContracting := [1]
  lhsBatch := []
  rhsBatch := []
  wf := dot_S256x128_S128x8_S256x8_1_0_0_1_n_n_wf

abbrev win0_0 : Pipeline.Window sig grid0 :=
  Pipeline.Window.ofSpec (Memref.whole main_v40) S1x6272.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S6272x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S256x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S192x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v45) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg13) S128x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v46) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg15) S128x8.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v47) S1x8.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v48) S256x8.size cc1_transform_14 reads1_14 true true 1 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S256x1 : Shape := ⟨2, ![256, 1]⟩
abbrev S50000 : Shape := ⟨1, ![50000]⟩
abbrev S2x800000 : Shape := ⟨2, ![2, 800000]⟩
abbrev S800000 : Shape := ⟨1, ![800000]⟩
abbrev S50000x64 : Shape := ⟨2, ![50000, 64]⟩
abbrev S64x128 : Shape := ⟨2, ![64, 128]⟩
abbrev S128 : Shape := ⟨1, ![128]⟩
abbrev S192x128 : Shape := ⟨2, ![192, 128]⟩
abbrev S128x128 : Shape := ⟨2, ![128, 128]⟩
abbrev S128x1 : Shape := ⟨2, ![128, 1]⟩
abbrev S1 : Shape := ⟨1, ![1]⟩
abbrev S128x8 : Shape := ⟨2, ![128, 8]⟩
abbrev S8 : Shape := ⟨1, ![8]⟩
abbrev S256 : Shape := ⟨1, ![256]⟩
abbrev S_ : Shape := ⟨0, ![]⟩
abbrev S256x64 : Shape := ⟨2, ![256, 64]⟩
abbrev S50000x1 : Shape := ⟨2, ![50000, 1]⟩
abbrev S1x800000 : Shape := ⟨2, ![1, 800000]⟩
abbrev S850000 : Shape := ⟨1, ![850000]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S256x128 : Shape := ⟨2, ![256, 128]⟩
abbrev S256x192 : Shape := ⟨2, ![256, 192]⟩
abbrev S1x1 : Shape := ⟨2, ![1, 1]⟩
abbrev S256x8 : Shape := ⟨2, ![256, 8]⟩
abbrev S1x8 : Shape := ⟨2, ![1, 8]⟩

abbrev nBuf : Space → Nat
  | .hbm => 145
  | .vmem => 0
  | .smem => 0
  | _ => 0

abbrev hbmTy0_0 (i : Nat) : BufTy := match i % 128 with
  | 0 => ⟨S256x1, .i32⟩
  | 1 => ⟨S50000, .i32⟩
  | 2 => ⟨S2x800000, .i32⟩
  | 3 => ⟨S800000, .f32⟩
  | 4 => ⟨S50000x64, .f32⟩
  | 5 => ⟨S64x128, .f32⟩
  | 6 => ⟨S128, .f32⟩
  | 7 => ⟨S192x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S128x8, .f32⟩
  | 16 => ⟨S8, .f32⟩
  | 17 => ⟨S256, .i32⟩
  | 18 => ⟨S_, .i32⟩
  | 19 => ⟨S256, .i32⟩
  | 20 => ⟨S256, .i1⟩
  | 21 => ⟨S_, .i32⟩
  | 22 => ⟨S256, .i32⟩
  | 23 => ⟨S256, .i32⟩
  | 24 => ⟨S256, .i32⟩
  | 25 => ⟨S256x1, .i32⟩
  | 26 => ⟨S256x64, .f32⟩
  | 27 => ⟨S_, .i32⟩
  | 28 => ⟨S50000, .i32⟩
  | 29 => ⟨S50000, .i1⟩
  | 30 => ⟨S_, .i32⟩
  | 31 => ⟨S50000, .i32⟩
  | 32 => ⟨S50000, .i32⟩
  | 33 => ⟨S50000, .i32⟩
  | 34 => ⟨S50000x1, .i32⟩
  | 35 => ⟨S50000x64, .f32⟩
  | 36 => ⟨S50000, .i32⟩
  | 37 => ⟨S1x800000, .i32⟩
  | 38 => ⟨S800000, .i32⟩
  | 39 => ⟨S850000, .i32⟩
  | 40 => ⟨S1x800000, .i32⟩
  | 41 => ⟨S800000, .i32⟩
  | 42 => ⟨S850000, .i32⟩
  | 43 => ⟨S_, .f32⟩
  | 44 => ⟨S50000, .f32⟩
  | 45 => ⟨S850000, .f32⟩
  | 46 => ⟨S_, .f32⟩
  | 47 => ⟨S50000, .f32⟩
  | 48 => ⟨S850000x1, .i32⟩
  | 49 => ⟨S50000, .f32⟩
  | 50 => ⟨S_, .f32⟩
  | 51 => ⟨S50000, .f32⟩
  | 52 => ⟨S50000, .i1⟩
  | 53 => ⟨S50000, .f32⟩
  | 54 => ⟨S_, .f32⟩
  | 55 => ⟨S_, .f32⟩
  | 56 => ⟨S50000, .f32⟩
  | 57 => ⟨S50000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000, .f32⟩
  | 67 => ⟨S850000, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000, .f32⟩
  | 77 => ⟨S850000, .f32⟩
  | 78 => ⟨S50000x128, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x128, .f32⟩
  | 88 => ⟨S850000x1, .f32⟩
  | 89 => ⟨S850000x128, .f32⟩
  | 90 => ⟨S850000x128, .f32⟩
  | 91 => ⟨S_, .f32⟩
  | 92 => ⟨S50000x128, .f32⟩
  | 93 => ⟨S850000x1, .i32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S256x128, .f32⟩
  | 105 => ⟨S256x192, .f32⟩
  | 106 => ⟨S256x128, .f32⟩
  | 107 => ⟨S1x128, .f32⟩
  | 108 => ⟨S256x128, .f32⟩
  | 109 => ⟨S256x128, .f32⟩
  | 110 => ⟨S_, .f32⟩
  | 111 => ⟨S256x128, .f32⟩
  | 112 => ⟨S256x128, .f32⟩
  | 113 => ⟨S256x128, .f32⟩
  | 114 => ⟨S1x128, .f32⟩
  | 115 => ⟨S256x128, .f32⟩
  | 116 => ⟨S256x128, .f32⟩
  | 117 => ⟨S_, .f32⟩
  | 118 => ⟨S256x128, .f32⟩
  | 119 => ⟨S256x128, .f32⟩
  | 120 => ⟨S256x128, .f32⟩
  | 121 => ⟨S1x128, .f32⟩
  | 122 => ⟨S256x128, .f32⟩
  | 123 => ⟨S256x128, .f32⟩
  | 124 => ⟨S_, .f32⟩
  | 125 => ⟨S256x128, .f32⟩
  | 126 => ⟨S256x128, .f32⟩
  | 127 => ⟨S256x1, .f32⟩
  | _ => ⟨S256x1, .i32⟩

abbrev hbmTy0_1 (i : Nat) : BufTy := match i % 128 with
  | 0 => ⟨S1x1, .f32⟩
  | 1 => ⟨S256x1, .f32⟩
  | 2 => ⟨S256x1, .f32⟩
  | 3 => ⟨S256x8, .f32⟩
  | 4 => ⟨S1x8, .f32⟩
  | 5 => ⟨S256x8, .f32⟩
  | 6 => ⟨S256x8, .f32⟩
  | 7 => ⟨S_, .f32⟩
  | 8 => ⟨S256, .f32⟩
  | 9 => ⟨S256x1, .f32⟩
  | 10 => ⟨S_, .f32⟩
  | 11 => ⟨S256x1, .f32⟩
  | 12 => ⟨S256x1, .f32⟩
  | 13 => ⟨S256x8, .f32⟩
  | 14 => ⟨S256x8, .f32⟩
  | 15 => ⟨S256x8, .f32⟩
  | 16 => ⟨S256x8, .f32⟩
  | _ => ⟨S256x1, .i32⟩

abbrev hbmTy (i : Nat) : BufTy := match i / 128 with
  | 0 => hbmTy0_0 i
  | 1 => hbmTy0_1 i
  | _ => ⟨S256x1, .i32⟩

abbrev bufTy : (tb : Table) → Fin (tcTables nBuf tb) → BufTy
  | .hbm, ⟨i, _⟩ => hbmTy i
  | _, _ => ⟨S256x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_8 : Ref sig .tc := ⟨.hbm, 68, rfl⟩
abbrev main_v39 : Ref sig .tc := ⟨.hbm, 69, rfl⟩
abbrev main_v40 : Ref sig .tc := ⟨.hbm, 70, rfl⟩
abbrev main_c_9 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_10 : Ref sig .tc := ⟨.hbm, 79, rfl⟩
abbrev main_v48 : Ref sig .tc := ⟨.hbm, 80, rfl⟩
abbrev main_v49 : Ref sig .tc := ⟨.hbm, 81, rfl⟩
abbrev main_c_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_cst_14 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_call1_cst : Ref sig .tc := ⟨.hbm, 110, rfl⟩
abbrev main_call1_v0 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_call2_cst : Ref sig .tc := ⟨.hbm, 117, rfl⟩
abbrev main_call2_v0 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_call3_cst : Ref sig .tc := ⟨.hbm, 124, rfl⟩
abbrev main_call3_v0 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_15 : Ref sig .tc := ⟨.hbm, 135, rfl⟩
abbrev main_v93 : Ref sig .tc := ⟨.hbm, 136, rfl⟩
abbrev main_v94 : Ref sig .tc := ⟨.hbm, 137, rfl⟩
abbrev main_cst_16 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩

abbrev nD : Nat := 1
abbrev τ : Topo := Topo.v7x

variable {F : FTy → Type} [FloatOps F]

class Facts₀ : Prop where
  shapeCasts_S256x1_S256 : S256x1.ShapeCasts S256
  bcast_S_S256 : S_.BroadcastsInDim S256 (![] : Fin 0 → Fin S256.rank)
  bcast_S256_S256x1_0 : S256.BroadcastsInDim S256x1 (![0] : Fin 1 → Fin S256x1.rank)
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  bcast_S1x128_S256x128_0_1 : S1x128.BroadcastsInDim S256x128 (![0, 1] : Fin 2 → Fin S256x128.rank)
  concatenates_S256x64_S256x128_S256x192_d1 : Shape.Concatenates [S256x64, S256x128] S256x192 1
  bcast_S_S256x128 : S_.BroadcastsInDim S256x128 (![] : Fin 0 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S8_S1x8_1 : S8.BroadcastsInDim S1x8 (![1] : Fin 1 → Fin S1x8.rank)
  bcast_S1x8_S256x8_0_1 : S1x8.BroadcastsInDim S256x8 (![0, 1] : Fin 2 → Fin S256x8.rank)
  reducesTo_S256x8_S256_d1 : S256x8.ReducesTo [1] S256
  bcast_S_S256x1 : S_.BroadcastsInDim S256x1 (![] : Fin 0 → Fin S256x1.rank)
  bcast_S256x1_S256x8_0_1 : S256x1.BroadcastsInDim S256x8 (![0, 1] : Fin 2 → Fin S256x8.rank)
  gather_S50000x64_S256x1_S256x64_1_0_n_n_0_1_164_wf : GatherDims.WF S50000x64 S256x1 S256x64 [1] [0] [] [0] [] 1 ![1, 64]
  gather_S50000x64_S50000x1_S50000x64_1_0_n_n_0_1_164_wf : GatherDims.WF S50000x64 S50000x1 S50000x64 [1] [0] [] [0] [] 1 ![1, 64]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S256x192_S192x128_S256x128_1_0_0_1_n_n_wf : DotDims.WF S256x192 S192x128 S256x128 [1] [0] [0] [1] [] []
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []
  dot_S256x128_S128x8_S256x8_1_0_0_1_n_n_wf : DotDims.WF S256x128 S128x8 S256x8 [1] [0] [0] [1] [] []

variable [Facts₀]

def gather_S50000x64_S256x1_S256x64_1_0_n_n_0_1_164 : GatherDims S50000x64 S256x1 S256x64 where
  offsetDims := [1]
  collapsedSliceDims := [0]
  operandBatchingDims := []
  startIndicesBatchingDims := []
  startIndexMap := [0]
  indexVectorDim := 1
  sliceSizes := ![1, 64]
  wf := gather_S50000x64_S256x1_S256x64_1_0_n_n_0_1_164_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S256x192_S192x128_S256x128_1_0_0_1_n_n : DotDims S256x192 S192x128 S256x128 where
  lhsContracting := [1]
  rhsContracting := [0]
  lhsNonContracting := [0]
  rhsNonContracting := [1]
  lhsBatch := []
  rhsBatch := []
  wf := dot_S256x192_S192x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf
def dot_S256x128_S128x8_S256x8_1_0_0_1_n_n : DotDims S256x128 S128x8 S256x8 where
  lhsContracting := [1]
  rhsContracting := [0]
  lhsNonContracting := [0]
  rhsNonContracting := [1]
  lhsBatch := []
  rhsBatch := []
  wf := dot_S256x128_S128x8_S256x8_1_0_0_1_n_n_wf

class Facts : Prop extends Facts₀ where

variable [Facts]
-- ==== Proof.K.R0Base.lean ====
/- Region 0 (the blockwise reduction, a grid of 8 points): what its three control cases share.
   At point t the body adds the product of the t-th 1x6272 block of the first operand and the t-th 6272x64 block of
   the second into a 1x64 accumulator kept in a scratch buffer between points; the accumulator is set to zero at
   point 0 and copied into the 1x64 output block at point 7. Stated here: each window's block at a point, read off
   the arrays' contents V when the region is entered; that an input window's staging buffer holds its block at
   every point; the two branch conditions in closed form over the grid; at which points the output window is idle
   and not written back; the staging and scratch memrefs; the region invariant with the scratch buffer singled out. -/
import proofs.«409071_j82351702934075_2_alg».proof.Proof.Gen.Kernel.Launch
import proofs.«409071_j82351702934075_2_alg».proof.Proof.Gen.Kernel.Skeleton
import proofs.«409071_j82351702934075_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffers' contents when the region is entered
variable (V : (c : Dev nD) → (b : Ref sig .tc) → Buf (Elt F) ((c : Thread nD τ).loc b))

/-! ## The windows' blocks -/

/-- Window `w`'s block at point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's staging buffer holds the point's 1x6272 block at every point, fetched there or not (an
    unfetched point's block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second operand's staging buffer holds the point's 6272x64 block at every point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the first conditional (the accumulator is reset), from the grid coordinate: the coordinate
    compared with 0, widened, compared with 0 again. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the second conditional (the accumulator is copied to the output block). -/
abbrev cond0_1 (i : grid0.Coords) : Prop := k0_cond2 i = 1#1
/-- It holds at point 7 only. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At the first point (case A) the output window is idle: nothing is stored into it, -/
theorem idleAt0_2_A : ∀ t : Fin cfg0.N, cond0_0 (grid0.coords t) → ¬cond0_1 (grid0.coords t) → cfg0.idle 2 (grid0.coords t) = true := by decide +kernel
/-- and its block is not written back. -/
theorem noFlush0_2_A : ∀ t : Fin cfg0.N, cond0_0 (grid0.coords t) → ¬cond0_1 (grid0.coords t) → (cfg0.win 2).flush t = false := by decide +kernel
/-- At the middle points (case B) the output window is idle, -/
theorem idleAt0_2_B : ∀ t : Fin cfg0.N, ¬cond0_0 (grid0.coords t) → ¬cond0_1 (grid0.coords t) → cfg0.idle 2 (grid0.coords t) = true := by decide +kernel
/-- and not written back. -/
theorem noFlush0_2_B : ∀ t : Fin cfg0.N, ¬cond0_0 (grid0.coords t) → ¬cond0_1 (grid0.coords t) → (cfg0.win 2).flush t = false := by decide +kernel
/-- At the last point (case C) the output window is live: the accumulator is stored into it. -/
theorem liveAt0_2_C : ∀ t : Fin cfg0.N, ¬cond0_0 (grid0.coords t) → cond0_1 (grid0.coords t) → cfg0.idle 2 (grid0.coords t) = false := by decide +kernel

/-! ## The memrefs the body is called with -/

/-- The output window's one staging buffer, as a view: its contents are stated through it. -/
abbrev VO0_2 : View sig .tc .vmem S1x64 .f32 := (Memref.whole cc0_stg2_0 : Memref sig .tc .vmem S1x64 .f32).view
/-- Each window's current staging memref at point `t`, and its wholeness. -/
abbrev ms0_0 (t : Fin cfg0.N) : Memref sig .tc .vmem S1x6272 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6272x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
/-- The scratch buffer holding the 1x64 accumulator between points, as a whole memref -/
abbrev scM0_0 : Memref sig .tc .vmem S1x64 .f32 := Memref.whole cc0_scratch0
/-- and as a view. -/
abbrev VS0_0 : View sig .tc .vmem S1x64 .f32 := scM0_0.view

/-! ## The region invariant with the accumulator's buffer singled out -/

/-- The core's scoped buffers that are neither a staging buffer of this region nor its accumulator, each at some
    contents: carried through the region unopened. -/
abbrev rest0 (c : Dev nD) : sProp 𝕄 :=
  Pipeline.scopedRestBut (Ix := Unit) (Name := ℕ) (U := UR sig nD τ) (Lvl := ℕ) (Val := Elt F) spec0 c [cc0_scratch0]

/-- The scoped rest is the accumulator's buffer at some contents beside the others. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ rest0 (F := F) c) :=
  Pipeline.scopedRest_split_of_list spec0 c [cc0_scratch0] (by decide) (by decide)

/-- The invariant the region is entered and left with: the accumulator's memref owned at some contents, the other
    scoped buffers, the generator register at some state. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_split]; simp only [scM0_0, owns_whole]; try rfl

end Cert.Kernel.Hand

end
-- ==== Proof.K.R0RunA.lean ====
/- Region 0, case A (the first point: the first conditional taken, the second not). The body stores zeros into the
   accumulator, loads the two input blocks and the accumulator, stores accumulator + product back, and leaves the
   output block alone. Found here: the pieces the accumulator's buffer ends with (the reset, then the update), with
   the body's triple on whole memrefs — the inputs at their contents, the output at contents handed back untouched,
   the accumulator at anything. -/
import proofs.«409071_j82351702934075_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A: no piece for the output; the accumulator's pieces, last first, and the body's run to a continuation
    holding the inputs and the output as they were and the accumulator's buffer with its pieces written. -/
noncomputable def kernelRun0_A (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : cond0_0 i) (hc1 : ¬cond0_1 i)
    (x0 : Vec F S1x6272 .f32) (x1 : Vec F S6272x64 .f32) :
    Σ' (L2 : List (View.Piece (Elt F) S1x64 .f32)), { LS0 : List (View.Piece (Elt F) S1x64 .f32) //
      ∀ (xi2 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__reduce_body i arg1 harg1 arg2 harg2 arg3 harg3 arg4 harg4) K } := by
  refine ⟨[], ?_, fun xi2 E K => ?run⟩
  case run =>
    simp only [cc0__reduce_body_eq_skeleton]; unfold cc0__reduce_body_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R0RunB.lean ====
/- Region 0, case B (a middle point: neither conditional taken). The body loads the two input blocks and the
   accumulator, stores accumulator + product back, and leaves the output block alone. Found here: the one piece the
   accumulator's buffer ends with, with the body's triple on whole memrefs — the inputs at their contents, the
   output at contents handed back untouched, the accumulator at what the point before left. -/
import proofs.«409071_j82351702934075_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B: no piece for the output; the accumulator's piece, and the body's run to a continuation holding the
    inputs and the output as they were and the accumulator's buffer with its piece written. -/
noncomputable def kernelRun0_B (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : ¬cond0_1 i)
    (x0 : Vec F S1x6272 .f32) (x1 : Vec F S6272x64 .f32) (xs0 : Vec F S1x64 .f32) :
    Σ' (L2 : List (View.Piece (Elt F) S1x64 .f32)), { LS0 : List (View.Piece (Elt F) S1x64 .f32) //
      ∀ (xi2 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__reduce_body i arg1 harg1 arg2 harg2 arg3 harg3 arg4 harg4) K } := by
  refine ⟨[], ?_, fun xi2 E K => ?run⟩
  case run =>
    simp only [cc0__reduce_body_eq_skeleton]; unfold cc0__reduce_body_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R0RunC.lean ====
/- Region 0, case C (the last point: the first conditional not taken, the second taken). The body loads the two
   input blocks and the accumulator, stores accumulator + product back, loads the accumulator again and stores it
   into the output block. Found here: the output's piece and the accumulator's piece, with the body's triple on
   whole memrefs — the inputs at their contents, the output at anything, the accumulator at what the point before
   left. -/
import proofs.«409071_j82351702934075_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C: the output's pieces and the accumulator's, and the body's run to a continuation holding the inputs as
    they were and the two buffers with their pieces written. -/
noncomputable def kernelRun0_C (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : cond0_1 i)
    (x0 : Vec F S1x6272 .f32) (x1 : Vec F S6272x64 .f32) (xs0 : Vec F S1x64 .f32) :
    Σ' (L2 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__reduce_body i arg1 harg1 arg2 harg2 arg3 harg3 arg4 harg4) K } := by
  refine ⟨?_, ?_, fun E K => ?run⟩
  case run =>
    simp only [cc0__reduce_body_eq_skeleton]; unfold cc0__reduce_body_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.R0Frame.lean ====
/- Region 0: the accumulation point by point and the region's proof data, at the entry contents V.
   After point 0 the accumulator holds 0 + (block 0 of the first operand) x (block 0 of the second); after point
   n + 1 it holds what point n left + the product of the blocks at n + 1; after point 7 the output block's buffer
   holds the accumulator. Stated: what each control case leaves in the two buffers (the pieces its run found, which
   cover them); the pair (output block's buffer, accumulator) after each point; the invariant carrying the
   accumulator between points; the proof data; the body obligation at a generic point; that the invariant is what
   the region is entered with before the first point and gives it back after the last. -/
import proofs.«409071_j82351702934075_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output block's buffer and in the accumulator's -/

/-- Case A stores nothing into the output block: no pieces, a placeholder nothing consults (at the first point the
    window is neither written back nor read at the next point). -/
def out0_A_2 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : cond0_0 i) (hc1 : ¬cond0_1 i) (x0 : Vec F S1x6272 .f32) (x1 : Vec F S6272x64 .f32) : Vec F S1x64 .f32 :=
  VO0_2.read (Elt F) (VO0_2.writes (Elt F) VO0_2.junk (kernelRun0_A c i arg1 harg1 arg2 harg2 arg3 harg3 arg4 harg4 hc0 hc1 x0 x1).1)

/-- Case A's pieces for the accumulator (the reset, then the update) cover its 1x64 buffer. -/
theorem scover0_A_0 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : cond0_0 i) (hc1 : ¬cond0_1 i) (x0 : Vec F S1x6272 .f32) (x1 : Vec F S6272x64 .f32) (y : S1x64.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x64.size (by sl_kernel_rfl) y

/-- What case A leaves in the accumulator: its pieces read back. -/
def sout0_A_0 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : cond0_0 i) (hc1 : ¬cond0_1 i) (x0 : Vec F S1x6272 .f32) (x1 : Vec F S6272x64 .f32) : Vec F S1x64 .f32 :=
  VS0_0.read (Elt F) (VS0_0.writes (Elt F) VS0_0.junk (kernelRun0_A c i arg1 harg1 arg2 harg2 arg3 harg3 arg4 harg4 hc0 hc1 x0 x1).2.1)

/-- Case B stores nothing into the output block: a placeholder nothing consults. -/
def out0_B_2 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : ¬cond0_1 i) (x0 : Vec F S1x6272 .f32) (x1 : Vec F S6272x64 .f32) (xs0 : Vec F S1x64 .f32) : Vec F S1x64 .f32 :=
  VO0_2.read (Elt F) (VO0_2.writes (Elt F) VO0_2.junk (kernelRun0_B c i arg1 harg1 arg2 harg2 arg3 harg3 arg4 harg4 hc0 hc1 x0 x1 xs0).1)

/-- Case B's piece for the accumulator (the update) covers its buffer. -/
theorem scover0_B_0 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : ¬cond0_1 i) (x0 : Vec F S1x6272 .f32) (x1 : Vec F S6272x64 .f32) (xs0 : Vec F S1x64 .f32) (y : S1x64.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x64.size (by sl_kernel_rfl) y

/-- What case B leaves in the accumulator. -/
def sout0_B_0 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : ¬cond0_1 i) (x0 : Vec F S1x6272 .f32) (x1 : Vec F S6272x64 .f32) (xs0 : Vec F S1x64 .f32) : Vec F S1x64 .f32 :=
  VS0_0.read (Elt F) (VS0_0.writes (Elt F) VS0_0.junk (kernelRun0_B c i arg1 harg1 arg2 harg2 arg3 harg3 arg4 harg4 hc0 hc1 x0 x1 xs0).2.1)

/-- Case C's piece for the output block (the accumulator copied) covers it. -/
theorem cover0_C_2 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : cond0_1 i) (x0 : Vec F S1x6272 .f32) (x1 : Vec F S6272x64 .f32) (xs0 : Vec F S1x64 .f32) (y : S1x64.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x64.size (by sl_kernel_rfl) y

/-- What case C leaves in the output block's buffer. -/
def out0_C_2 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : cond0_1 i) (x0 : Vec F S1x6272 .f32) (x1 : Vec F S6272x64 .f32) (xs0 : Vec F S1x64 .f32) : Vec F S1x64 .f32 :=
  VO0_2.read (Elt F) (VO0_2.writes (Elt F) VO0_2.junk (kernelRun0_C c i arg1 harg1 arg2 harg2 arg3 harg3 arg4 harg4 hc0 hc1 x0 x1 xs0).1)

/-- Case C's piece for the accumulator (the update) covers its buffer. -/
theorem scover0_C_0 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : cond0_1 i) (x0 : Vec F S1x6272 .f32) (x1 : Vec F S6272x64 .f32) (xs0 : Vec F S1x64 .f32) (y : S1x64.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x64.size (by sl_kernel_rfl) y

/-- What case C leaves in the accumulator. -/
def sout0_C_0 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : cond0_1 i) (x0 : Vec F S1x6272 .f32) (x1 : Vec F S6272x64 .f32) (xs0 : Vec F S1x64 .f32) : Vec F S1x64 .f32 :=
  VS0_0.read (Elt F) (VS0_0.writes (Elt F) VS0_0.junk (kernelRun0_C c i arg1 harg1 arg2 harg2 arg3 harg3 arg4 harg4 hc0 hc1 x0 x1 xs0).2.1)

section Region0
-- the buffers' contents when the region is entered
variable (V : (c : Dev nD) → (b : Ref sig .tc) → Buf (Elt F) ((c : Thread nD τ).loc b))

/-! ## What the output block's buffer and the accumulator hold after each point -/

/-- The accumulation. After the body at position `n`: (the output block's staging buffer, the accumulator) — the
    case the closed forms select at `n`, run at the point's memrefs and input blocks, the accumulator read at
    what position `n - 1` left. -/
def outsAt0 (c : Dev nD) : (n : ℕ) → n < cfg0.N → Vec F S1x64 .f32 × Vec F S1x64 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at the first point: case A's contents. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a middle point: case B's contents, over what the point before left. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last point: case C's contents, over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before position `n`: before the first point what the region is entered with (the accumulator at anything);
    afterwards the accumulator at what the point before left in it, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

/-- After point `n`: the accumulator at that point's contents. -/
theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The region's proof data -/

/-- On core `c`: the arrays as the region finds them (`V`); after the body at point `t` each input's buffer at its
    block and the output block's buffer at `outsAt0`'s first component; the invariant `PhiS`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

/-- The proof data's arrays are the entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the closed forms say which case the point is
    in; the invariant hands the body the accumulator at what the point before left (at anything at the first
    point) and takes it back at this point's contents, its pieces covering the buffer; the output block's buffer
    is handed back untouched except at the last point, where its piece covers it; the other scoped buffers, the
    generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · exfalso; omega
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      have hz : t.val ≠ 0 := by omega
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      have hz : t.val ≠ 0 := by omega
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives back what the region was entered with: the accumulator's named contents
    are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Region0

end Cert.Kernel.Hand

end
-- ==== Proof.K.R1Frame.lean ====
import proofs.«409071_j82351702934075_2_alg».proof.Proof.Gen.Kernel.Launch
import proofs.«409071_j82351702934075_2_alg».proof.Proof.Gen.Kernel.Skeleton
import proofs.«409071_j82351702934075_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1 (the fifteen-window body on a grid of one point): the frame half

At contents `V` of the core's buffers when the region is entered: every window's block is its whole array; the
body reads the fourteen input blocks whole and stores one value into the output block through the rectangle that
is the whole buffer. So after the body the inputs' staging buffers hold what they held and the output's holds
that one value, a function of the fourteen input blocks. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each the whole of its buffer -/

abbrev r1_0 : Rect S256x64 := Rect.unit (s := S256x64) ![0, 0] S256x64.size inb_S256x64_S256x64_0_0
abbrev r1_1 : Rect S1x64 := Rect.unit (s := S1x64) ![0, 0] S1x64.size inb_S1x64_S1x64_0_0
abbrev r1_2 : Rect S64x128 := Rect.unit (s := S64x128) ![0, 0] S64x128.size inb_S64x128_S64x128_0_0
abbrev r1_3 : Rect S1x128 := Rect.unit (s := S1x128) ![0, 0] S1x128.size inb_S1x128_S1x128_0_0
abbrev r1_4 : Rect S192x128 := Rect.unit (s := S192x128) ![0, 0] S192x128.size inb_S192x128_S192x128_0_0
abbrev r1_5 : Rect S1x128 := Rect.unit (s := S1x128) ![0, 0] S1x128.size inb_S1x128_S1x128_0_0
abbrev r1_6 : Rect S128x128 := Rect.unit (s := S128x128) ![0, 0] S128x128.size inb_S128x128_S128x128_0_0
abbrev r1_7 : Rect S1x128 := Rect.unit (s := S1x128) ![0, 0] S1x128.size inb_S1x128_S1x128_0_0
abbrev r1_8 : Rect S128x128 := Rect.unit (s := S128x128) ![0, 0] S128x128.size inb_S128x128_S128x128_0_0
abbrev r1_9 : Rect S1x128 := Rect.unit (s := S1x128) ![0, 0] S1x128.size inb_S1x128_S1x128_0_0
abbrev r1_10 : Rect S128x1 := Rect.unit (s := S128x1) ![0, 0] S128x1.size inb_S128x1_S128x1_0_0
abbrev r1_11 : Rect S1x1 := Rect.unit (s := S1x1) ![0, 0] S1x1.size inb_S1x1_S1x1_0_0
abbrev r1_12 : Rect S128x8 := Rect.unit (s := S128x8) ![0, 0] S128x8.size inb_S128x8_S128x8_0_0
abbrev r1_13 : Rect S1x8 := Rect.unit (s := S1x8) ![0, 0] S1x8.size inb_S1x8_S1x8_0_0
abbrev r1_14 : Rect S256x8 := Rect.unit (s := S256x8) ![0, 0] S256x8.size inb_S256x8_S256x8_0_0

/-- The whole-buffer rectangles' offsets are zero. -/
theorem offs1_zero : (![0, 0] : Fin 2 → ℕ) = fun _ => 0 := funext (Fin.forall_fin_two.mpr ⟨rfl, rfl⟩)

/-! ## What the body leaves in the output window's buffer -/

/-- The output window's staging buffer after the body, from the fourteen input blocks: its one store as a piece,
    the stored value over what the fourteen loads read. -/
def out1_14 (x0 : Vec F S256x64 .f32) (x1 : Vec F S1x64 .f32) (x2 : Vec F S64x128 .f32) (x3 : Vec F S1x128 .f32) (x4 : Vec F S192x128 .f32) (x5 : Vec F S1x128 .f32) (x6 : Vec F S128x128 .f32) (x7 : Vec F S1x128 .f32) (x8 : Vec F S128x128 .f32) (x9 : Vec F S1x128 .f32) (x10 : Vec F S128x1 .f32) (x11 : Vec F S1x1 .f32) (x12 : Vec F S128x8 .f32) (x13 : Vec F S1x8 .f32) : Vec F S256x8 .f32 :=
  View.canon [⟨r1_14, k1_pay1 (k1_pay2 (View.ld x0 r1_0) (View.ld x1 r1_1) (View.ld x2 r1_2) (View.ld x3 r1_3) (View.ld x4 r1_4) (View.ld x5 r1_5) (View.ld x6 r1_6) (View.ld x7 r1_7)) (View.ld x8 r1_8) (View.ld x9 r1_9) (View.ld x10 r1_10) (View.ld x12 r1_12) (View.ld x11 r1_11) (View.ld x13 r1_13)⟩]

/-- Every load reads its whole block and the one store fills the whole buffer: the output is the stored value over
    the input blocks themselves. -/
theorem out1_14_eq (x0 : Vec F S256x64 .f32) (x1 : Vec F S1x64 .f32) (x2 : Vec F S64x128 .f32) (x3 : Vec F S1x128 .f32) (x4 : Vec F S192x128 .f32) (x5 : Vec F S1x128 .f32) (x6 : Vec F S128x128 .f32) (x7 : Vec F S1x128 .f32) (x8 : Vec F S128x128 .f32) (x9 : Vec F S1x128 .f32) (x10 : Vec F S128x1 .f32) (x11 : Vec F S1x1 .f32) (x12 : Vec F S128x8 .f32) (x13 : Vec F S1x8 .f32) :
    out1_14 x0 x1 x2 x3 x4 x5 x6 x7 x8 x9 x10 x11 x12 x13 = k1_pay1 (k1_pay2 x0 x1 x2 x3 x4 x5 x6 x7) x8 x9 x10 x12 x11 x13 := by
  unfold out1_14
  rw [View.canon_unit_zero offs1_zero]
  simp only [View.ld_unit_zero (S := S256x64) offs1_zero,
    View.ld_unit_zero (S := S1x64) offs1_zero,
    View.ld_unit_zero (S := S64x128) offs1_zero,
    View.ld_unit_zero (S := S1x128) offs1_zero,
    View.ld_unit_zero (S := S192x128) offs1_zero,
    View.ld_unit_zero (S := S128x128) offs1_zero,
    View.ld_unit_zero (S := S128x1) offs1_zero,
    View.ld_unit_zero (S := S1x1) offs1_zero,
    View.ld_unit_zero (S := S128x8) offs1_zero,
    View.ld_unit_zero (S := S1x8) offs1_zero]

/-- The one store's rectangle is the whole output buffer: every index is under it. -/
theorem cover1_14 (p : Vec F S256x8 .f32) (y : S256x8.Idx) :
    ∃ pc ∈ ([⟨r1_14, p⟩] : List (View.Piece (Elt F) S256x8 .f32)), y ∈ pc.1.set :=
  ⟨_, List.mem_singleton_self _, View.mem_set_unit_zero offs1_zero inb_S256x8_S256x8_0_0 y⟩

/-! ## The body's triple -/

set_option maxHeartbeats 4000000 in
/-- The body on whole staging memrefs, the fourteen inputs' reading `x0 … x13` and the output's anything, runs to
    the continuation with the inputs' as they were and the output's reading `out1_14` of the inputs: eight loads
    and the value of the first sixty statements, six more loads, a load of the output nobody reads, and the store. -/
theorem sound_kernel1 (c : Dev nD) (E : Set ℕ) (i : grid1.Coords) (arg1 : Memref sig .tc .vmem S256x64 .f32) (harg1 : arg1.IsWhole) (arg2 : Memref sig .tc .vmem S1x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S192x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x1 .f32) (harg11 : arg11.IsWhole) (arg12 : Memref sig .tc .vmem S1x1 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole)
    (x0 : Vec F S256x64 .f32) (x1 : Vec F S1x64 .f32) (x2 : Vec F S64x128 .f32) (x3 : Vec F S1x128 .f32) (x4 : Vec F S192x128 .f32) (x5 : Vec F S1x128 .f32) (x6 : Vec F S128x128 .f32) (x7 : Vec F S1x128 .f32) (x8 : Vec F S128x128 .f32) (x9 : Vec F S1x128 .f32) (x10 : Vec F S128x1 .f32) (x11 : Vec F S1x1 .f32) (x12 : Vec F S128x8 .f32) (x13 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out1_14 x0 x1 x2 x3 x4 x5 x6 x7 x8 x9 x10 x11 x12 x13)) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitl []
    · ipureintro; rfl
    · iexact H0
  isplitl [H1]
  · iexists f1; isplitl []
    · ipureintro; rfl
    · iexact H1
  isplitl [H2]
  · iexists f2; isplitl []
    · ipureintro; rfl
    · iexact H2
  isplitl [H3]
  · iexists f3; isplitl []
    · ipureintro; rfl
    · iexact H3
  isplitl [H4]
  · iexists f4; isplitl []
    · ipureintro; rfl
    · iexact H4
  isplitl [H5]
  · iexists f5; isplitl []
    · ipureintro; rfl
    · iexact H5
  isplitl [H6]
  · iexists f6; isplitl []
    · ipureintro; rfl
    · iexact H6
  isplitl [H7]
  · iexists f7; isplitl []
    · ipureintro; rfl
    · iexact H7
  isplitl [H8]
  · iexists f8; isplitl []
    · ipureintro; rfl
    · iexact H8
  isplitl [H9]
  · iexists f9; isplitl []
    · ipureintro; rfl
    · iexact H9
  isplitl [H10]
  · iexists f10; isplitl []
    · ipureintro; rfl
    · iexact H10
  isplitl [H11]
  · iexists f11; isplitl []
    · ipureintro; rfl
    · iexact H11
  isplitl [H12]
  · iexists f12; isplitl []
    · ipureintro; rfl
    · iexact H12
  isplitl [H13]
  · iexists f13; isplitl []
    · ipureintro; rfl
    · iexact H13
  iexists _; isplitl []
  rotate_left
  · iexact H14
  · ipureintro
    rw [View.read_writes_eq_canon _ _ _ (cover1_14 _)]
    sl_unfold_run_names
    rfl

/-! ## The pipeline's proof data -/

/-- The proof data of the pipeline on core `c`: the arrays as the region finds them; after the body each input's
    buffer at its block and the output's at `out1_14` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves in the output window. -/
theorem after1_14 (c : Dev nD) (t : Fin cfg1.N) : (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by
  dsimp only [dat1]

/-- What the body leaves in each input window: its block, in place. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]

/-- Every input window is fetched at the grid's one point, so its staging buffer holds its block when the body runs:
    what a fetch puts in an uncut buffer is the array's block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rfl)
theorem before1_3 (c : Dev nD) (t : Fin cfg1.N) (d) : (dat1 V c).before 3 t d = iblk1 V c 3 t :=
  ((dat1 V c).before_fetched 3 t (fetch1_3 t) d).trans (by unfold Dat.fetched Dat.blockOf iblk1; rfl)
theorem before1_4 (c : Dev nD) (t : Fin cfg1.N) (d) : (dat1 V c).before 4 t d = iblk1 V c 4 t :=
  ((dat1 V c).before_fetched 4 t (fetch1_4 t) d).trans (by unfold Dat.fetched Dat.blockOf iblk1; rfl)
theorem before1_5 (c : Dev nD) (t : Fin cfg1.N) (d) : (dat1 V c).before 5 t d = iblk1 V c 5 t :=
  ((dat1 V c).before_fetched 5 t (fetch1_5 t) d).trans (by unfold Dat.fetched Dat.blockOf iblk1; rfl)
theorem before1_6 (c : Dev nD) (t : Fin cfg1.N) (d) : (dat1 V c).before 6 t d = iblk1 V c 6 t :=
  ((dat1 V c).before_fetched 6 t (fetch1_6 t) d).trans (by unfold Dat.fetched Dat.blockOf iblk1; rfl)
theorem before1_7 (c : Dev nD) (t : Fin cfg1.N) (d) : (dat1 V c).before 7 t d = iblk1 V c 7 t :=
  ((dat1 V c).before_fetched 7 t (fetch1_7 t) d).trans (by unfold Dat.fetched Dat.blockOf iblk1; rfl)
theorem before1_8 (c : Dev nD) (t : Fin cfg1.N) (d) : (dat1 V c).before 8 t d = iblk1 V c 8 t :=
  ((dat1 V c).before_fetched 8 t (fetch1_8 t) d).trans (by unfold Dat.fetched Dat.blockOf iblk1; rfl)
theorem before1_9 (c : Dev nD) (t : Fin cfg1.N) (d) : (dat1 V c).before 9 t d = iblk1 V c 9 t :=
  ((dat1 V c).before_fetched 9 t (fetch1_9 t) d).trans (by unfold Dat.fetched Dat.blockOf iblk1; rfl)
theorem before1_10 (c : Dev nD) (t : Fin cfg1.N) (d) : (dat1 V c).before 10 t d = iblk1 V c 10 t :=
  ((dat1 V c).before_fetched 10 t (fetch1_10 t) d).trans (by unfold Dat.fetched Dat.blockOf iblk1; rfl)
theorem before1_11 (c : Dev nD) (t : Fin cfg1.N) (d) : (dat1 V c).before 11 t d = iblk1 V c 11 t :=
  ((dat1 V c).before_fetched 11 t (fetch1_11 t) d).trans (by unfold Dat.fetched Dat.blockOf iblk1; rfl)
theorem before1_12 (c : Dev nD) (t : Fin cfg1.N) (d) : (dat1 V c).before 12 t d = iblk1 V c 12 t :=
  ((dat1 V c).before_fetched 12 t (fetch1_12 t) d).trans (by unfold Dat.fetched Dat.blockOf iblk1; rfl)
theorem before1_13 (c : Dev nD) (t : Fin cfg1.N) (d) : (dat1 V c).before 13 t d = iblk1 V c 13 t :=
  ((dat1 V c).before_fetched 13 t (fetch1_13 t) d).trans (by unfold Dat.fetched Dat.blockOf iblk1; rfl)

/-! ## The body obligation, at a point -/

/-- What the body is called with at point `t`: the invariant, the core's debt, and each window's current staging
    buffer whole at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

/-- and what it returns: the same with each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

/-- The body at the point: the inputs' buffers hold their blocks, so the body's triple applies at those blocks; the
    invariant and the debt are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation1 (c : Dev nD) : BodyObligation (dat1 (F := F) V c) (defs₀ (F := F)) Variants.none () Set.univ := by
  intro t
  rw [bigSep_W1, bigSep_W1]
  exact sound_body1 V c t

end Region1

end Cert.Kernel.Hand

end
-- ==== Proof.K.RegsDefs.lean ====
/-
  The buffers' contents along the kernel program's run, as one chain of valuations.

  The program is ten stretches of host operations, the first kernel region, one more stretch, the second kernel
  region.  Before the first region core c's buffers hold 'V10 m c' (the launch memory pushed through the ten
  stretches).  The first region changes only its output array, which ends holding what the region's write-backs
  leave ('arrAt' of the region's proof data at the last point); every other buffer is kept.  The last stretch runs
  from there, and the second region again changes only its output array.  'outs' names, for the generated chain
  of valuations, what each region leaves in the buffers it may change.
-/
import proofs.«409071_j82351702934075_2_alg».proof.Proof.Gen.Kernel.Regions
import proofs.«409071_j82351702934075_2_alg».proof.Proof.K.R0Frame
import proofs.«409071_j82351702934075_2_alg».proof.Proof.K.R1Frame
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core c's buffers when the first region is entered, read at the TensorCore's references. -/
abbrev VE0 : (c : Dev nD) → (b : Ref sig .tc) → Buf (Elt F) ((c : Thread nD τ).loc b) := fun c b => Gen.V10 m c b

/-- Core c's buffers when the first region is left: its arrays at what its write-backs leave, the others kept. -/
def W11 (c : Dev nD) : Valuation τ sig (Elt F) :=
  Pipeline.withArrays spec0 c (Gen.V10 m c) fun w => (dat0 (VE0 m) c).arrAt w cfg0.N

/-- What the first region leaves, as the generated chain's unknown. -/
def outs11 : Gen.Outs (F := F) := fun _ r c => W11 m c r

/-- Core c's buffers when the second region is entered, read at the TensorCore's references. -/
abbrev VE1 : (c : Dev nD) → (b : Ref sig .tc) → Buf (Elt F) ((c : Thread nD τ).loc b) := fun c b => Gen.V12 m (outs11 m) c b

/-- Core c's buffers when the second region is left. -/
def W13 (c : Dev nD) : Valuation τ sig (Elt F) :=
  Pipeline.withArrays spec1 c (Gen.V12 m (outs11 m) c) fun w => (dat1 (VE1 m) c).arrAt w cfg1.N

/-- What each region leaves in the buffers it may change: after item 12 the second region's exit contents, before
    that the first region's. -/
def outs : Gen.Outs (F := F) := fun J r c => if J = 13 then W13 m c r else W11 m c r

theorem outs_11 (r : Ref sig .tc) (c : Dev nD) : outs m 11 r c = W11 m c r := if_neg (by decide)
theorem outs_13 (r : Ref sig .tc) (c : Dev nD) : outs m 13 r c = W13 m c r := if_pos rfl

/-- The chain's valuation after the first region is the same under 'outs' and under 'outs11'. -/
theorem V11_outs (c : Dev nD) : Gen.V11 m (outs m) c = Gen.V11 m (outs11 m) c := by
  unfold Gen.V11; rw [outs_11]; rfl

theorem V12_outs (c : Dev nD) : Gen.V12 m (outs m) c = Gen.V12 m (outs11 m) c := by
  unfold Gen.V12; rw [V11_outs]

/-- The first region's output array ends at its write-backs' fold. -/
theorem W11_out (c : Dev nD) : W11 m c (Proc.devRef .tc main_v41) = (dat0 (VE0 m) c).arrAt 2 cfg0.N := by
  unfold W11; exact Pipeline.withArrays_arr spec0 launch0.win.arr_inj c _ _ 2

/-- The second region's output array ends at its write-backs' fold. -/
theorem W13_out (c : Dev nD) : W13 m c (Proc.devRef .tc main_v48) = (dat1 (VE1 m) c).arrAt 14 cfg1.N := by
  unfold W13; exact Pipeline.withArrays_arr spec1 launch1.win.arr_inj c _ _ 14

end Cert.Kernel.Hand

end
-- ==== Proof.K.Regs.lean ====
/-
  The two kernel regions as segments of the kernel program's run.

  Each region is entered from the state "every unscoped buffer of the core holds the chain's valuation before the
  region; the core's random generator register is at some state; the core owes nothing", and left in the same
  state over the chain's valuation after the region.  Entering splits the region's arrays out of the unscoped
  buffers; leaving puts them back at their final contents; the generator register rides through the region's
  invariant; the kernels use no semaphore of their own.
-/
import proofs.«409071_j82351702934075_2_alg».proof.Proof.K.RegsDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the first region leaves, array by array -/

/-- Core c's buffers when the first region is left, read at the TensorCore's references. -/
abbrev VX0 : (c : Dev nD) → (b : Ref sig .tc) → Buf (Elt F) ((c : Thread nD τ).loc b) := fun c b => Gen.V11 m (outs m) c b

/-- Each array of the first region ends at what its write-backs leave: the two inputs unchanged, the output at its
    fold. -/
theorem hF0 (c : Dev nD) (w : Fin cfg0.W) : (dat0 (VE0 m) c).arrAt w cfg0.N = VX0 m c (Pipeline.arrRef spec0 w) := by
  match w with
  | ⟨0, _⟩ =>
    exact (((dat0 (VE0 m) c).arrAt_in 0 rfl _).trans (A_eq0 (VE0 m) c 0)).trans (Gen.V11_of m (outs m) c _ (by decide)).symm
  | ⟨1, _⟩ =>
    exact (((dat0 (VE0 m) c).arrAt_in 1 rfl _).trans (A_eq0 (VE0 m) c 1)).trans (Gen.V11_of m (outs m) c _ (by decide)).symm
  | ⟨2, _⟩ =>
    show _ = Gen.V11 m (outs m) c (Proc.devRef .tc main_v41)
    unfold Gen.V11
    rw [Function.update_self, outs_11]
    exact (W11_out m c).symm

/-- Every other buffer is kept by the first region. -/
theorem hrest0 (c : Dev nD) : ∀ b, b ∉ Finset.univ.image (Pipeline.arrRef spec0) → VX0 m c b = VE0 m c b :=
  fun b hb => Gen.V11_of m (outs m) c b (by
    intro h
    rw [List.mem_singleton] at h
    exact hb (Finset.mem_image.mpr ⟨2, Finset.mem_univ _, h.symm⟩))

/-! ## What the second region leaves -/

/-- Core c's buffers when the second region is entered, under 'outs'. -/
abbrev VE1' : (c : Dev nD) → (b : Ref sig .tc) → Buf (Elt F) ((c : Thread nD τ).loc b) := fun c b => Gen.V12 m (outs m) c b

theorem VE1'_eq : VE1' m = VE1 m := by
  funext c b; show Gen.V12 m (outs m) c _ = Gen.V12 m (outs11 m) c _; rw [V12_outs]

/-- Core c's buffers when the second region is left. -/
abbrev VX1 : (c : Dev nD) → (b : Ref sig .tc) → Buf (Elt F) ((c : Thread nD τ).loc b) := fun c b => Gen.V13 m (outs m) c b

/-- An input array of the second region is unchanged by it. -/
theorem hF1_in (c : Dev nD) (w : Fin cfg1.W) (hin : (cfg1.win w).isOut = false)
    (hne : Pipeline.arrRef spec1 w ∉ ([main_v48] : List (Ref sig .tc))) :
    (dat1 (VE1 m) c).arrAt w cfg1.N = VX1 m c (Pipeline.arrRef spec1 w) :=
  (((dat1 (VE1 m) c).arrAt_in w hin _).trans (A_eq1 (VE1 m) c w)).trans
    ((congrFun (congrFun (VE1'_eq m) c) _).symm.trans (Gen.V13_of m (outs m) c _ hne).symm)

/-- Every window of the second region but the last is an input, and its array is not the result buffer. -/
theorem win1_inputs : ∀ w : Fin cfg1.W, w ≠ 14 → (cfg1.win w).isOut = false ∧ Pipeline.arrRef spec1 w ∉ ([main_v48] : List (Ref sig .tc)) := by
  decide +kernel

/-- Each array of the second region ends at what its write-backs leave: the fourteen inputs unchanged, the output
    at its fold. -/
theorem hF1 (c : Dev nD) (w : Fin cfg1.W) : (dat1 (VE1 m) c).arrAt w cfg1.N = VX1 m c (Pipeline.arrRef spec1 w) := by
  by_cases hw : w = 14
  · subst hw
    show _ = Gen.V13 m (outs m) c (Proc.devRef .tc main_v48)
    unfold Gen.V13
    rw [Function.update_self, outs_13]
    exact (W13_out m c).symm
  · exact hF1_in m c w (win1_inputs w hw).1 (win1_inputs w hw).2

/-- Every other buffer is kept by the second region. -/
theorem hrest1 (c : Dev nD) : ∀ b, b ∉ Finset.univ.image (Pipeline.arrRef spec1) → VX1 m c b = VE1' m c b :=
  fun b hb => Gen.V13_of m (outs m) c b (by
    intro h
    rw [List.mem_singleton] at h
    exact hb (Finset.mem_image.mpr ⟨14, Finset.mem_univ _, h.symm⟩))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state and its
    'owes', at nothing. -/
abbrev R (c : Dev nD) : sProp 𝕄 := iprop((∃ r, prngReg c r) ∗ ∃ W, owes (c : Thread nD τ) (0 : CellTallies nD τ sig Unit) W)

/-- The rest states of the generated chain: the same at all three places. -/
abbrev E : Fin 3 → Dev nD → sProp 𝕄 := fun _ c => R c

/-! ## The regions as segments -/

set_option backward.isDefEq.respectTransparency.types false in
/-- The first region: entered from every unscoped buffer at 'V10', left at 'V11' under 'outs'. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (Gen.V10 m c) ∗ R c)
  post c := iprop(StableHlo.held (c : Thread nD τ) (Pipeline.ucRefs τ sig) (Gen.V11 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (VE0 m) c)
    unfold Pipeline.ΦA
    iintro ⟨Hp, -, Hr⟩
    isplitl [Hr]; · iexact Hr
    iexact Hp
  hout c := by
    refine (hout0 (VE0 m) c).trans (?_ : (Pipeline.ΦA spec0 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at 'V12' under 'outs', left at 'V13'. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (Gen.V12 m (outs m) c) ∗ R c)
  post c := iprop(StableHlo.held (c : Thread nD τ) (Pipeline.ucRefs τ sig) (Gen.V13 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none, V12_outs]
    have hsplit := Pipeline.arrays_of_unscopedBufs (p := 1) (pcfgs (F := F)) Gen.adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (fun b hb => (hrest1 m c b hb).trans (congrFun (congrFun (VE1'_eq m) c) b))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The kernel program's run: every weakly fair execution from any memory with zero counters terminates without a
  fault, its result array holds what the second region's write-backs leave, and its argument arrays are unchanged.

  The run is the chain of the program's items — ten stretches of host operations, the first kernel region, one more
  stretch, the second kernel region — each entered from the state the one before it leaves.  The first theorem is
  the chain for any record of the two regions and reads, besides the arguments, the result buffer off the last
  valuation; the second instantiates it with this program's two regions.
-/
import proofs.«409071_j82351702934075_2_alg».proof.Proof.K.Regs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

-- the launch theorem's implicit arguments are found by unifying its conclusion with this one, which takes unfolding
-- plain definitions in a metavariable's type
set_option backward.isDefEq.respectTransparency.types false in
/-- The chain, given the regions' records: as the arguments, the result buffer 'main_v48' ends holding the last
    valuation's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V10 m c) ∗ E 0 c) ⊢ R0.pre c)
    (hpost0 : ∀ c : Dev nD, R0.post c ⊢ iprop(StableHlo.held (c : Thread nD τ) (Pipeline.ucRefs τ sig) (V11 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V12 m outs c) ∗ E 1 c) ⊢ R1.pre c)
    (hpost1 : ∀ c : Dev nD, R1.post c ⊢ iprop(StableHlo.held (c : Thread nD τ) (Pipeline.ucRefs τ sig) (V13 m outs c) ∗ E 2 c)) :
    θ_run defs (onTc (τ := τ) (main (F := F))) ⟨m, fun _ => 0, ρ⟩ (fun r => ∀ c : Dev nD,
      r.2.mem ((c.tc : Thread nD τ).loc main_v48) = V13 m outs c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, .rfl, .rfl, .rfl, .rfl, .rfl, .rfl, .rfl, hpre0 c, hpost0 c, hpre1 c, (hpost1 c).trans (sep_mono .rfl (hE2 c))⟩)
    (hinit := ?_) (QY := fun c s => s.mem ((c.tc : Thread nD τ).loc main_v48) = V13 m outs c main_v48 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨h (Proc.devRef .tc main_v48) (Finset.mem_filter.mpr ⟨StableHlo.devRef_mem_tcRefs main_v48, by decide⟩),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c),
        (h (Proc.devRef .tc main_arg5) (Finset.mem_filter.mpr ⟨StableHlo.devRef_mem_tcRefs main_arg5, by decide⟩)).trans (V13_main_arg5 m outs c),
        (h (Proc.devRef .tc main_arg6) (Finset.mem_filter.mpr ⟨StableHlo.devRef_mem_tcRefs main_arg6, by decide⟩)).trans (V13_main_arg6 m outs c),
        (h (Proc.devRef .tc main_arg7) (Finset.mem_filter.mpr ⟨StableHlo.devRef_mem_tcRefs main_arg7, by decide⟩)).trans (V13_main_arg7 m outs c),
        (h (Proc.devRef .tc main_arg8) (Finset.mem_filter.mpr ⟨StableHlo.devRef_mem_tcRefs main_arg8, by decide⟩)).trans (V13_main_arg8 m outs c),
        (h (Proc.devRef .tc main_arg9) (Finset.mem_filter.mpr ⟨StableHlo.devRef_mem_tcRefs main_arg9, by decide⟩)).trans (V13_main_arg9 m outs c),
        (h (Proc.devRef .tc main_arg10) (Finset.mem_filter.mpr ⟨StableHlo.devRef_mem_tcRefs main_arg10, by decide⟩)).trans (V13_main_arg10 m outs c),
        (h (Proc.devRef .tc main_arg11) (Finset.mem_filter.mpr ⟨StableHlo.devRef_mem_tcRefs main_arg11, by decide⟩)).trans (V13_main_arg11 m outs c),
        (h (Proc.devRef .tc main_arg12) (Finset.mem_filter.mpr ⟨StableHlo.devRef_mem_tcRefs main_arg12, by decide⟩)).trans (V13_main_arg12 m outs c),
        (h (Proc.devRef .tc main_arg13) (Finset.mem_filter.mpr ⟨StableHlo.devRef_mem_tcRefs main_arg13, by decide⟩)).trans (V13_main_arg13 m outs c),
        (h (Proc.devRef .tc main_arg14) (Finset.mem_filter.mpr ⟨StableHlo.devRef_mem_tcRefs main_arg14, by decide⟩)).trans (V13_main_arg14 m outs c),
        (h (Proc.devRef .tc main_arg15) (Finset.mem_filter.mpr ⟨StableHlo.devRef_mem_tcRefs main_arg15, by decide⟩)).trans (V13_main_arg15 m outs c),
        (h (Proc.devRef .tc main_arg16) (Finset.mem_filter.mpr ⟨StableHlo.devRef_mem_tcRefs main_arg16, by decide⟩)).trans (V13_main_arg16 m outs c)⟩
    · iexact HSI

/-! ## This program's run -/

-- the chain's implicit arguments are found by unifying its conclusion with this one
set_option backward.isDefEq.respectTransparency.types false in
/-- At the compiled mesh, from any memory with zero counters: every weakly fair execution of the program terminates,
    nothing faulting; the result array holds the second region's final contents and every argument is unchanged. -/
theorem run_main (ρ : Dev nD → PrngReg) :
    θ_run defs (onTc (τ := τ) (main (F := F))) ⟨m, fun _ => 0, ρ⟩ (fun r => ∀ c : Dev nD,
      r.2.mem ((c.tc : Thread nD τ).loc main_v48) = W13 m c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine (θ_run defs _ _).mono (fun r h c => ⟨((h c).1).trans ?_, (h c).2⟩)
    (run_cond m (Ix := Unit) (U := UR sig nD τ) (Lvl := ℕ) emb₁ () 𝒱₀ L lv (fun _ _ => rfl) ρ (outs m) (pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := E)
      (hE0 := Pipeline.initEach L lv fun c => by
        iintro ⟨⟨-, HO, -, Hp, -⟩, -⟩
        imodintro
        isplitl [Hp]; · iexists _; iexact Hp
        iexists ∅; iexact HO)
      (hE2 := fun c => by iintro ⟨-, HO⟩; iexact HO)
      (reg0 m) (fun c => .rfl) (fun c => .rfl) (reg1 m) (fun c => .rfl) (fun c => .rfl))
  show Gen.V13 m (outs m) c (Proc.devRef .tc main_v48) = _
  unfold Gen.V13
  rw [Function.update_self, outs_13]

end Cert.Kernel.Hand

end
-- ==== Proof.KI.R0Base.lean ====
/- Region 0 (the blockwise reduction, a grid of 8 points): what its three control cases share.
   At point t the body adds the product of the t-th 1x6272 block of the first operand and the t-th 6272x64 block of
   the second into a 1x64 accumulator kept in a scratch buffer between points; the accumulator is set to zero at
   point 0 and copied into the 1x64 output block at point 7. Stated here: each window's block at a point, read off
   the arrays' contents V when the region is entered; that an input window's staging buffer holds its block at
   every point; the two branch conditions in closed form over the grid; at which points the output window is idle
   and not written back; the staging and scratch memrefs; the region invariant with the scratch buffer singled out. -/
import proofs.«409071_j82351702934075_2_alg».proof.Proof.Gen.KernelIdeal.Launch
import proofs.«409071_j82351702934075_2_alg».proof.Proof.Gen.KernelIdeal.Skeleton
import proofs.«409071_j82351702934075_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
-- the buffers' contents when the region is entered
variable (V : (c : Dev nD) → (b : Ref sig .tc) → Buf (Elt F) ((c : Thread nD τ).loc b))

/-! ## The windows' blocks -/

/-- Window `w`'s block at point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's staging buffer holds the point's 1x6272 block at every point, fetched there or not (an
    unfetched point's block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second operand's staging buffer holds the point's 6272x64 block at every point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the first conditional (the accumulator is reset), from the grid coordinate: the coordinate
    compared with 0, widened, compared with 0 again. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the second conditional (the accumulator is copied to the output block). -/
abbrev cond0_1 (i : grid0.Coords) : Prop := k0_cond2 i = 1#1
/-- It holds at point 7 only. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At the first point (case A) the output window is idle: nothing is stored into it, -/
theorem idleAt0_2_A : ∀ t : Fin cfg0.N, cond0_0 (grid0.coords t) → ¬cond0_1 (grid0.coords t) → cfg0.idle 2 (grid0.coords t) = true := by decide +kernel
/-- and its block is not written back. -/
theorem noFlush0_2_A : ∀ t : Fin cfg0.N, cond0_0 (grid0.coords t) → ¬cond0_1 (grid0.coords t) → (cfg0.win 2).flush t = false := by decide +kernel
/-- At the middle points (case B) the output window is idle, -/
theorem idleAt0_2_B : ∀ t : Fin cfg0.N, ¬cond0_0 (grid0.coords t) → ¬cond0_1 (grid0.coords t) → cfg0.idle 2 (grid0.coords t) = true := by decide +kernel
/-- and not written back. -/
theorem noFlush0_2_B : ∀ t : Fin cfg0.N, ¬cond0_0 (grid0.coords t) → ¬cond0_1 (grid0.coords t) → (cfg0.win 2).flush t = false := by decide +kernel
/-- At the last point (case C) the output window is live: the accumulator is stored into it. -/
theorem liveAt0_2_C : ∀ t : Fin cfg0.N, ¬cond0_0 (grid0.coords t) → cond0_1 (grid0.coords t) → cfg0.idle 2 (grid0.coords t) = false := by decide +kernel

/-! ## The memrefs the body is called with -/

/-- The output window's one staging buffer, as a view: its contents are stated through it. -/
abbrev VO0_2 : View sig .tc .vmem S1x64 .f32 := (Memref.whole cc0_stg2_0 : Memref sig .tc .vmem S1x64 .f32).view
/-- Each window's current staging memref at point `t`, and its wholeness. -/
abbrev ms0_0 (t : Fin cfg0.N) : Memref sig .tc .vmem S1x6272 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6272x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
/-- The scratch buffer holding the 1x64 accumulator between points, as a whole memref -/
abbrev scM0_0 : Memref sig .tc .vmem S1x64 .f32 := Memref.whole cc0_scratch0
/-- and as a view. -/
abbrev VS0_0 : View sig .tc .vmem S1x64 .f32 := scM0_0.view

/-! ## The region invariant with the accumulator's buffer singled out -/

/-- The core's scoped buffers that are neither a staging buffer of this region nor its accumulator, each at some
    contents: carried through the region unopened. -/
abbrev rest0 (c : Dev nD) : sProp 𝕄 :=
  Pipeline.scopedRestBut (Ix := Unit) (Name := ℕ) (U := UR sig nD τ) (Lvl := ℕ) (Val := Elt F) spec0 c [cc0_scratch0]

/-- The scoped rest is the accumulator's buffer at some contents beside the others. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ rest0 (F := F) c) :=
  Pipeline.scopedRest_split_of_list spec0 c [cc0_scratch0] (by decide) (by decide)

/-- The invariant the region is entered and left with: the accumulator's memref owned at some contents, the other
    scoped buffers, the generator register at some state. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_split]; simp only [scM0_0, owns_whole]; try rfl

end Cert.KernelIdeal.Hand

end
-- ==== Proof.KI.R0RunA.lean ====
/- Region 0, case A (the first point: the first conditional taken, the second not). The body stores zeros into the
   accumulator, loads the two input blocks and the accumulator, stores accumulator + product back, and leaves the
   output block alone. Found here: the pieces the accumulator's buffer ends with (the reset, then the update), with
   the body's triple on whole memrefs — the inputs at their contents, the output at contents handed back untouched,
   the accumulator at anything. -/
import proofs.«409071_j82351702934075_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case A: no piece for the output; the accumulator's pieces, last first, and the body's run to a continuation
    holding the inputs and the output as they were and the accumulator's buffer with its pieces written. -/
noncomputable def kernelRun0_A (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : cond0_0 i) (hc1 : ¬cond0_1 i)
    (x0 : Vec F S1x6272 .f32) (x1 : Vec F S6272x64 .f32) :
    Σ' (L2 : List (View.Piece (Elt F) S1x64 .f32)), { LS0 : List (View.Piece (Elt F) S1x64 .f32) //
      ∀ (xi2 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__reduce_body i arg1 harg1 arg2 harg2 arg3 harg3 arg4 harg4) K } := by
  refine ⟨[], ?_, fun xi2 E K => ?run⟩
  case run =>
    simp only [cc0__reduce_body_eq_skeleton]; unfold cc0__reduce_body_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R0RunB.lean ====
/- Region 0, case B (a middle point: neither conditional taken). The body loads the two input blocks and the
   accumulator, stores accumulator + product back, and leaves the output block alone. Found here: the one piece the
   accumulator's buffer ends with, with the body's triple on whole memrefs — the inputs at their contents, the
   output at contents handed back untouched, the accumulator at what the point before left. -/
import proofs.«409071_j82351702934075_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case B: no piece for the output; the accumulator's piece, and the body's run to a continuation holding the
    inputs and the output as they were and the accumulator's buffer with its piece written. -/
noncomputable def kernelRun0_B (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : ¬cond0_1 i)
    (x0 : Vec F S1x6272 .f32) (x1 : Vec F S6272x64 .f32) (xs0 : Vec F S1x64 .f32) :
    Σ' (L2 : List (View.Piece (Elt F) S1x64 .f32)), { LS0 : List (View.Piece (Elt F) S1x64 .f32) //
      ∀ (xi2 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__reduce_body i arg1 harg1 arg2 harg2 arg3 harg3 arg4 harg4) K } := by
  refine ⟨[], ?_, fun xi2 E K => ?run⟩
  case run =>
    simp only [cc0__reduce_body_eq_skeleton]; unfold cc0__reduce_body_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R0RunC.lean ====
/- Region 0, case C (the last point: the first conditional not taken, the second taken). The body loads the two
   input blocks and the accumulator, stores accumulator + product back, loads the accumulator again and stores it
   into the output block. Found here: the output's piece and the accumulator's piece, with the body's triple on
   whole memrefs — the inputs at their contents, the output at anything, the accumulator at what the point before
   left. -/
import proofs.«409071_j82351702934075_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case C: the output's pieces and the accumulator's, and the body's run to a continuation holding the inputs as
    they were and the two buffers with their pieces written. -/
noncomputable def kernelRun0_C (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : cond0_1 i)
    (x0 : Vec F S1x6272 .f32) (x1 : Vec F S6272x64 .f32) (xs0 : Vec F S1x64 .f32) :
    Σ' (L2 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__reduce_body i arg1 harg1 arg2 harg2 arg3 harg3 arg4 harg4) K } := by
  refine ⟨?_, ?_, fun E K => ?run⟩
  case run =>
    simp only [cc0__reduce_body_eq_skeleton]; unfold cc0__reduce_body_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.R0Frame.lean ====
/- Region 0: the accumulation point by point and the region's proof data, at the entry contents V.
   After point 0 the accumulator holds 0 + (block 0 of the first operand) x (block 0 of the second); after point
   n + 1 it holds what point n left + the product of the blocks at n + 1; after point 7 the output block's buffer
   holds the accumulator. Stated: what each control case leaves in the two buffers (the pieces its run found, which
   cover them); the pair (output block's buffer, accumulator) after each point; the invariant carrying the
   accumulator between points; the proof data; the body obligation at a generic point; that the invariant is what
   the region is entered with before the first point and gives it back after the last. -/
import proofs.«409071_j82351702934075_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each case leaves in the output block's buffer and in the accumulator's -/

/-- Case A stores nothing into the output block: no pieces, a placeholder nothing consults (at the first point the
    window is neither written back nor read at the next point). -/
def out0_A_2 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : cond0_0 i) (hc1 : ¬cond0_1 i) (x0 : Vec F S1x6272 .f32) (x1 : Vec F S6272x64 .f32) : Vec F S1x64 .f32 :=
  VO0_2.read (Elt F) (VO0_2.writes (Elt F) VO0_2.junk (kernelRun0_A c i arg1 harg1 arg2 harg2 arg3 harg3 arg4 harg4 hc0 hc1 x0 x1).1)

/-- Case A's pieces for the accumulator (the reset, then the update) cover its 1x64 buffer. -/
theorem scover0_A_0 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : cond0_0 i) (hc1 : ¬cond0_1 i) (x0 : Vec F S1x6272 .f32) (x1 : Vec F S6272x64 .f32) (y : S1x64.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x64.size (by sl_kernel_rfl) y

/-- What case A leaves in the accumulator: its pieces read back. -/
def sout0_A_0 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : cond0_0 i) (hc1 : ¬cond0_1 i) (x0 : Vec F S1x6272 .f32) (x1 : Vec F S6272x64 .f32) : Vec F S1x64 .f32 :=
  VS0_0.read (Elt F) (VS0_0.writes (Elt F) VS0_0.junk (kernelRun0_A c i arg1 harg1 arg2 harg2 arg3 harg3 arg4 harg4 hc0 hc1 x0 x1).2.1)

/-- Case B stores nothing into the output block: a placeholder nothing consults. -/
def out0_B_2 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : ¬cond0_1 i) (x0 : Vec F S1x6272 .f32) (x1 : Vec F S6272x64 .f32) (xs0 : Vec F S1x64 .f32) : Vec F S1x64 .f32 :=
  VO0_2.read (Elt F) (VO0_2.writes (Elt F) VO0_2.junk (kernelRun0_B c i arg1 harg1 arg2 harg2 arg3 harg3 arg4 harg4 hc0 hc1 x0 x1 xs0).1)

/-- Case B's piece for the accumulator (the update) covers its buffer. -/
theorem scover0_B_0 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : ¬cond0_1 i) (x0 : Vec F S1x6272 .f32) (x1 : Vec F S6272x64 .f32) (xs0 : Vec F S1x64 .f32) (y : S1x64.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x64.size (by sl_kernel_rfl) y

/-- What case B leaves in the accumulator. -/
def sout0_B_0 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : ¬cond0_1 i) (x0 : Vec F S1x6272 .f32) (x1 : Vec F S6272x64 .f32) (xs0 : Vec F S1x64 .f32) : Vec F S1x64 .f32 :=
  VS0_0.read (Elt F) (VS0_0.writes (Elt F) VS0_0.junk (kernelRun0_B c i arg1 harg1 arg2 harg2 arg3 harg3 arg4 harg4 hc0 hc1 x0 x1 xs0).2.1)

/-- Case C's piece for the output block (the accumulator copied) covers it. -/
theorem cover0_C_2 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : cond0_1 i) (x0 : Vec F S1x6272 .f32) (x1 : Vec F S6272x64 .f32) (xs0 : Vec F S1x64 .f32) (y : S1x64.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x64.size (by sl_kernel_rfl) y

/-- What case C leaves in the output block's buffer. -/
def out0_C_2 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : cond0_1 i) (x0 : Vec F S1x6272 .f32) (x1 : Vec F S6272x64 .f32) (xs0 : Vec F S1x64 .f32) : Vec F S1x64 .f32 :=
  VO0_2.read (Elt F) (VO0_2.writes (Elt F) VO0_2.junk (kernelRun0_C c i arg1 harg1 arg2 harg2 arg3 harg3 arg4 harg4 hc0 hc1 x0 x1 xs0).1)

/-- Case C's piece for the accumulator (the update) covers its buffer. -/
theorem scover0_C_0 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : cond0_1 i) (x0 : Vec F S1x6272 .f32) (x1 : Vec F S6272x64 .f32) (xs0 : Vec F S1x64 .f32) (y : S1x64.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x64.size (by sl_kernel_rfl) y

/-- What case C leaves in the accumulator. -/
def sout0_C_0 (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : cond0_1 i) (x0 : Vec F S1x6272 .f32) (x1 : Vec F S6272x64 .f32) (xs0 : Vec F S1x64 .f32) : Vec F S1x64 .f32 :=
  VS0_0.read (Elt F) (VS0_0.writes (Elt F) VS0_0.junk (kernelRun0_C c i arg1 harg1 arg2 harg2 arg3 harg3 arg4 harg4 hc0 hc1 x0 x1 xs0).2.1)

section Region0
-- the buffers' contents when the region is entered
variable (V : (c : Dev nD) → (b : Ref sig .tc) → Buf (Elt F) ((c : Thread nD τ).loc b))

/-! ## What the output block's buffer and the accumulator hold after each point -/

/-- The accumulation. After the body at position `n`: (the output block's staging buffer, the accumulator) — the
    case the closed forms select at `n`, run at the point's memrefs and input blocks, the accumulator read at
    what position `n - 1` left. -/
def outsAt0 (c : Dev nD) : (n : ℕ) → n < cfg0.N → Vec F S1x64 .f32 × Vec F S1x64 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at the first point: case A's contents. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a middle point: case B's contents, over what the point before left. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last point: case C's contents, over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before position `n`: before the first point what the region is entered with (the accumulator at anything);
    afterwards the accumulator at what the point before left in it, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

/-- After point `n`: the accumulator at that point's contents. -/
theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The region's proof data -/

/-- On core `c`: the arrays as the region finds them (`V`); after the body at point `t` each input's buffer at its
    block and the output block's buffer at `outsAt0`'s first component; the invariant `PhiS`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

/-- The proof data's arrays are the entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the closed forms say which case the point is
    in; the invariant hands the body the accumulator at what the point before left (at anything at the first
    point) and takes it back at this point's contents, its pieces covering the buffer; the output block's buffer
    is handed back untouched except at the last point, where its piece covers it; the other scoped buffers, the
    generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · exfalso; omega
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      have hz : t.val ≠ 0 := by omega
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      have hz : t.val ≠ 0 := by omega
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives back what the region was entered with: the accumulator's named contents
    are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Region0

end Cert.KernelIdeal.Hand

end
-- ==== Proof.KI.R1Frame.lean ====
import proofs.«409071_j82351702934075_2_alg».proof.Proof.Gen.KernelIdeal.Launch
import proofs.«409071_j82351702934075_2_alg».proof.Proof.Gen.KernelIdeal.Skeleton
import proofs.«409071_j82351702934075_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1 (the fifteen-window body on a grid of one point): the frame half

At contents `V` of the core's buffers when the region is entered: every window's block is its whole array; the
body reads the fourteen input blocks whole and stores one value into the output block through the rectangle that
is the whole buffer. So after the body the inputs' staging buffers hold what they held and the output's holds
that one value, a function of the fourteen input blocks. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each the whole of its buffer -/

abbrev r1_0 : Rect S256x64 := Rect.unit (s := S256x64) ![0, 0] S256x64.size inb_S256x64_S256x64_0_0
abbrev r1_1 : Rect S1x64 := Rect.unit (s := S1x64) ![0, 0] S1x64.size inb_S1x64_S1x64_0_0
abbrev r1_2 : Rect S64x128 := Rect.unit (s := S64x128) ![0, 0] S64x128.size inb_S64x128_S64x128_0_0
abbrev r1_3 : Rect S1x128 := Rect.unit (s := S1x128) ![0, 0] S1x128.size inb_S1x128_S1x128_0_0
abbrev r1_4 : Rect S192x128 := Rect.unit (s := S192x128) ![0, 0] S192x128.size inb_S192x128_S192x128_0_0
abbrev r1_5 : Rect S1x128 := Rect.unit (s := S1x128) ![0, 0] S1x128.size inb_S1x128_S1x128_0_0
abbrev r1_6 : Rect S128x128 := Rect.unit (s := S128x128) ![0, 0] S128x128.size inb_S128x128_S128x128_0_0
abbrev r1_7 : Rect S1x128 := Rect.unit (s := S1x128) ![0, 0] S1x128.size inb_S1x128_S1x128_0_0
abbrev r1_8 : Rect S128x128 := Rect.unit (s := S128x128) ![0, 0] S128x128.size inb_S128x128_S128x128_0_0
abbrev r1_9 : Rect S1x128 := Rect.unit (s := S1x128) ![0, 0] S1x128.size inb_S1x128_S1x128_0_0
abbrev r1_10 : Rect S128x1 := Rect.unit (s := S128x1) ![0, 0] S128x1.size inb_S128x1_S128x1_0_0
abbrev r1_11 : Rect S1x1 := Rect.unit (s := S1x1) ![0, 0] S1x1.size inb_S1x1_S1x1_0_0
abbrev r1_12 : Rect S128x8 := Rect.unit (s := S128x8) ![0, 0] S128x8.size inb_S128x8_S128x8_0_0
abbrev r1_13 : Rect S1x8 := Rect.unit (s := S1x8) ![0, 0] S1x8.size inb_S1x8_S1x8_0_0
abbrev r1_14 : Rect S256x8 := Rect.unit (s := S256x8) ![0, 0] S256x8.size inb_S256x8_S256x8_0_0

/-- The whole-buffer rectangles' offsets are zero. -/
theorem offs1_zero : (![0, 0] : Fin 2 → ℕ) = fun _ => 0 := funext (Fin.forall_fin_two.mpr ⟨rfl, rfl⟩)

/-! ## What the body leaves in the output window's buffer -/

/-- The output window's staging buffer after the body, from the fourteen input blocks: its one store as a piece,
    the stored value over what the fourteen loads read. -/
def out1_14 (x0 : Vec F S256x64 .f32) (x1 : Vec F S1x64 .f32) (x2 : Vec F S64x128 .f32) (x3 : Vec F S1x128 .f32) (x4 : Vec F S192x128 .f32) (x5 : Vec F S1x128 .f32) (x6 : Vec F S128x128 .f32) (x7 : Vec F S1x128 .f32) (x8 : Vec F S128x128 .f32) (x9 : Vec F S1x128 .f32) (x10 : Vec F S128x1 .f32) (x11 : Vec F S1x1 .f32) (x12 : Vec F S128x8 .f32) (x13 : Vec F S1x8 .f32) : Vec F S256x8 .f32 :=
  View.canon [⟨r1_14, k1_pay1 (k1_pay2 (View.ld x0 r1_0) (View.ld x1 r1_1) (View.ld x2 r1_2) (View.ld x3 r1_3) (View.ld x4 r1_4) (View.ld x5 r1_5) (View.ld x6 r1_6) (View.ld x7 r1_7)) (View.ld x8 r1_8) (View.ld x9 r1_9) (View.ld x10 r1_10) (View.ld x12 r1_12) (View.ld x11 r1_11) (View.ld x13 r1_13)⟩]

/-- Every load reads its whole block and the one store fills the whole buffer: the output is the stored value over
    the input blocks themselves. -/
theorem out1_14_eq (x0 : Vec F S256x64 .f32) (x1 : Vec F S1x64 .f32) (x2 : Vec F S64x128 .f32) (x3 : Vec F S1x128 .f32) (x4 : Vec F S192x128 .f32) (x5 : Vec F S1x128 .f32) (x6 : Vec F S128x128 .f32) (x7 : Vec F S1x128 .f32) (x8 : Vec F S128x128 .f32) (x9 : Vec F S1x128 .f32) (x10 : Vec F S128x1 .f32) (x11 : Vec F S1x1 .f32) (x12 : Vec F S128x8 .f32) (x13 : Vec F S1x8 .f32) :
    out1_14 x0 x1 x2 x3 x4 x5 x6 x7 x8 x9 x10 x11 x12 x13 = k1_pay1 (k1_pay2 x0 x1 x2 x3 x4 x5 x6 x7) x8 x9 x10 x12 x11 x13 := by
  unfold out1_14
  rw [View.canon_unit_zero offs1_zero]
  simp only [View.ld_unit_zero (S := S256x64) offs1_zero,
    View.ld_unit_zero (S := S1x64) offs1_zero,
    View.ld_unit_zero (S := S64x128) offs1_zero,
    View.ld_unit_zero (S := S1x128) offs1_zero,
    View.ld_unit_zero (S := S192x128) offs1_zero,
    View.ld_unit_zero (S := S128x128) offs1_zero,
    View.ld_unit_zero (S := S128x1) offs1_zero,
    View.ld_unit_zero (S := S1x1) offs1_zero,
    View.ld_unit_zero (S := S128x8) offs1_zero,
    View.ld_unit_zero (S := S1x8) offs1_zero]

/-- The one store's rectangle is the whole output buffer: every index is under it. -/
theorem cover1_14 (p : Vec F S256x8 .f32) (y : S256x8.Idx) :
    ∃ pc ∈ ([⟨r1_14, p⟩] : List (View.Piece (Elt F) S256x8 .f32)), y ∈ pc.1.set :=
  ⟨_, List.mem_singleton_self _, View.mem_set_unit_zero offs1_zero inb_S256x8_S256x8_0_0 y⟩

/-! ## The body's triple -/

set_option maxHeartbeats 4000000 in
/-- The body on whole staging memrefs, the fourteen inputs' reading `x0 … x13` and the output's anything, runs to
    the continuation with the inputs' as they were and the output's reading `out1_14` of the inputs: eight loads
    and the value of the first sixty statements, six more loads, a load of the output nobody reads, and the store. -/
theorem sound_kernel1 (c : Dev nD) (E : Set ℕ) (i : grid1.Coords) (arg1 : Memref sig .tc .vmem S256x64 .f32) (harg1 : arg1.IsWhole) (arg2 : Memref sig .tc .vmem S1x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S192x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x1 .f32) (harg11 : arg11.IsWhole) (arg12 : Memref sig .tc .vmem S1x1 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole)
    (x0 : Vec F S256x64 .f32) (x1 : Vec F S1x64 .f32) (x2 : Vec F S64x128 .f32) (x3 : Vec F S1x128 .f32) (x4 : Vec F S192x128 .f32) (x5 : Vec F S1x128 .f32) (x6 : Vec F S128x128 .f32) (x7 : Vec F S1x128 .f32) (x8 : Vec F S128x128 .f32) (x9 : Vec F S1x128 .f32) (x10 : Vec F S128x1 .f32) (x11 : Vec F S1x1 .f32) (x12 : Vec F S128x8 .f32) (x13 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out1_14 x0 x1 x2 x3 x4 x5 x6 x7 x8 x9 x10 x11 x12 x13)) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitl []
    · ipureintro; rfl
    · iexact H0
  isplitl [H1]
  · iexists f1; isplitl []
    · ipureintro; rfl
    · iexact H1
  isplitl [H2]
  · iexists f2; isplitl []
    · ipureintro; rfl
    · iexact H2
  isplitl [H3]
  · iexists f3; isplitl []
    · ipureintro; rfl
    · iexact H3
  isplitl [H4]
  · iexists f4; isplitl []
    · ipureintro; rfl
    · iexact H4
  isplitl [H5]
  · iexists f5; isplitl []
    · ipureintro; rfl
    · iexact H5
  isplitl [H6]
  · iexists f6; isplitl []
    · ipureintro; rfl
    · iexact H6
  isplitl [H7]
  · iexists f7; isplitl []
    · ipureintro; rfl
    · iexact H7
  isplitl [H8]
  · iexists f8; isplitl []
    · ipureintro; rfl
    · iexact H8
  isplitl [H9]
  · iexists f9; isplitl []
    · ipureintro; rfl
    · iexact H9
  isplitl [H10]
  · iexists f10; isplitl []
    · ipureintro; rfl
    · iexact H10
  isplitl [H11]
  · iexists f11; isplitl []
    · ipureintro; rfl
    · iexact H11
  isplitl [H12]
  · iexists f12; isplitl []
    · ipureintro; rfl
    · iexact H12
  isplitl [H13]
  · iexists f13; isplitl []
    · ipureintro; rfl
    · iexact H13
  iexists _; isplitl []
  rotate_left
  · iexact H14
  · ipureintro
    rw [View.read_writes_eq_canon _ _ _ (cover1_14 _)]
    sl_unfold_run_names
    rfl

/-! ## The pipeline's proof data -/

/-- The proof data of the pipeline on core `c`: the arrays as the region finds them; after the body each input's
    buffer at its block and the output's at `out1_14` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves in the output window. -/
theorem after1_14 (c : Dev nD) (t : Fin cfg1.N) : (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by
  dsimp only [dat1]

/-- What the body leaves in each input window: its block, in place. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]

/-- Every input window is fetched at the grid's one point, so its staging buffer holds its block when the body runs:
    what a fetch puts in an uncut buffer is the array's block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rfl)
theorem before1_3 (c : Dev nD) (t : Fin cfg1.N) (d) : (dat1 V c).before 3 t d = iblk1 V c 3 t :=
  ((dat1 V c).before_fetched 3 t (fetch1_3 t) d).trans (by unfold Dat.fetched Dat.blockOf iblk1; rfl)
theorem before1_4 (c : Dev nD) (t : Fin cfg1.N) (d) : (dat1 V c).before 4 t d = iblk1 V c 4 t :=
  ((dat1 V c).before_fetched 4 t (fetch1_4 t) d).trans (by unfold Dat.fetched Dat.blockOf iblk1; rfl)
theorem before1_5 (c : Dev nD) (t : Fin cfg1.N) (d) : (dat1 V c).before 5 t d = iblk1 V c 5 t :=
  ((dat1 V c).before_fetched 5 t (fetch1_5 t) d).trans (by unfold Dat.fetched Dat.blockOf iblk1; rfl)
theorem before1_6 (c : Dev nD) (t : Fin cfg1.N) (d) : (dat1 V c).before 6 t d = iblk1 V c 6 t :=
  ((dat1 V c).before_fetched 6 t (fetch1_6 t) d).trans (by unfold Dat.fetched Dat.blockOf iblk1; rfl)
theorem before1_7 (c : Dev nD) (t : Fin cfg1.N) (d) : (dat1 V c).before 7 t d = iblk1 V c 7 t :=
  ((dat1 V c).before_fetched 7 t (fetch1_7 t) d).trans (by unfold Dat.fetched Dat.blockOf iblk1; rfl)
theorem before1_8 (c : Dev nD) (t : Fin cfg1.N) (d) : (dat1 V c).before 8 t d = iblk1 V c 8 t :=
  ((dat1 V c).before_fetched 8 t (fetch1_8 t) d).trans (by unfold Dat.fetched Dat.blockOf iblk1; rfl)
theorem before1_9 (c : Dev nD) (t : Fin cfg1.N) (d) : (dat1 V c).before 9 t d = iblk1 V c 9 t :=
  ((dat1 V c).before_fetched 9 t (fetch1_9 t) d).trans (by unfold Dat.fetched Dat.blockOf iblk1; rfl)
theorem before1_10 (c : Dev nD) (t : Fin cfg1.N) (d) : (dat1 V c).before 10 t d = iblk1 V c 10 t :=
  ((dat1 V c).before_fetched 10 t (fetch1_10 t) d).trans (by unfold Dat.fetched Dat.blockOf iblk1; rfl)
theorem before1_11 (c : Dev nD) (t : Fin cfg1.N) (d) : (dat1 V c).before 11 t d = iblk1 V c 11 t :=
  ((dat1 V c).before_fetched 11 t (fetch1_11 t) d).trans (by unfold Dat.fetched Dat.blockOf iblk1; rfl)
theorem before1_12 (c : Dev nD) (t : Fin cfg1.N) (d) : (dat1 V c).before 12 t d = iblk1 V c 12 t :=
  ((dat1 V c).before_fetched 12 t (fetch1_12 t) d).trans (by unfold Dat.fetched Dat.blockOf iblk1; rfl)
theorem before1_13 (c : Dev nD) (t : Fin cfg1.N) (d) : (dat1 V c).before 13 t d = iblk1 V c 13 t :=
  ((dat1 V c).before_fetched 13 t (fetch1_13 t) d).trans (by unfold Dat.fetched Dat.blockOf iblk1; rfl)

/-! ## The body obligation, at a point -/

/-- What the body is called with at point `t`: the invariant, the core's debt, and each window's current staging
    buffer whole at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

/-- and what it returns: the same with each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

/-- The body at the point: the inputs' buffers hold their blocks, so the body's triple applies at those blocks; the
    invariant and the debt are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation1 (c : Dev nD) : BodyObligation (dat1 (F := F) V c) (defs₀ (F := F)) Variants.none () Set.univ := by
  intro t
  rw [bigSep_W1, bigSep_W1]
  exact sound_body1 V c t

end Region1

end Cert.KernelIdeal.Hand

end
-- ==== Proof.KI.RegsDefs.lean ====
/-
  The buffers' contents along the kernel program's run, as one chain of valuations.

  The program is ten stretches of host operations, the first kernel region, one more stretch, the second kernel
  region.  Before the first region core c's buffers hold 'V10 m c' (the launch memory pushed through the ten
  stretches).  The first region changes only its output array, which ends holding what the region's write-backs
  leave ('arrAt' of the region's proof data at the last point); every other buffer is kept.  The last stretch runs
  from there, and the second region again changes only its output array.  'outs' names, for the generated chain
  of valuations, what each region leaves in the buffers it may change.
-/
import proofs.«409071_j82351702934075_2_alg».proof.Proof.Gen.KernelIdeal.Regions
import proofs.«409071_j82351702934075_2_alg».proof.Proof.KI.R0Frame
import proofs.«409071_j82351702934075_2_alg».proof.Proof.KI.R1Frame
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- Core c's buffers when the first region is entered, read at the TensorCore's references. -/
abbrev VE0 : (c : Dev nD) → (b : Ref sig .tc) → Buf (Elt F) ((c : Thread nD τ).loc b) := fun c b => Gen.V10 m c b

/-- Core c's buffers when the first region is left: its arrays at what its write-backs leave, the others kept. -/
def W11 (c : Dev nD) : Valuation τ sig (Elt F) :=
  Pipeline.withArrays spec0 c (Gen.V10 m c) fun w => (dat0 (VE0 m) c).arrAt w cfg0.N

/-- What the first region leaves, as the generated chain's unknown. -/
def outs11 : Gen.Outs (F := F) := fun _ r c => W11 m c r

/-- Core c's buffers when the second region is entered, read at the TensorCore's references. -/
abbrev VE1 : (c : Dev nD) → (b : Ref sig .tc) → Buf (Elt F) ((c : Thread nD τ).loc b) := fun c b => Gen.V12 m (outs11 m) c b

/-- Core c's buffers when the second region is left. -/
def W13 (c : Dev nD) : Valuation τ sig (Elt F) :=
  Pipeline.withArrays spec1 c (Gen.V12 m (outs11 m) c) fun w => (dat1 (VE1 m) c).arrAt w cfg1.N

/-- What each region leaves in the buffers it may change: after item 12 the second region's exit contents, before
    that the first region's. -/
def outs : Gen.Outs (F := F) := fun J r c => if J = 13 then W13 m c r else W11 m c r

theorem outs_11 (r : Ref sig .tc) (c : Dev nD) : outs m 11 r c = W11 m c r := if_neg (by decide)
theorem outs_13 (r : Ref sig .tc) (c : Dev nD) : outs m 13 r c = W13 m c r := if_pos rfl

/-- The chain's valuation after the first region is the same under 'outs' and under 'outs11'. -/
theorem V11_outs (c : Dev nD) : Gen.V11 m (outs m) c = Gen.V11 m (outs11 m) c := by
  unfold Gen.V11; rw [outs_11]; rfl

theorem V12_outs (c : Dev nD) : Gen.V12 m (outs m) c = Gen.V12 m (outs11 m) c := by
  unfold Gen.V12; rw [V11_outs]

/-- The first region's output array ends at its write-backs' fold. -/
theorem W11_out (c : Dev nD) : W11 m c (Proc.devRef .tc main_v41) = (dat0 (VE0 m) c).arrAt 2 cfg0.N := by
  unfold W11; exact Pipeline.withArrays_arr spec0 launch0.win.arr_inj c _ _ 2

/-- The second region's output array ends at its write-backs' fold. -/
theorem W13_out (c : Dev nD) : W13 m c (Proc.devRef .tc main_v48) = (dat1 (VE1 m) c).arrAt 14 cfg1.N := by
  unfold W13; exact Pipeline.withArrays_arr spec1 launch1.win.arr_inj c _ _ 14

end Cert.KernelIdeal.Hand

end
-- ==== Proof.KI.Regs.lean ====
/-
  The two kernel regions as segments of the kernel program's run.

  Each region is entered from the state "every unscoped buffer of the core holds the chain's valuation before the
  region; the core's random generator register is at some state; the core owes nothing", and left in the same
  state over the chain's valuation after the region.  Entering splits the region's arrays out of the unscoped
  buffers; leaving puts them back at their final contents; the generator register rides through the region's
  invariant; the kernels use no semaphore of their own.
-/
import proofs.«409071_j82351702934075_2_alg».proof.Proof.KI.RegsDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## What the first region leaves, array by array -/

/-- Core c's buffers when the first region is left, read at the TensorCore's references. -/
abbrev VX0 : (c : Dev nD) → (b : Ref sig .tc) → Buf (Elt F) ((c : Thread nD τ).loc b) := fun c b => Gen.V11 m (outs m) c b

/-- Each array of the first region ends at what its write-backs leave: the two inputs unchanged, the output at its
    fold. -/
theorem hF0 (c : Dev nD) (w : Fin cfg0.W) : (dat0 (VE0 m) c).arrAt w cfg0.N = VX0 m c (Pipeline.arrRef spec0 w) := by
  match w with
  | ⟨0, _⟩ =>
    exact (((dat0 (VE0 m) c).arrAt_in 0 rfl _).trans (A_eq0 (VE0 m) c 0)).trans (Gen.V11_of m (outs m) c _ (by decide)).symm
  | ⟨1, _⟩ =>
    exact (((dat0 (VE0 m) c).arrAt_in 1 rfl _).trans (A_eq0 (VE0 m) c 1)).trans (Gen.V11_of m (outs m) c _ (by decide)).symm
  | ⟨2, _⟩ =>
    show _ = Gen.V11 m (outs m) c (Proc.devRef .tc main_v41)
    unfold Gen.V11
    rw [Function.update_self, outs_11]
    exact (W11_out m c).symm

/-- Every other buffer is kept by the first region. -/
theorem hrest0 (c : Dev nD) : ∀ b, b ∉ Finset.univ.image (Pipeline.arrRef spec0) → VX0 m c b = VE0 m c b :=
  fun b hb => Gen.V11_of m (outs m) c b (by
    intro h
    rw [List.mem_singleton] at h
    exact hb (Finset.mem_image.mpr ⟨2, Finset.mem_univ _, h.symm⟩))

/-! ## What the second region leaves -/

/-- Core c's buffers when the second region is entered, under 'outs'. -/
abbrev VE1' : (c : Dev nD) → (b : Ref sig .tc) → Buf (Elt F) ((c : Thread nD τ).loc b) := fun c b => Gen.V12 m (outs m) c b

theorem VE1'_eq : VE1' m = VE1 m := by
  funext c b; show Gen.V12 m (outs m) c _ = Gen.V12 m (outs11 m) c _; rw [V12_outs]

/-- Core c's buffers when the second region is left. -/
abbrev VX1 : (c : Dev nD) → (b : Ref sig .tc) → Buf (Elt F) ((c : Thread nD τ).loc b) := fun c b => Gen.V13 m (outs m) c b

/-- An input array of the second region is unchanged by it. -/
theorem hF1_in (c : Dev nD) (w : Fin cfg1.W) (hin : (cfg1.win w).isOut = false)
    (hne : Pipeline.arrRef spec1 w ∉ ([main_v48] : List (Ref sig .tc))) :
    (dat1 (VE1 m) c).arrAt w cfg1.N = VX1 m c (Pipeline.arrRef spec1 w) :=
  (((dat1 (VE1 m) c).arrAt_in w hin _).trans (A_eq1 (VE1 m) c w)).trans
    ((congrFun (congrFun (VE1'_eq m) c) _).symm.trans (Gen.V13_of m (outs m) c _ hne).symm)

/-- Every window of the second region but the last is an input, and its array is not the result buffer. -/
theorem win1_inputs : ∀ w : Fin cfg1.W, w ≠ 14 → (cfg1.win w).isOut = false ∧ Pipeline.arrRef spec1 w ∉ ([main_v48] : List (Ref sig .tc)) := by
  decide +kernel

/-- Each array of the second region ends at what its write-backs leave: the fourteen inputs unchanged, the output
    at its fold. -/
theorem hF1 (c : Dev nD) (w : Fin cfg1.W) : (dat1 (VE1 m) c).arrAt w cfg1.N = VX1 m c (Pipeline.arrRef spec1 w) := by
  by_cases hw : w = 14
  · subst hw
    show _ = Gen.V13 m (outs m) c (Proc.devRef .tc main_v48)
    unfold Gen.V13
    rw [Function.update_self, outs_13]
    exact (W13_out m c).symm
  · exact hF1_in m c w (win1_inputs w hw).1 (win1_inputs w hw).2

/-- Every other buffer is kept by the second region. -/
theorem hrest1 (c : Dev nD) : ∀ b, b ∉ Finset.univ.image (Pipeline.arrRef spec1) → VX1 m c b = VE1' m c b :=
  fun b hb => Gen.V13_of m (outs m) c b (by
    intro h
    rw [List.mem_singleton] at h
    exact hb (Finset.mem_image.mpr ⟨14, Finset.mem_univ _, h.symm⟩))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state and its
    'owes', at nothing. -/
abbrev R (c : Dev nD) : sProp 𝕄 := iprop((∃ r, prngReg c r) ∗ ∃ W, owes (c : Thread nD τ) (0 : CellTallies nD τ sig Unit) W)

/-- The rest states of the generated chain: the same at all three places. -/
abbrev E : Fin 3 → Dev nD → sProp 𝕄 := fun _ c => R c

/-! ## The regions as segments -/

set_option backward.isDefEq.respectTransparency.types false in
/-- The first region: entered from every unscoped buffer at 'V10', left at 'V11' under 'outs'. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (Gen.V10 m c) ∗ R c)
  post c := iprop(StableHlo.held (c : Thread nD τ) (Pipeline.ucRefs τ sig) (Gen.V11 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (VE0 m) c)
    unfold Pipeline.ΦA
    iintro ⟨Hp, -, Hr⟩
    isplitl [Hr]; · iexact Hr
    iexact Hp
  hout c := by
    refine (hout0 (VE0 m) c).trans (?_ : (Pipeline.ΦA spec0 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at 'V12' under 'outs', left at 'V13'. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (Gen.V12 m (outs m) c) ∗ R c)
  post c := iprop(StableHlo.held (c : Thread nD τ) (Pipeline.ucRefs τ sig) (Gen.V13 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none, V12_outs]
    have hsplit := Pipeline.arrays_of_unscopedBufs (p := 1) (pcfgs (F := F)) Gen.adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (fun b hb => (hrest1 m c b hb).trans (congrFun (congrFun (VE1'_eq m) c) b))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The kernel program's run: every weakly fair execution from any memory with zero counters terminates without a
  fault, its result array holds what the second region's write-backs leave, and its argument arrays are unchanged.

  The run is the chain of the program's items — ten stretches of host operations, the first kernel region, one more
  stretch, the second kernel region — each entered from the state the one before it leaves.  The first theorem is
  the chain for any record of the two regions and reads, besides the arguments, the result buffer off the last
  valuation; the second instantiates it with this program's two regions.
-/
import proofs.«409071_j82351702934075_2_alg».proof.Proof.KI.Regs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

-- the launch theorem's implicit arguments are found by unifying its conclusion with this one, which takes unfolding
-- plain definitions in a metavariable's type
set_option backward.isDefEq.respectTransparency.types false in
/-- The chain, given the regions' records: as the arguments, the result buffer 'main_v48' ends holding the last
    valuation's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V10 m c) ∗ E 0 c) ⊢ R0.pre c)
    (hpost0 : ∀ c : Dev nD, R0.post c ⊢ iprop(StableHlo.held (c : Thread nD τ) (Pipeline.ucRefs τ sig) (V11 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V12 m outs c) ∗ E 1 c) ⊢ R1.pre c)
    (hpost1 : ∀ c : Dev nD, R1.post c ⊢ iprop(StableHlo.held (c : Thread nD τ) (Pipeline.ucRefs τ sig) (V13 m outs c) ∗ E 2 c)) :
    θ_run defs (onTc (τ := τ) (main (F := F))) ⟨m, fun _ => 0, ρ⟩ (fun r => ∀ c : Dev nD,
      r.2.mem ((c.tc : Thread nD τ).loc main_v48) = V13 m outs c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, .rfl, .rfl, .rfl, .rfl, .rfl, .rfl, .rfl, hpre0 c, hpost0 c, hpre1 c, (hpost1 c).trans (sep_mono .rfl (hE2 c))⟩)
    (hinit := ?_) (QY := fun c s => s.mem ((c.tc : Thread nD τ).loc main_v48) = V13 m outs c main_v48 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨h (Proc.devRef .tc main_v48) (Finset.mem_filter.mpr ⟨StableHlo.devRef_mem_tcRefs main_v48, by decide⟩),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c),
        (h (Proc.devRef .tc main_arg5) (Finset.mem_filter.mpr ⟨StableHlo.devRef_mem_tcRefs main_arg5, by decide⟩)).trans (V13_main_arg5 m outs c),
        (h (Proc.devRef .tc main_arg6) (Finset.mem_filter.mpr ⟨StableHlo.devRef_mem_tcRefs main_arg6, by decide⟩)).trans (V13_main_arg6 m outs c),
        (h (Proc.devRef .tc main_arg7) (Finset.mem_filter.mpr ⟨StableHlo.devRef_mem_tcRefs main_arg7, by decide⟩)).trans (V13_main_arg7 m outs c),
        (h (Proc.devRef .tc main_arg8) (Finset.mem_filter.mpr ⟨StableHlo.devRef_mem_tcRefs main_arg8, by decide⟩)).trans (V13_main_arg8 m outs c),
        (h (Proc.devRef .tc main_arg9) (Finset.mem_filter.mpr ⟨StableHlo.devRef_mem_tcRefs main_arg9, by decide⟩)).trans (V13_main_arg9 m outs c),
        (h (Proc.devRef .tc main_arg10) (Finset.mem_filter.mpr ⟨StableHlo.devRef_mem_tcRefs main_arg10, by decide⟩)).trans (V13_main_arg10 m outs c),
        (h (Proc.devRef .tc main_arg11) (Finset.mem_filter.mpr ⟨StableHlo.devRef_mem_tcRefs main_arg11, by decide⟩)).trans (V13_main_arg11 m outs c),
        (h (Proc.devRef .tc main_arg12) (Finset.mem_filter.mpr ⟨StableHlo.devRef_mem_tcRefs main_arg12, by decide⟩)).trans (V13_main_arg12 m outs c),
        (h (Proc.devRef .tc main_arg13) (Finset.mem_filter.mpr ⟨StableHlo.devRef_mem_tcRefs main_arg13, by decide⟩)).trans (V13_main_arg13 m outs c),
        (h (Proc.devRef .tc main_arg14) (Finset.mem_filter.mpr ⟨StableHlo.devRef_mem_tcRefs main_arg14, by decide⟩)).trans (V13_main_arg14 m outs c),
        (h (Proc.devRef .tc main_arg15) (Finset.mem_filter.mpr ⟨StableHlo.devRef_mem_tcRefs main_arg15, by decide⟩)).trans (V13_main_arg15 m outs c),
        (h (Proc.devRef .tc main_arg16) (Finset.mem_filter.mpr ⟨StableHlo.devRef_mem_tcRefs main_arg16, by decide⟩)).trans (V13_main_arg16 m outs c)⟩
    · iexact HSI

/-! ## This program's run -/

-- the chain's implicit arguments are found by unifying its conclusion with this one
set_option backward.isDefEq.respectTransparency.types false in
/-- At the compiled mesh, from any memory with zero counters: every weakly fair execution of the program terminates,
    nothing faulting; the result array holds the second region's final contents and every argument is unchanged. -/
theorem run_main (ρ : Dev nD → PrngReg) :
    θ_run defs (onTc (τ := τ) (main (F := F))) ⟨m, fun _ => 0, ρ⟩ (fun r => ∀ c : Dev nD,
      r.2.mem ((c.tc : Thread nD τ).loc main_v48) = W13 m c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine (θ_run defs _ _).mono (fun r h c => ⟨((h c).1).trans ?_, (h c).2⟩)
    (run_cond m (Ix := Unit) (U := UR sig nD τ) (Lvl := ℕ) emb₁ () 𝒱₀ L lv (fun _ _ => rfl) ρ (outs m) (pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := E)
      (hE0 := Pipeline.initEach L lv fun c => by
        iintro ⟨⟨-, HO, -, Hp, -⟩, -⟩
        imodintro
        isplitl [Hp]; · iexists _; iexact Hp
        iexists ∅; iexact HO)
      (hE2 := fun c => by iintro ⟨-, HO⟩; iexact HO)
      (reg0 m) (fun c => .rfl) (fun c => .rfl) (reg1 m) (fun c => .rfl) (fun c => .rfl))
  show Gen.V13 m (outs m) c (Proc.devRef .tc main_v48) = _
  unfold Gen.V13
  rw [Function.update_self, outs_13]

end Cert.KernelIdeal.Hand

end
-- ==== Proof.KI.R0Eqs.lean ====
/- Region 0: the accumulator and the output block in closed form, at the entry contents V.
   Each control case's contents are the update's payload at the blocks it loaded: the last store into the
   accumulator covers its 1x64 buffer, so whatever was stored before it is overwritten; at the first point the
   accumulator the update read is the zeros just stored; at the last point the output block receives what was read
   back from the accumulator after the update. Hence: after point 0 the accumulator is the product of the first
   blocks added to zero; after point n + 1 the product of the blocks at n + 1 added to what point n left; after
   point 7 the output block's buffer equals the accumulator. -/
import proofs.«409071_j82351702934075_2_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Each case's contents in closed form -/

/-- The all-zero offset of a whole 2-dimensional access. -/
theorem hz2 : (![0, 0] : Fin 2 → Nat) = fun _ => 0 := by funext a; fin_cases a <;> rfl

/-- Case A leaves in the accumulator the blocks' product added to the zeros it was just reset to: the update is
    stored last and covers the buffer, and the accumulator it read was the reset's payload. -/
theorem sout0_A_0_eq (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : cond0_0 i) (hc1 : ¬cond0_1 i) (x0 : Vec F S1x6272 .f32) (x1 : Vec F S6272x64 .f32) : sout0_A_0 c i arg1 harg1 arg2 harg2 arg3 harg3 arg4 harg4 hc0 hc1 x0 x1 = k0_pay2 x0 x1 k0_pay1 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x64) hz2]
  simp only [View.readAt_eq_ld, harg1.read_unread, harg2.read_unread, View.ld_unit_zero (S := S1x6272) hz2, View.ld_unit_zero (S := S6272x64) hz2, View.ld_unit_zero (S := S1x64) hz2, View.readCov_unit_zero (S := S1x64) _ hz2]

/-- Case B leaves in the accumulator the blocks' product added to what it held. -/
theorem sout0_B_0_eq (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : ¬cond0_1 i) (x0 : Vec F S1x6272 .f32) (x1 : Vec F S6272x64 .f32) (xs0 : Vec F S1x64 .f32) : sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero (S := S1x64) hz2]
  simp only [View.readAt_eq_ld, harg1.read_unread, harg2.read_unread, harg4.read_unread, View.ld_unit_zero (S := S1x6272) hz2, View.ld_unit_zero (S := S6272x64) hz2, View.ld_unit_zero (S := S1x64) hz2, View.readCov_unit_zero (S := S1x64) _ hz2]

/-- Case C leaves the same in the accumulator, -/
theorem sout0_C_0_eq (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : cond0_1 i) (x0 : Vec F S1x6272 .f32) (x1 : Vec F S6272x64 .f32) (xs0 : Vec F S1x64 .f32) : sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero (S := S1x64) hz2]
  simp only [View.readAt_eq_ld, harg1.read_unread, harg2.read_unread, harg4.read_unread, View.ld_unit_zero (S := S1x6272) hz2, View.ld_unit_zero (S := S6272x64) hz2, View.ld_unit_zero (S := S1x64) hz2, View.readCov_unit_zero (S := S1x64) _ hz2]

/-- and in the output block's buffer what it then read back from the accumulator. -/
theorem out0_C_2_eq (c : Dev nD) (i : grid0.Coords) (arg1 : Memref sig .tc .vmem S1x6272 .f32) (harg1 : arg1.IsWhole) (arg2 : Memref sig .tc .vmem S6272x64 .f32) (harg2 : arg2.IsWhole) (arg3 : Memref sig .tc .vmem S1x64 .f32) (harg3 : arg3.IsWhole) (arg4 : Memref sig .tc .vmem S1x64 .f32) (harg4 : arg4.IsWhole) (hc0 : ¬cond0_0 i) (hc1 : cond0_1 i) (x0 : Vec F S1x6272 .f32) (x1 : Vec F S6272x64 .f32) (xs0 : Vec F S1x64 .f32) : out0_C_2 c i arg1 harg1 arg2 harg2 arg3 harg3 arg4 harg4 hc0 hc1 x0 x1 xs0 = k0_pay2 x0 x1 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero (S := S1x64) hz2]
  simp only [View.readAt_eq_ld, harg1.read_unread, harg2.read_unread, harg4.read_unread, View.ld_unit_zero (S := S1x6272) hz2, View.ld_unit_zero (S := S6272x64) hz2, View.ld_unit_zero (S := S1x64) hz2, View.readCov_unit_zero (S := S1x64) _ hz2]

section Region0
-- the buffers' contents when the region is entered
variable (V : (c : Dev nD) → (b : Ref sig .tc) → Buf (Elt F) ((c : Thread nD τ).loc b))

/-! ## The accumulator and the output block, point by point -/

/-- After the first point the accumulator holds the first blocks' product added to zero. -/
theorem scratch_first (c : Dev nD) (h0 : 0 < cfg0.N) : (outsAt0 V c 0 h0).2 = k0_pay2 (iblk0 V c 0 ⟨0, h0⟩) (iblk0 V c 1 ⟨0, h0⟩) k0_pay1 := by
  rw [show outsAt0 V c 0 h0 = _ from outsAt0_A V c ⟨0, h0⟩ (Nat.zero_mod _) (show ¬ (0 : ℕ) % 8 = 7 from by decide)]
  dsimp only
  exact sout0_A_0_eq c (grid0.coords ⟨0, h0⟩) (ms0_0 ⟨0, h0⟩) (hs0_0 ⟨0, h0⟩) (ms0_1 ⟨0, h0⟩) (hs0_1 ⟨0, h0⟩) (ms0_2 ⟨0, h0⟩) (hs0_2 ⟨0, h0⟩) scM0_0 (Memref.isWhole_whole _) _ _ (iblk0 V c 0 ⟨0, h0⟩) (iblk0 V c 1 ⟨0, h0⟩)

/-- After a later point it holds that point's blocks' product added to what the point before left. -/
theorem scratch_next (c : Dev nD) (n : ℕ) (hn : n + 1 < cfg0.N) : (outsAt0 V c (n + 1) hn).2 = k0_pay2 (iblk0 V c 0 ⟨n + 1, hn⟩) (iblk0 V c 1 ⟨n + 1, hn⟩) (outsAt0 V c n (Nat.lt_of_succ_lt hn)).2 := by
  have hN : n + 1 < 8 := lt_of_lt_of_eq hn (show cfg0.N = 8 from N_0)
  have h0 : ¬ (n + 1) % 8 = 0 := by omega
  by_cases h1 : (n + 1) % 8 = 7
  · rw [show outsAt0 V c (n + 1) hn = _ from outsAt0_C V c ⟨n + 1, hn⟩ h0 h1]
    dsimp only
    exact sout0_C_0_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk0 V c 0 ⟨n + 1, hn⟩) (iblk0 V c 1 ⟨n + 1, hn⟩) (outsAt0 V c n (Nat.lt_of_succ_lt hn)).2
  · rw [show outsAt0 V c (n + 1) hn = _ from outsAt0_B V c ⟨n + 1, hn⟩ h0 h1]
    dsimp only
    exact sout0_B_0_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk0 V c 0 ⟨n + 1, hn⟩) (iblk0 V c 1 ⟨n + 1, hn⟩) (outsAt0 V c n (Nat.lt_of_succ_lt hn)).2

/-- After the last point the output block's buffer holds the accumulator. -/
theorem out_last (c : Dev nD) (h7 : 7 < cfg0.N) : (outsAt0 V c 7 h7).1 = (outsAt0 V c 7 h7).2 := by
  rw [show outsAt0 V c 7 h7 = _ from outsAt0_C V c ⟨7, h7⟩ (show ¬ (7 : ℕ) % 8 = 0 from by decide) (show (7 : ℕ) % 8 = 7 from rfl)]
  dsimp only
  rw [out0_C_2_eq, sout0_C_0_eq]

end Region0

end Cert.KernelIdeal.Hand

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.KI.R0Sum.lean ====
/-
  Region 0 (the blockwise row-vector-by-matrix product), the arithmetic at one entry.

  At a grid point the body holds a 1x6272 block x of the row vector, a 6272x64 block w of the matrix and the 1x64
  accumulator s, and leaves s + x·w.  Read at column q over the extended reals this is
      s (0, q) + ∑ k < 6272, x (0, k) * w (k, q):
  the two changes of float format are the identity on extended reals, the product is accumulated into a zero splat,
  so only 0 + y = y is used, and the casts between equal shapes do nothing.  The value the accumulator is reset to at
  the first point is the zero splat, 0 at every column.

  Eight blocks of 6272 make up the contraction range of 50176: a sum over t < 8 of sums over k < 6272 of a term at
  position 6272 * t + k is the sum over all positions below 50176, in any commutative monoid, because
  (t, k) ↦ 6272 * t + k is a bijection from pairs onto that range.
-/
import proofs.«409071_j82351702934075_2_alg».proof.Proof.Gen.KernelIdeal.Skeleton
import proofs.«409071_j82351702934075_2_alg».proof.Proof.LibPlainDot
import Idealize.ShloMosaic.Lib.ValueIdx
import Idealize.ShloMosaic.Lib.Pipeline.Value
import Idealize.ShloMosaic.PureOps.Ideal.Laws
import Mathlib.Algebra.BigOperators.Fin
import Mathlib.Logic.Equiv.Fin.Basic

noncomputable section

open scoped BigOperators

namespace Cert.KernelIdeal.Hand

open Cert.KernelIdeal Cert.KernelIdeal.Gen
open Idealize.ShloMosaic Idealize.ShloMosaic.ValueIdx

/-- The value the accumulator is reset to: 0 at every column. -/
theorem k0_pay1_apply (q : Fin 64) : (k0_pay1 (F := Ideal)) (ix2 (0 : Fin 1) q) = 0 := by
  unfold k0_pay1
  rw [shapeCast_self]
  exact Ideal.ofBits_zero_f32

/-- One point's update at column q: the accumulator there plus the block's share of the contraction,
    ∑ k < 6272 of x (0, k) * w (k, q). -/
theorem k0_pay2_apply (v3 : Vec Ideal S1x6272 .f32) (v6 : Vec Ideal S6272x64 .f32) (v9 : Vec Ideal S1x64 .f32) (q : Fin 64) :
    k0_pay2 (F := Ideal) v3 v6 v9 (ix2 (0 : Fin 1) q)
      = v9 (ix2 (0 : Fin 1) q) + ∑ k : Fin 6272, v3 (ix2 (0 : Fin 1) k) * v6 (ix2 k q) := by
  unfold k0_pay2
  simp only [shapeCast_self]
  refine congrArg (v9 (ix2 (0 : Fin 1) q) + ·) ?_
  exact PlainDot.matmul_zero_plain_apply (M := 1) (K := 6272) (N := 64) none
    (truncf .bf16 v3 bitsLt_bf16_f32) (truncf .bf16 v6 bitsLt_bf16_f32) (ix2 (0 : Fin 1) q)

/-- a blocks of b positions each fill the range a * b: position b * t + k for block t and offset k. -/
theorem sum_fin_mul {M : Type*} [AddCommMonoid M] (a b : ℕ) (f : ℕ → M) :
    ∑ t : Fin a, ∑ k : Fin b, f (b * t.val + k.val) = ∑ k : Fin (a * b), f k.val := by
  rw [← Equiv.sum_comp finProdFinEquiv (fun k : Fin (a * b) => f k.val), Fintype.sum_prod_type]
  refine Finset.sum_congr rfl fun t _ => Finset.sum_congr rfl fun k _ => ?_
  exact congrArg f (by simp [finProdFinEquiv, Nat.add_comm])

/-- The eight blocks of 6272 positions are the whole contraction range of 50176. -/
theorem sum_blocks {M : Type*} [AddCommMonoid M] (f : ℕ → M) :
    ∑ t : Fin 8, ∑ k : Fin 6272, f (6272 * t.val + k.val) = ∑ k : Fin 50176, f k.val :=
  sum_fin_mul 8 6272 f

end Cert.KernelIdeal.Hand
-- ==== Proof.KI.R0Value.lean ====
/-
  Region 0 (the blockwise row-vector-by-matrix product), the value it leaves.

  The first operand x is a 1x50176 row vector and the second w a 50176x64 matrix.  At grid point t the body holds
  block t of x (columns 6272 t … 6272 t + 6271) and block t of w (rows 6272 t … 6272 t + 6271) and adds their
  product into a 1x64 accumulator that is reset at point 0.  So after point n the accumulator holds at column q
      ∑ t ≤ n, ∑ k < 6272, x (0, 6272 t + k) * w (6272 t + k, q),
  by induction on n; after point 7 that is the whole contraction ∑ j < 50176, x (0, j) * w (j, q), because eight
  blocks of 6272 fill the range.  Only associativity and commutativity of + and 0 + y = y on the extended reals are
  used, so nothing is asked of the entries.  The output window's one block is the whole 1x64 array and only point 7
  writes it back, with the accumulator in it: the array ends holding that contraction.
-/
import proofs.«409071_j82351702934075_2_alg».proof.Proof.KI.R0Eqs
import proofs.«409071_j82351702934075_2_alg».proof.Proof.KI.R0Sum
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

section Value0
-- the buffers' contents when the region is entered
variable (V : (c : Dev nD) → (b : Ref sig .tc) → Buf (Elt F) ((c : Thread nD τ).loc b))

/-! ## The blocks and the arrays, at their literal shapes -/

/-- Block t of the row vector: 1x6272. -/
abbrev xblk0 (c : Dev nD) (t : Fin cfg0.N) : Vec F S1x6272 .f32 := iblk0 V c 0 t
/-- Block t of the matrix: 6272x64. -/
abbrev wblk0 (c : Dev nD) (t : Fin cfg0.N) : Vec F S6272x64 .f32 := iblk0 V c 1 t
/-- The row vector: 1x50176. -/
abbrev xarr0 (c : Dev nD) : Vec F S1x50176 .f32 := V c main_v40
/-- The matrix: 50176x64. -/
abbrev warr0 (c : Dev nD) : Vec F S50176x64 .f32 := V c main_v38

/-- The row vector's block index at point t is (0, t). -/
theorem idx0_0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
/-- The matrix's block index at point t is (t, 0). -/
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- The output's block index is (0, 0) at every point. -/
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Entry (0, k) of block t of the row vector is entry (0, 6272 t + k) of the row vector. -/
theorem xblk0_apply (c : Dev nD) (t : Fin cfg0.N) (k : Fin 6272) (h : 6272 * t.val + k.val < 50176) :
    xblk0 V c t (ix2 (0 : Fin 1) k) = xarr0 V c (ix2 (0 : Fin 1) (⟨6272 * t.val + k.val, h⟩ : Fin 50176)) := by
  show iblk0 V c 0 t (ix2 (0 : Fin 1) k) = _
  unfold iblk0
  rw [View.read_apply]
  show V c main_v40 _ = V c main_v40 _
  congr 1
  funext a
  apply Fin.ext
  match a with
  | ⟨0, _⟩ => show win0_0.index t 0 * 1 + 1 * 0 = 0; rw [(idx0_0 t).1]
  | ⟨1, _⟩ => show win0_0.index t 1 * 6272 + 1 * k.val = 6272 * t.val + k.val; rw [(idx0_0 t).2]; omega

/-- Entry (k, q) of block t of the matrix is entry (6272 t + k, q) of the matrix. -/
theorem wblk0_apply (c : Dev nD) (t : Fin cfg0.N) (k : Fin 6272) (q : Fin 64) (h : 6272 * t.val + k.val < 50176) :
    wblk0 V c t (ix2 k q) = warr0 V c (ix2 (⟨6272 * t.val + k.val, h⟩ : Fin 50176) q) := by
  show iblk0 V c 1 t (ix2 k q) = _
  unfold iblk0
  rw [View.read_apply]
  show V c main_v38 _ = V c main_v38 _
  congr 1
  funext a
  apply Fin.ext
  match a with
  | ⟨0, _⟩ => show win0_1.index t 0 * 6272 + 1 * k.val = 6272 * t.val + k.val; rw [(idx0_1 t).1]; omega
  | ⟨1, _⟩ => show win0_1.index t 1 * 64 + 1 * q.val = q.val; rw [(idx0_1 t).2]; omega

/-! ## The one write-back -/

/-- Point 7 is a point of the grid. -/
theorem h7N : 7 < cfg0.N := lt_of_lt_of_eq (by decide : 7 < 8) N_0.symm

/-- What the output block's buffer holds after the last point, as contents of the 1x64 output array. -/
abbrev res0 (c : Dev nD) : Buf (Elt F) ((c : Thread nD τ).loc main_v41) := (outsAt0 V c 7 h7N).1

/-- The only point that writes back is point 7, and what it writes is the output block's buffer after it: the
    output's block at index (0, 0) is the whole array. -/
theorem flushed0_2 (c : Dev nD) (t : Fin cfg0.N) (hf : (cfg0.win 2).flush t = true) :
    (dat0 V c).flushed 2 t = ((cfg0.win 2).blk t).view.read (Elt F) (res0 V c) := by
  have h1 : t.val = 7 := by
    have h := (flush0_2 t).mp hf
    have ht : t.val < 8 := lt_of_lt_of_eq t.isLt N_0
    omega
  obtain rfl : t = ⟨7, h7N⟩ := Fin.ext h1
  show (cfg0.win 2).cut (grid0.coords ⟨7, h7N⟩) ((dat0 V c).after 2 ⟨7, h7N⟩) = _
  rw [after0_2]
  have hz' : (fun a => win0_2.index ⟨7, h7N⟩ a * main_v41.ty.shape.size a) = fun _ => 0 :=
    funext fun a => by
      match a with
      | ⟨0, _⟩ => show win0_2.index ⟨7, h7N⟩ 0 * 1 = 0; rw [(idx0_2 _).1]
      | ⟨1, _⟩ => show win0_2.index ⟨7, h7N⟩ 1 * 64 = 0; rw [(idx0_2 _).2]
  exact (Memref.read_access_unit_zero (Elt F) main_v41 hz' (fun a => by rw [congrFun hz' a]; simp) (res0 V c)).symm

/-- Every entry of the 1x64 output array lies in the block point 7 writes back. -/
theorem cover0_2 (c : Dev nD) (i : ((cfg0.win 2).arr.view.loc (c.tc : Thread nD τ)).2.ty.Idx) :
    ∃ t : Fin cfg0.N, (cfg0.win 2).flush t = true ∧ i ∈ ((cfg0.win 2).blk t).view.set :=
  ⟨⟨7, h7N⟩, (flush0_2 ⟨7, h7N⟩).mpr rfl, by
    show i ∈ ((View.whole main_v41).slice (win0_2.rect ⟨7, h7N⟩)).set
    rw [View.set_slice_whole, Rect.mem_set_unit]
    intro a
    have h0 : (i 0 : Nat) < 1 := (i 0).isLt
    have h1 : (i 1 : Nat) < 64 := (i 1).isLt
    match a with
    | ⟨0, _⟩ =>
      show win0_2.index ⟨7, h7N⟩ 0 * 1 ≤ (i 0 : Nat) ∧ (i 0 : Nat) < win0_2.index ⟨7, h7N⟩ 0 * 1 + win0_2.xsize (grid0.coords ⟨7, h7N⟩) 0
      rw [(idx0_2 _).1, show win0_2.xsize (grid0.coords ⟨7, h7N⟩) 0 = 1 from by decide +kernel]; omega
    | ⟨1, _⟩ =>
      show win0_2.index ⟨7, h7N⟩ 1 * 64 ≤ (i 1 : Nat) ∧ (i 1 : Nat) < win0_2.index ⟨7, h7N⟩ 1 * 64 + win0_2.xsize (grid0.coords ⟨7, h7N⟩) 1
      rw [(idx0_2 _).2, show win0_2.xsize (grid0.coords ⟨7, h7N⟩) 1 = 64 from by decide +kernel]; omega⟩

end Value0

/-! ## The accumulator point by point, over the extended reals -/

section AtIdeal
variable (V : (c : Dev nD) → (b : Ref sig .tc) → Buf (Elt Ideal) ((c : Thread nD τ).loc b))

/-- The product at contraction position j and column q: x (0, j) * w (j, q); 0 past the range. -/
def term0 (c : Dev nD) (q : Fin 64) (j : ℕ) : EReal :=
  if h : j < 50176 then (xarr0 V c) (ix2 (0 : Fin 1) (⟨j, h⟩ : Fin 50176)) * (warr0 V c) (ix2 (⟨j, h⟩ : Fin 50176) q) else 0

/-- Block t's share of the contraction at column q is the sum of the products at positions 6272 t + k. -/
theorem blockSum0 (c : Dev nD) (q : Fin 64) (t : Fin cfg0.N) :
    ∑ k : Fin 6272, xblk0 V c t (ix2 (0 : Fin 1) k) * wblk0 V c t (ix2 k q) = ∑ k : Fin 6272, term0 V c q (6272 * t.val + k.val) := by
  have ht : t.val < 8 := lt_of_lt_of_eq t.isLt N_0
  refine Finset.sum_congr rfl fun k _ => ?_
  have h : 6272 * t.val + k.val < 50176 := by have := k.isLt; omega
  rw [xblk0_apply V c t k h, wblk0_apply V c t k q h]
  unfold term0
  rw [dif_pos h]

/-- After point n the accumulator holds at column q the products of blocks 0 … n. -/
theorem scratch_inv (c : Dev nD) (q : Fin 64) : ∀ (n : ℕ) (hn : n < cfg0.N),
    (outsAt0 V c n hn).2 (ix2 (0 : Fin 1) q) = ∑ t ∈ Finset.range (n + 1), ∑ k : Fin 6272, term0 V c q (6272 * t + k.val)
  | 0, hn => by
    rw [scratch_first V c hn]
    refine (k0_pay2_apply (xblk0 V c ⟨0, hn⟩) (wblk0 V c ⟨0, hn⟩) (k0_pay1 (F := Ideal)) q).trans ?_
    rw [k0_pay1_apply, zero_add, blockSum0 V c q ⟨0, hn⟩, Finset.sum_range_one]
  | n + 1, hn => by
    rw [scratch_next V c n hn]
    refine (k0_pay2_apply (xblk0 V c ⟨n + 1, hn⟩) (wblk0 V c ⟨n + 1, hn⟩) (outsAt0 V c n (Nat.lt_of_succ_lt hn)).2 q).trans ?_
    rw [scratch_inv c q n (Nat.lt_of_succ_lt hn), blockSum0 V c q ⟨n + 1, hn⟩, Finset.sum_range_succ _ (n + 1)]

/-- After point 7 the accumulator holds at column q the whole contraction. -/
theorem scratch_last (c : Dev nD) (q : Fin 64) (h7 : 7 < cfg0.N) :
    (outsAt0 V c 7 h7).2 (ix2 (0 : Fin 1) q)
      = ∑ k : Fin 50176, (xarr0 V c) (ix2 (0 : Fin 1) k) * (warr0 V c) (ix2 k q) := by
  rw [scratch_inv V c q 7 h7, Finset.sum_range (fun t => ∑ k : Fin 6272, term0 V c q (6272 * t + k.val)), sum_blocks (term0 V c q)]
  refine Finset.sum_congr rfl fun k _ => ?_
  unfold term0
  rw [dif_pos k.isLt]

/-! ## The output array after the region -/

/-- The output array after the region, as a 1x64 array. -/
abbrev outArr0 (c : Dev nD) : Vec Ideal S1x64 .f32 := (dat0 (F := Ideal) V c).arrAt 2 cfg0.N

/-- It holds the product of the row vector and the matrix: at column q, ∑ j < 50176, x (0, j) * w (j, q). -/
theorem arrAt0_2 (c : Dev nD) (q : Fin 64) :
    outArr0 V c (ix2 (0 : Fin 1) q) = ∑ k : Fin 50176, xarr0 V c (ix2 (0 : Fin 1) k) * warr0 V c (ix2 k q) := by
  show ((dat0 (F := Ideal) V c).arrAt 2 cfg0.N) (ix2 (0 : Fin 1) q) = _
  rw [(dat0 V c).arrAt_eq_of_cover 2 (res0 V c) (flushed0_2 V c) (cover0_2 c)]
  show (outsAt0 V c 7 h7N).1 (ix2 (0 : Fin 1) q) = _
  rw [out_last V c h7N]
  exact scratch_last V c q h7N

end AtIdeal

end Cert.KernelIdeal.Hand
-- ==== Proof.KI.R1Value.lean ====
import proofs.«409071_j82351702934075_2_alg».proof.Proof.KI.R1Frame
import proofs.«409071_j82351702934075_2_alg».proof.Proof.Gen.KernelIdeal.Regions
import Idealize.ShloMosaic.Lib.Pipeline.Value
import Idealize.ShloMosaic.Lib.StableHlo.Run
import Idealize.ShloMosaic.Lib.ValueIdx
import Idealize.ShloMosaic.Signature.Memref

/-! # Region 1 (fifteen windows, a grid of one point): the structural half of its value

Every window's block is its whole array — the block sizes are the array's and every index map is constantly zero — so
the one point reads the fourteen input arrays whole and its one write-back covers the output array whole: after the
region the output array holds the body's value over the fourteen arrays as the region found them.

Of those fourteen arrays six are one-row matrices that the last host stretch makes by reshaping six vector arguments
(a row's entry (0, j) is the vector's entry j: same row-major position), six are arguments no earlier item writes,
one is the gathered state rows that the stretches before region 0 left, and one is region 0's output. -/

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable {F : FTy → Type} [FloatOps F] [Named F]

/-! ## A window's one block is its whole array -/

section Region1
-- the core's buffer contents when the region is entered
variable (V : (c : Dev nD) → (b : Ref sig .tc) → Buf (Elt F) ((c : Thread nD τ).loc b))

/-- Window 0's one block is its whole array. -/
theorem iblk1_0 (c : Dev nD) (t : Fin cfg1.N) : (iblk1 V c 0 t : Vec F S256x64 .f32) = V c main_v2 := by
  have hz : (fun a => win1_0.index t a * main_v2.ty.shape.size a) = fun _ => 0 := funext fun a => by fin_cases a <;> rfl
  exact Memref.read_access_unit_zero (Elt F) main_v2 hz (fun a => by rw [congrFun hz a]; simp) (V c main_v2)

/-- Window 1's one block is its whole array. -/
theorem iblk1_1 (c : Dev nD) (t : Fin cfg1.N) : (iblk1 V c 1 t : Vec F S1x64 .f32) = V c main_v41 := by
  have hz : (fun a => win1_1.index t a * main_v41.ty.shape.size a) = fun _ => 0 := funext fun a => by fin_cases a <;> rfl
  exact Memref.read_access_unit_zero (Elt F) main_v41 hz (fun a => by rw [congrFun hz a]; simp) (V c main_v41)

/-- Window 2's one block is its whole array. -/
theorem iblk1_2 (c : Dev nD) (t : Fin cfg1.N) : (iblk1 V c 2 t : Vec F S64x128 .f32) = V c main_arg5 := by
  have hz : (fun a => win1_2.index t a * main_arg5.ty.shape.size a) = fun _ => 0 := funext fun a => by fin_cases a <;> rfl
  exact Memref.read_access_unit_zero (Elt F) main_arg5 hz (fun a => by rw [congrFun hz a]; simp) (V c main_arg5)

/-- Window 3's one block is its whole array. -/
theorem iblk1_3 (c : Dev nD) (t : Fin cfg1.N) : (iblk1 V c 3 t : Vec F S1x128 .f32) = V c main_v42 := by
  have hz : (fun a => win1_3.index t a * main_v42.ty.shape.size a) = fun _ => 0 := funext fun a => by fin_cases a <;> rfl
  exact Memref.read_access_unit_zero (Elt F) main_v42 hz (fun a => by rw [congrFun hz a]; simp) (V c main_v42)

/-- Window 4's one block is its whole array. -/
theorem iblk1_4 (c : Dev nD) (t : Fin cfg1.N) : (iblk1 V c 4 t : Vec F S192x128 .f32) = V c main_arg7 := by
  have hz : (fun a => win1_4.index t a * main_arg7.ty.shape.size a) = fun _ => 0 := funext fun a => by fin_cases a <;> rfl
  exact Memref.read_access_unit_zero (Elt F) main_arg7 hz (fun a => by rw [congrFun hz a]; simp) (V c main_arg7)

/-- Window 5's one block is its whole array. -/
theorem iblk1_5 (c : Dev nD) (t : Fin cfg1.N) : (iblk1 V c 5 t : Vec F S1x128 .f32) = V c main_v43 := by
  have hz : (fun a => win1_5.index t a * main_v43.ty.shape.size a) = fun _ => 0 := funext fun a => by fin_cases a <;> rfl
  exact Memref.read_access_unit_zero (Elt F) main_v43 hz (fun a => by rw [congrFun hz a]; simp) (V c main_v43)

/-- Window 6's one block is its whole array. -/
theorem iblk1_6 (c : Dev nD) (t : Fin cfg1.N) : (iblk1 V c 6 t : Vec F S128x128 .f32) = V c main_arg9 := by
  have hz : (fun a => win1_6.index t a * main_arg9.ty.shape.size a) = fun _ => 0 := funext fun a => by fin_cases a <;> rfl
  exact Memref.read_access_unit_zero (Elt F) main_arg9 hz (fun a => by rw [congrFun hz a]; simp) (V c main_arg9)

/-- Window 7's one block is its whole array. -/
theorem iblk1_7 (c : Dev nD) (t : Fin cfg1.N) : (iblk1 V c 7 t : Vec F S1x128 .f32) = V c main_v44 := by
  have hz : (fun a => win1_7.index t a * main_v44.ty.shape.size a) = fun _ => 0 := funext fun a => by fin_cases a <;> rfl
  exact Memref.read_access_unit_zero (Elt F) main_v44 hz (fun a => by rw [congrFun hz a]; simp) (V c main_v44)

/-- Window 8's one block is its whole array. -/
theorem iblk1_8 (c : Dev nD) (t : Fin cfg1.N) : (iblk1 V c 8 t : Vec F S128x128 .f32) = V c main_arg11 := by
  have hz : (fun a => win1_8.index t a * main_arg11.ty.shape.size a) = fun _ => 0 := funext fun a => by fin_cases a <;> rfl
  exact Memref.read_access_unit_zero (Elt F) main_arg11 hz (fun a => by rw [congrFun hz a]; simp) (V c main_arg11)

/-- Window 9's one block is its whole array. -/
theorem iblk1_9 (c : Dev nD) (t : Fin cfg1.N) : (iblk1 V c 9 t : Vec F S1x128 .f32) = V c main_v45 := by
  have hz : (fun a => win1_9.index t a * main_v45.ty.shape.size a) = fun _ => 0 := funext fun a => by fin_cases a <;> rfl
  exact Memref.read_access_unit_zero (Elt F) main_v45 hz (fun a => by rw [congrFun hz a]; simp) (V c main_v45)

/-- Window 10's one block is its whole array. -/
theorem iblk1_10 (c : Dev nD) (t : Fin cfg1.N) : (iblk1 V c 10 t : Vec F S128x1 .f32) = V c main_arg13 := by
  have hz : (fun a => win1_10.index t a * main_arg13.ty.shape.size a) = fun _ => 0 := funext fun a => by fin_cases a <;> rfl
  exact Memref.read_access_unit_zero (Elt F) main_arg13 hz (fun a => by rw [congrFun hz a]; simp) (V c main_arg13)

/-- Window 11's one block is its whole array. -/
theorem iblk1_11 (c : Dev nD) (t : Fin cfg1.N) : (iblk1 V c 11 t : Vec F S1x1 .f32) = V c main_v46 := by
  have hz : (fun a => win1_11.index t a * main_v46.ty.shape.size a) = fun _ => 0 := funext fun a => by fin_cases a <;> rfl
  exact Memref.read_access_unit_zero (Elt F) main_v46 hz (fun a => by rw [congrFun hz a]; simp) (V c main_v46)

/-- Window 12's one block is its whole array. -/
theorem iblk1_12 (c : Dev nD) (t : Fin cfg1.N) : (iblk1 V c 12 t : Vec F S128x8 .f32) = V c main_arg15 := by
  have hz : (fun a => win1_12.index t a * main_arg15.ty.shape.size a) = fun _ => 0 := funext fun a => by fin_cases a <;> rfl
  exact Memref.read_access_unit_zero (Elt F) main_arg15 hz (fun a => by rw [congrFun hz a]; simp) (V c main_arg15)

/-- Window 13's one block is its whole array. -/
theorem iblk1_13 (c : Dev nD) (t : Fin cfg1.N) : (iblk1 V c 13 t : Vec F S1x8 .f32) = V c main_v47 := by
  have hz : (fun a => win1_13.index t a * main_v47.ty.shape.size a) = fun _ => 0 := funext fun a => by fin_cases a <;> rfl
  exact Memref.read_access_unit_zero (Elt F) main_v47 hz (fun a => by rw [congrFun hz a]; simp) (V c main_v47)

/-! ## The array after the region -/

/-- The output window's one block, read off any contents of its array, is those contents. -/
theorem read_blk1_14 (t : Fin cfg1.N) (G : Vec F S256x8 .f32) : ((cfg1.win 14).blk t).view.read (Elt F) G = G := by
  have hz : (fun a => win1_14.index t a * main_v48.ty.shape.size a) = fun _ => 0 := funext fun a => by fin_cases a <;> rfl
  exact Memref.read_access_unit_zero (Elt F) main_v48 hz (fun a => by rw [congrFun hz a]; simp) G

/-- What the one point writes back: the body's value over the arrays themselves. -/
theorem flushed1_14 (c : Dev nD) (t : Fin cfg1.N) :
    (dat1 V c).flushed 14 t = ((cfg1.win 14).blk t).view.read (Elt F) (out1_14 (V c main_v2) (V c main_v41) (V c main_arg5) (V c main_v42) (V c main_arg7) (V c main_v43) (V c main_arg9) (V c main_v44) (V c main_arg11) (V c main_v45) (V c main_arg13) (V c main_v46) (V c main_arg15) (V c main_v47)) := by
  rw [read_blk1_14]
  show (cfg1.win 14).cut (grid1.coords t) ((dat1 V c).after 14 t) = _
  rw [after1_14, iblk1_0, iblk1_1, iblk1_2, iblk1_3, iblk1_4, iblk1_5, iblk1_6, iblk1_7, iblk1_8, iblk1_9, iblk1_10, iblk1_11, iblk1_12, iblk1_13]
  rfl

/-- A view of a whole buffer through the rectangle of the buffer's own sizes at zero offsets covers every index. -/
theorem set_access_unit_zero {κ : Kind} (b : Ref sig κ) {off : Fin b.ty.shape.rank → Nat} (h : off = fun _ => 0)
    (inb : ∀ a, off a + b.ty.shape.size a ≤ b.ty.shape.size a) :
    ((Memref.whole b).access (Rect.unit off b.ty.shape.size inb) : View sig κ _ _ _).set = Finset.univ := by
  subst h; exact Memref.set_access_whole b

/-- The output window's one block covers its whole array. -/
theorem set_blk1_14 (t : Fin cfg1.N) : ((cfg1.win 14).blk t).view.set = Finset.univ := by
  have hz : (fun a => win1_14.index t a * main_v48.ty.shape.size a) = fun _ => 0 := funext fun a => by fin_cases a <;> rfl
  exact set_access_unit_zero main_v48 hz (fun a => by rw [congrFun hz a]; simp)

/-- The array after the region: the one point's write-back covers it whole. -/
theorem arrAt1_14 (c : Dev nD) :
    (dat1 V c).arrAt 14 cfg1.N = out1_14 (V c main_v2) (V c main_v41) (V c main_arg5) (V c main_v42) (V c main_arg7) (V c main_v43) (V c main_arg9) (V c main_v44) (V c main_arg11) (V c main_v45) (V c main_arg13) (V c main_v46) (V c main_arg15) (V c main_v47) :=
  (dat1 V c).arrAt_eq_of_cover 14 (out1_14 (V c main_v2) (V c main_v41) (V c main_arg5) (V c main_v42) (V c main_arg7) (V c main_v43) (V c main_arg9) (V c main_v44) (V c main_arg11) (V c main_v45) (V c main_arg13) (V c main_v46) (V c main_arg15) (V c main_v47)) (fun t _ => flushed1_14 V c t) fun i =>
    ⟨t1_0, flush1_14 t1_0, by rw [set_blk1_14]; exact Finset.mem_univ _⟩

end Region1

/-! ## The arrays region 1 finds: the last host stretch's rows, and what it leaves alone -/

section Host1
variable (m : (ℓ : Loc nD τ sig) → Buf (Elt F) ℓ) (outs : Gen.Outs (F := F))

/-- A vector reshaped to a one-row matrix: the row's entry j is the vector's entry j (same row-major position). -/
theorem row_of_vec {α : Type} {n : Nat} (x : (⟨1, ![n]⟩ : Shape).Idx → α) (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = 0 * n + j.val
  omega

/-- Argument 5 is as launched when the last host stretch begins: nothing before it writes an argument. -/
theorem V11_main_arg5 (c : Dev nD) : Gen.V11 m outs c main_arg5 = m ((c.tc : Thread nD τ).loc main_arg5) :=
  (V11_of m outs c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl

/-- Argument 6 is as launched when the last host stretch begins: nothing before it writes an argument. -/
theorem V11_main_arg6 (c : Dev nD) : Gen.V11 m outs c main_arg6 = m ((c.tc : Thread nD τ).loc main_arg6) :=
  (V11_of m outs c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl

/-- Argument 7 is as launched when the last host stretch begins: nothing before it writes an argument. -/
theorem V11_main_arg7 (c : Dev nD) : Gen.V11 m outs c main_arg7 = m ((c.tc : Thread nD τ).loc main_arg7) :=
  (V11_of m outs c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl

/-- Argument 8 is as launched when the last host stretch begins: nothing before it writes an argument. -/
theorem V11_main_arg8 (c : Dev nD) : Gen.V11 m outs c main_arg8 = m ((c.tc : Thread nD τ).loc main_arg8) :=
  (V11_of m outs c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl

/-- Argument 9 is as launched when the last host stretch begins: nothing before it writes an argument. -/
theorem V11_main_arg9 (c : Dev nD) : Gen.V11 m outs c main_arg9 = m ((c.tc : Thread nD τ).loc main_arg9) :=
  (V11_of m outs c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans rfl

/-- Argument 10 is as launched when the last host stretch begins: nothing before it writes an argument. -/
theorem V11_main_arg10 (c : Dev nD) : Gen.V11 m outs c main_arg10 = m ((c.tc : Thread nD τ).loc main_arg10) :=
  (V11_of m outs c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans rfl

/-- Argument 11 is as launched when the last host stretch begins: nothing before it writes an argument. -/
theorem V11_main_arg11 (c : Dev nD) : Gen.V11 m outs c main_arg11 = m ((c.tc : Thread nD τ).loc main_arg11) :=
  (V11_of m outs c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans rfl

/-- Argument 12 is as launched when the last host stretch begins: nothing before it writes an argument. -/
theorem V11_main_arg12 (c : Dev nD) : Gen.V11 m outs c main_arg12 = m ((c.tc : Thread nD τ).loc main_arg12) :=
  (V11_of m outs c main_arg12 (by decide)).trans <| (V10_of m c main_arg12 (by decide)).trans <| (V9_of m c main_arg12 (by decide)).trans <| (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans rfl

/-- Argument 13 is as launched when the last host stretch begins: nothing before it writes an argument. -/
theorem V11_main_arg13 (c : Dev nD) : Gen.V11 m outs c main_arg13 = m ((c.tc : Thread nD τ).loc main_arg13) :=
  (V11_of m outs c main_arg13 (by decide)).trans <| (V10_of m c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide)).trans rfl

/-- Argument 14 is as launched when the last host stretch begins: nothing before it writes an argument. -/
theorem V11_main_arg14 (c : Dev nD) : Gen.V11 m outs c main_arg14 = m ((c.tc : Thread nD τ).loc main_arg14) :=
  (V11_of m outs c main_arg14 (by decide)).trans <| (V10_of m c main_arg14 (by decide)).trans <| (V9_of m c main_arg14 (by decide)).trans <| (V8_of m c main_arg14 (by decide)).trans <| (V7_of m c main_arg14 (by decide)).trans <| (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide)).trans rfl

/-- Argument 15 is as launched when the last host stretch begins: nothing before it writes an argument. -/
theorem V11_main_arg15 (c : Dev nD) : Gen.V11 m outs c main_arg15 = m ((c.tc : Thread nD τ).loc main_arg15) :=
  (V11_of m outs c main_arg15 (by decide)).trans <| (V10_of m c main_arg15 (by decide)).trans <| (V9_of m c main_arg15 (by decide)).trans <| (V8_of m c main_arg15 (by decide)).trans <| (V7_of m c main_arg15 (by decide)).trans <| (V6_of m c main_arg15 (by decide)).trans <| (V5_of m c main_arg15 (by decide)).trans <| (V4_of m c main_arg15 (by decide)).trans <| (V3_of m c main_arg15 (by decide)).trans <| (V2_of m c main_arg15 (by decide)).trans <| (V1_of m c main_arg15 (by decide)).trans rfl

/-- Argument 16 is as launched when the last host stretch begins: nothing before it writes an argument. -/
theorem V11_main_arg16 (c : Dev nD) : Gen.V11 m outs c main_arg16 = m ((c.tc : Thread nD τ).loc main_arg16) :=
  (V11_of m outs c main_arg16 (by decide)).trans <| (V10_of m c main_arg16 (by decide)).trans <| (V9_of m c main_arg16 (by decide)).trans <| (V8_of m c main_arg16 (by decide)).trans <| (V7_of m c main_arg16 (by decide)).trans <| (V6_of m c main_arg16 (by decide)).trans <| (V5_of m c main_arg16 (by decide)).trans <| (V4_of m c main_arg16 (by decide)).trans <| (V3_of m c main_arg16 (by decide)).trans <| (V2_of m c main_arg16 (by decide)).trans <| (V1_of m c main_arg16 (by decide)).trans rfl

/-- The row main_v42 is argument 6 reshaped: its entry (0, j) is the argument's entry j. -/
theorem V12_main_v42 (c : Dev nD) (j : Fin 128) :
    Gen.V12 m outs c main_v42 (ix2 (0 : Fin 1) j) = m ((c.tc : Thread nD τ).loc main_arg6) (ix1 j) := by
  have e : Gen.V12 m outs c main_v42 = shapeCast S1x128 (Gen.V11 m outs c main_arg6) shapeCasts_S128_S1x128 := by
    show StableHlo.after hostOps1 _ (Proc.devRef .tc main_v42) = _
    after_results
    rfl
  rw [e, V11_main_arg6]
  exact row_of_vec _ _ j

/-- The row main_v43 is argument 8 reshaped: its entry (0, j) is the argument's entry j. -/
theorem V12_main_v43 (c : Dev nD) (j : Fin 128) :
    Gen.V12 m outs c main_v43 (ix2 (0 : Fin 1) j) = m ((c.tc : Thread nD τ).loc main_arg8) (ix1 j) := by
  have e : Gen.V12 m outs c main_v43 = shapeCast S1x128 (Gen.V11 m outs c main_arg8) shapeCasts_S128_S1x128 := by
    show StableHlo.after hostOps1 _ (Proc.devRef .tc main_v43) = _
    after_results
    rfl
  rw [e, V11_main_arg8]
  exact row_of_vec _ _ j

/-- The row main_v44 is argument 10 reshaped: its entry (0, j) is the argument's entry j. -/
theorem V12_main_v44 (c : Dev nD) (j : Fin 128) :
    Gen.V12 m outs c main_v44 (ix2 (0 : Fin 1) j) = m ((c.tc : Thread nD τ).loc main_arg10) (ix1 j) := by
  have e : Gen.V12 m outs c main_v44 = shapeCast S1x128 (Gen.V11 m outs c main_arg10) shapeCasts_S128_S1x128 := by
    show StableHlo.after hostOps1 _ (Proc.devRef .tc main_v44) = _
    after_results
    rfl
  rw [e, V11_main_arg10]
  exact row_of_vec _ _ j

/-- The row main_v45 is argument 12 reshaped: its entry (0, j) is the argument's entry j. -/
theorem V12_main_v45 (c : Dev nD) (j : Fin 128) :
    Gen.V12 m outs c main_v45 (ix2 (0 : Fin 1) j) = m ((c.tc : Thread nD τ).loc main_arg12) (ix1 j) := by
  have e : Gen.V12 m outs c main_v45 = shapeCast S1x128 (Gen.V11 m outs c main_arg12) shapeCasts_S128_S1x128 := by
    show StableHlo.after hostOps1 _ (Proc.devRef .tc main_v45) = _
    after_results
    rfl
  rw [e, V11_main_arg12]
  exact row_of_vec _ _ j

/-- The row main_v46 is argument 14 reshaped: its entry (0, j) is the argument's entry j. -/
theorem V12_main_v46 (c : Dev nD) (j : Fin 1) :
    Gen.V12 m outs c main_v46 (ix2 (0 : Fin 1) j) = m ((c.tc : Thread nD τ).loc main_arg14) (ix1 j) := by
  have e : Gen.V12 m outs c main_v46 = shapeCast S1x1 (Gen.V11 m outs c main_arg14) shapeCasts_S1_S1x1 := by
    show StableHlo.after hostOps1 _ (Proc.devRef .tc main_v46) = _
    after_results
    rfl
  rw [e, V11_main_arg14]
  exact row_of_vec _ _ j

/-- The row main_v47 is argument 16 reshaped: its entry (0, j) is the argument's entry j. -/
theorem V12_main_v47 (c : Dev nD) (j : Fin 8) :
    Gen.V12 m outs c main_v47 (ix2 (0 : Fin 1) j) = m ((c.tc : Thread nD τ).loc main_arg16) (ix1 j) := by
  have e : Gen.V12 m outs c main_v47 = shapeCast S1x8 (Gen.V11 m outs c main_arg16) shapeCasts_S8_S1x8 := by
    show StableHlo.after hostOps1 _ (Proc.devRef .tc main_v47) = _
    after_results
    rfl
  rw [e, V11_main_arg16]
  exact row_of_vec _ _ j

/-- Argument 5 is as launched when region 1 is entered: the last host stretch writes only the six rows. -/
theorem V12_main_arg5 (c : Dev nD) : Gen.V12 m outs c main_arg5 = m ((c.tc : Thread nD τ).loc main_arg5) :=
  (V12_of m outs c main_arg5 (by decide)).trans (V11_main_arg5 m outs c)

/-- Argument 7 is as launched when region 1 is entered: the last host stretch writes only the six rows. -/
theorem V12_main_arg7 (c : Dev nD) : Gen.V12 m outs c main_arg7 = m ((c.tc : Thread nD τ).loc main_arg7) :=
  (V12_of m outs c main_arg7 (by decide)).trans (V11_main_arg7 m outs c)

/-- Argument 9 is as launched when region 1 is entered: the last host stretch writes only the six rows. -/
theorem V12_main_arg9 (c : Dev nD) : Gen.V12 m outs c main_arg9 = m ((c.tc : Thread nD τ).loc main_arg9) :=
  (V12_of m outs c main_arg9 (by decide)).trans (V11_main_arg9 m outs c)

/-- Argument 11 is as launched when region 1 is entered: the last host stretch writes only the six rows. -/
theorem V12_main_arg11 (c : Dev nD) : Gen.V12 m outs c main_arg11 = m ((c.tc : Thread nD τ).loc main_arg11) :=
  (V12_of m outs c main_arg11 (by decide)).trans (V11_main_arg11 m outs c)

/-- Argument 13 is as launched when region 1 is entered: the last host stretch writes only the six rows. -/
theorem V12_main_arg13 (c : Dev nD) : Gen.V12 m outs c main_arg13 = m ((c.tc : Thread nD τ).loc main_arg13) :=
  (V12_of m outs c main_arg13 (by decide)).trans (V11_main_arg13 m outs c)

/-- Argument 15 is as launched when region 1 is entered: the last host stretch writes only the six rows. -/
theorem V12_main_arg15 (c : Dev nD) : Gen.V12 m outs c main_arg15 = m ((c.tc : Thread nD τ).loc main_arg15) :=
  (V12_of m outs c main_arg15 (by decide)).trans (V11_main_arg15 m outs c)

/-- The gathered state rows are what the host stretches before region 0 left: neither region 0 nor the last stretch writes them. -/
theorem V12_main_v2 (c : Dev nD) : Gen.V12 m outs c main_v2 = Gen.V10 m c main_v2 :=
  (V12_of m outs c main_v2 (by decide)).trans (V11_of m outs c main_v2 (by decide))

/-- Region 0's output is what region 0 left: the last host stretch does not write it. -/
theorem V12_main_v41 (c : Dev nD) : Gen.V12 m outs c main_v41 = outs 11 main_v41 c :=
  (V12_of m outs c main_v41 (by decide)).trans (by simp only [V11, Function.update_self])

end Host1

end Cert.KernelIdeal.Hand

end
-- ==== Proof.Spec.lean ====
/-
  The two programs' results as plain functions of the argument arrays, over the extended reals.

  A graph of 50000 nodes carries 800000 weighted edges (a source row and a target row of node numbers) and one
  self loop of weight 1 per node: 850000 "edges" in all.  The degree of a node is the total weight of the edges that
  end in it, an edge's normalised weight is its weight times the inverse square roots of the degrees of its two ends,
  and the graph layer sends to node n the sum, over the edges that end in n, of the projected embedding of the edge's
  source times the normalised weight, plus a bias.  Only the MEAN over all nodes of that layer is used.

  The reference computes the layer node by node and averages ('x2ref').  The kernel uses that the mean of a sum over
  "edges ending in n", taken over all n, is the sum over all edges: it first adds up, per SOURCE node, the normalised
  weights of the edges that leave it ('cvec'), contracts that vector with the embeddings ('chx'), projects once and
  scales by 1/50000 ('x2ker').  Both then run the same three-layer perceptron with a value head and an advantage
  head ('mlp').
-/
import Idealize.ShloMosaic.Lib.ValueIdx
import Idealize.ShloMosaic.PureOps.Ideal

noncomputable section

open scoped BigOperators

namespace Cert.Spec

open Idealize.ShloMosaic Idealize.ShloMosaic.ValueIdx

/-- An array of extended reals of a literal shape. -/
abbrev Arr (s : Shape) : Type := s.Idx → EReal

/-- The table row a word names when it is used as a row index of a 50000-row table: the word read as a signed
    number and clamped into the table (a word already in range names its own row). -/
def rowOf (w : BitVec 32) : Fin 50000 := ⟨min w.toInt.toNat 49999, by omega⟩

/-- A word is a node number. -/
def IsNode (w : BitVec 32) : Prop := 0 ≤ w.toInt ∧ w.toInt < 50000

/-- Every integer input is a node number. -/
structure InRange (state : IVec ⟨2, ![256, 1]⟩ 32) (xidx : IVec ⟨1, ![50000]⟩ 32) (ei : IVec ⟨2, ![2, 800000]⟩ 32) : Prop where
  state : ∀ i, IsNode (state i)
  xidx : ∀ i, IsNode (xidx i)
  ei : ∀ i, IsNode (ei i)

/-- Every entry is a real number. -/
def Fin' {s : Shape} (x : Arr s) : Prop := ∀ i, x i ≠ ⊤ ∧ x i ≠ ⊥

section Graph

variable (xidx : IVec ⟨1, ![50000]⟩ 32) (ei : IVec ⟨2, ![2, 800000]⟩ 32)
  (ew : Arr ⟨1, ![800000]⟩) (emb : Arr ⟨2, ![50000, 64]⟩) (Wg : Arr ⟨2, ![64, 128]⟩) (bg : Arr ⟨1, ![128]⟩)

/-- The source word of edge e: row 0 of the edge list, then the self loops. -/
def srcW (e : Fin 850000) : BitVec 32 :=
  if h : e.val < 800000 then ei (ix2 (0 : Fin 2) (⟨e.val, h⟩ : Fin 800000)) else BitVec.ofNat 32 (e.val - 800000)

/-- The target word of edge e: row 1 of the edge list, then the self loops. -/
def dstW (e : Fin 850000) : BitVec 32 :=
  if h : e.val < 800000 then ei (ix2 (1 : Fin 2) (⟨e.val, h⟩ : Fin 800000)) else BitVec.ofNat 32 (e.val - 800000)

/-- The weight of edge e: the given weight, 1 on a self loop. -/
def wt (e : Fin 850000) : EReal :=
  if h : e.val < 800000 then ew (ix1 (⟨e.val, h⟩ : Fin 800000)) else 1

/-- The degree of node n: the total weight of the edges whose target word is n. -/
def deg (n : Fin 50000) : EReal := ∑ e : Fin 850000, if (dstW ei e).toInt = (n.val : ℤ) then wt ew e else 0

/-- The inverse square root of a positive degree, 0 otherwise. -/
def dinv (n : Fin 50000) : EReal := if 0 < deg ei ew n then Ideal.rsqrt (deg ei ew n) else 0

/-- The normalised weight of edge e. -/
def norm (e : Fin 850000) : EReal :=
  dinv ei ew (rowOf (srcW ei e)) * wt ew e * dinv ei ew (rowOf (dstW ei e))

/-- The embedding of node n. -/
def hx (n : Fin 50000) (q : Fin 64) : EReal := emb (ix2 (rowOf (xidx (ix1 n))) q)

/-- The projected embedding of node n. -/
def hW (n : Fin 50000) (j : Fin 128) : EReal := ∑ q : Fin 64, hx xidx emb n q * Wg (ix2 q j)

/-- What the edges ending in node n bring to it. -/
def agg (n : Fin 50000) (j : Fin 128) : EReal :=
  ∑ e : Fin 850000, if (dstW ei e).toInt = (n.val : ℤ) then hW xidx emb Wg (rowOf (srcW ei e)) j * norm ei ew e else 0

/-- The reference's pooled graph feature: the mean over the nodes of the layer's output. -/
def x2ref (j : Fin 128) : EReal :=
  Ideal.div (∑ n : Fin 50000, (agg xidx ei ew emb Wg n j + bg (ix1 j))) ((50000 : ℝ) : EReal)

/-- The total normalised weight of the edges LEAVING node n. -/
def cvec (n : Fin 50000) : EReal := ∑ e : Fin 850000, if (srcW ei e).toInt = (n.val : ℤ) then norm ei ew e else 0

/-- That vector contracted with the embeddings. -/
def chx (q : Fin 64) : EReal := ∑ n : Fin 50000, cvec ei ew n * hx xidx emb n q

/-- The kernel's pooled graph feature. -/
def x2ker (j : Fin 128) : EReal :=
  (∑ q : Fin 64, chx xidx ei ew emb q * Wg (ix2 q j)) * ((1 / 50000 : ℝ) : EReal) + bg (ix1 j)

end Graph

section Head

variable (W1 : Arr ⟨2, ![192, 128]⟩) (b1 : Arr ⟨1, ![128]⟩) (W2 : Arr ⟨2, ![128, 128]⟩) (b2 : Arr ⟨1, ![128]⟩)
  (W3 : Arr ⟨2, ![128, 128]⟩) (b3 : Arr ⟨1, ![128]⟩) (Wv : Arr ⟨2, ![128, 1]⟩) (bv : Arr ⟨1, ![1]⟩)
  (Wa : Arr ⟨2, ![128, 8]⟩) (ba : Arr ⟨1, ![8]⟩)

/-- A state's own embedding beside the pooled graph feature: 64 + 128 columns. -/
def xcat (x1 : Fin 256 → Fin 64 → EReal) (x2 : Fin 128 → EReal) (b : Fin 256) (k : Fin 192) : EReal :=
  if h : k.val < 64 then x1 b ⟨k.val, h⟩ else x2 ⟨k.val - 64, by omega⟩

/-- The first hidden layer. -/
def h1 (x1 : Fin 256 → Fin 64 → EReal) (x2 : Fin 128 → EReal) (b : Fin 256) (j : Fin 128) : EReal :=
  max ((∑ k : Fin 192, xcat x1 x2 b k * W1 (ix2 k j)) + b1 (ix1 j)) 0

/-- The second hidden layer. -/
def h2 (x1 : Fin 256 → Fin 64 → EReal) (x2 : Fin 128 → EReal) (b : Fin 256) (j : Fin 128) : EReal :=
  max ((∑ k : Fin 128, h1 W1 b1 x1 x2 b k * W2 (ix2 k j)) + b2 (ix1 j)) 0

/-- The third hidden layer. -/
def h3 (x1 : Fin 256 → Fin 64 → EReal) (x2 : Fin 128 → EReal) (b : Fin 256) (j : Fin 128) : EReal :=
  max ((∑ k : Fin 128, h2 W1 b1 W2 b2 x1 x2 b k * W3 (ix2 k j)) + b3 (ix1 j)) 0

/-- The value head. -/
def value (x1 : Fin 256 → Fin 64 → EReal) (x2 : Fin 128 → EReal) (b : Fin 256) : EReal :=
  (∑ k : Fin 128, h3 W1 b1 W2 b2 W3 b3 x1 x2 b k * Wv (ix2 k (0 : Fin 1))) + bv (ix1 (0 : Fin 1))

/-- The advantage head. -/
def adv (x1 : Fin 256 → Fin 64 → EReal) (x2 : Fin 128 → EReal) (b : Fin 256) (a : Fin 8) : EReal :=
  (∑ k : Fin 128, h3 W1 b1 W2 b2 W3 b3 x1 x2 b k * Wa (ix2 k a)) + ba (ix1 a)

/-- The dueling output: the value plus the advantage less its mean over the 8 actions. -/
def mlp (x1 : Fin 256 → Fin 64 → EReal) (x2 : Fin 128 → EReal) : Arr ⟨2, ![256, 8]⟩ := fun i =>
  value W1 b1 W2 b2 W3 b3 Wv bv x1 x2 (i 0)
    + (adv W1 b1 W2 b2 W3 b3 Wa ba x1 x2 (i 0) (i 1)
        - Ideal.div (∑ a : Fin 8, adv W1 b1 W2 b2 W3 b3 Wa ba x1 x2 (i 0) a) ((8 : ℝ) : EReal))

end Head

/-- A state's own embedding. -/
def x1 (state : IVec ⟨2, ![256, 1]⟩ 32) (emb : Arr ⟨2, ![50000, 64]⟩) (b : Fin 256) (q : Fin 64) : EReal :=
  emb (ix2 (rowOf (state (ix2 b (0 : Fin 1)))) q)

end Cert.Spec

end
-- ==== Proof.KI.PayHead.lean ====
/-
  The second kernel's arithmetic is the specification's perceptron.

  The kernel's body computes, from the states' embeddings x0 (256 x 64), the pooled embedding cx (1 x 64), the graph
  projection Wg (64 x 128) with its bias row, and the weights and bias rows of three dense layers and two heads:

    the pooled row      x2 (j)   = (sum over q of cx (0, q) * Wg (q, j)) * (1 / 50000) + bg (0, j),
    the input           in (b, k) = x0 (b, k) for k < 64, x2 (k - 64) from column 64 on        (192 columns),
    three layers        h (b, j)  = max (sum over k of prev (b, k) * W (k, j) + bias (0, j)) 0,
    the value head      v (b)     = sum over k of h3 (b, k) * Wv (k, 0) + bv (0, 0),
    the advantage head  a (b, c)  = sum over k of h3 (b, k) * Wa (k, c) + ba (0, c),
    the result          r (b, c)  = v (b) + (a (b, c) - (sum over c' of a (b, c')) / 8).

  On the extended reals the changes of number format are the identity, a product accumulated into a zero splat is the
  plain sum over the contracted coordinate, the named constant is the rational 1 / 50000 and the pattern of 8.0 is the
  real 8.  Each step is read at an entry and identified with the specification's function of the same name
  (xcat, h1, h2, h3, value, adv, mlp); a bias enters the kernel as a 1 x n row and the specification as a rank-1 array.
-/
import proofs.«409071_j82351702934075_2_alg».proof.Proof.Gen.KernelIdeal.Skeleton
import proofs.«409071_j82351702934075_2_alg».proof.Proof.Spec
import proofs.«409071_j82351702934075_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Mathlib.Algebra.BigOperators.Group.Finset.Basic
import Mathlib.Tactic.NormNum.Basic

noncomputable section

open scoped BigOperators

namespace Cert.KernelIdeal.PayVal

open Idealize.ShloMosaic Idealize.ShloMosaic.ValueIdx Cert.KernelIdeal

/-! ## The products' dimension numbers are the plain ones -/

theorem dot64_eq : dot_S1x64_S64x128_S1x128_1_0_0_1_n_n = DotDims.plain 1 64 128 := rfl
theorem dot192_eq : dot_S256x192_S192x128_S256x128_1_0_0_1_n_n = DotDims.plain 256 192 128 := rfl
theorem dot128_eq : dot_S256x128_S128x128_S256x128_1_0_0_1_n_n = DotDims.plain 256 128 128 := rfl
theorem dotV_eq : dot_S256x128_S128x1_S256x1_1_0_0_1_n_n = DotDims.plain 256 128 1 := rfl
theorem dotA_eq : dot_S256x128_S128x8_S256x8_1_0_0_1_n_n = DotDims.plain 256 128 8 := rfl

/-! ## The constants -/

theorem inv_50000 : Named.named (F := Ideal) Cert.KernelIdeal.κ "inv_50000" (φ := .f32) 0x37A7C5AC#32 = ((1 / 50000 : ℝ) : EReal) :=
  IdealRules.named_const.ideal_named_scalar _ _ _ _ rfl

theorem ofBits_eight : Ideal.ofBits .f32 0x41000000#32 = ((8 : ℝ) : EReal) := by
  simp [Ideal.ofBits, Ideal.ieee, -EReal.coe_mul]; norm_num

/-- One dense layer of the kernel: the product with the weights, the bias row on every row, the positive part. -/
def kLayer {K : Nat} (d : DotDims ⟨2, ![256, K]⟩ ⟨2, ![K, 128]⟩ S256x128) (prev : FVec Ideal ⟨2, ![256, K]⟩ .bf16)
    (W : FVec Ideal ⟨2, ![K, 128]⟩ .f32) (br : FVec Ideal S1x128 .f32) : FVec Ideal S256x128 .bf16 :=
  truncf .bf16 (maximumf (addf (matmul d none prev (truncf .bf16 W Gen.bitsLt_bf16_f32) (constant S256x128 .f32 0x00000000#32))
    (broadcastTo S256x128 (shapeCast S1x128 br Gen.shapeCasts_S1x128_S1x128) Gen.broadcasts_S1x128_S256x128))
    (broadcast S256x128 (Scalar.ofBits .f32 0x00000000#32))) Gen.bitsLt_bf16_f32

theorem kLayer_apply {K : Nat} (d : DotDims ⟨2, ![256, K]⟩ ⟨2, ![K, 128]⟩ S256x128) (hd : d = DotDims.plain 256 K 128)
    (prev : FVec Ideal ⟨2, ![256, K]⟩ .bf16) (W : FVec Ideal ⟨2, ![K, 128]⟩ .f32) (br : FVec Ideal S1x128 .f32)
    (b : Fin 256) (j : Fin 128) :
    kLayer d prev W br (ix2 b j) = max ((∑ k : Fin K, prev (ix2 b k) * W (ix2 k j)) + br (ix2 (0 : Fin 1) j)) 0 := by
  subst hd
  show max (matmul (DotDims.plain 256 K 128) none prev (truncf .bf16 W Gen.bitsLt_bf16_f32) (constant S256x128 .f32 0x00000000#32) (ix2 b j)
      + broadcastTo S256x128 (shapeCast S1x128 br Gen.shapeCasts_S1x128_S1x128) Gen.broadcasts_S1x128_S256x128 (ix2 b j))
      (Ideal.ofBits .f32 0x00000000#32) = _
  rw [PlainDot.matmul_zero_plain_apply, shapeCast_self, broadcastTo_1b_ab_apply, Ideal.ofBits_zero_f32]
  rfl

/-! ## The pooled graph feature's row -/

/-- The kernel's pooled row: the pooled embedding times the projection, scaled by the named reciprocal, plus the bias row. -/
def kRow (cx : FVec Ideal S1x64 .f32) (Wg : FVec Ideal S64x128 .f32) (bgr : FVec Ideal S1x128 .f32) : FVec Ideal S1x128 .f32 :=
  shapeCast S1x128 (addf (mulf (matmul dot_S1x64_S64x128_S1x128_1_0_0_1_n_n none
      (truncf .bf16 (shapeCast S1x64 cx Gen.shapeCasts_S1x64_S1x64) Gen.bitsLt_bf16_f32) (truncf .bf16 Wg Gen.bitsLt_bf16_f32)
      (constant S1x128 .f32 0x00000000#32))
    (broadcast S1x128 (Named.named κ "inv_50000" 0x37A7C5AC#32)))
    (shapeCast S1x128 bgr Gen.shapeCasts_S1x128_S1x128)) Gen.shapeCasts_S1x128_S1x128

theorem kRow_apply (cx : FVec Ideal S1x64 .f32) (Wg : FVec Ideal S64x128 .f32) (bgr : FVec Ideal S1x128 .f32) (j : Fin 128) :
    kRow cx Wg bgr (ix2 (0 : Fin 1) j)
      = (∑ q : Fin 64, cx (ix2 (0 : Fin 1) q) * Wg (ix2 q j)) * ((1 / 50000 : ℝ) : EReal) + bgr (ix2 (0 : Fin 1) j) := by
  unfold kRow
  rw [shapeCast_self, shapeCast_self, shapeCast_self, dot64_eq]
  show matmul (DotDims.plain 1 64 128) none (truncf .bf16 cx Gen.bitsLt_bf16_f32) (truncf .bf16 Wg Gen.bitsLt_bf16_f32)
      (constant S1x128 .f32 0x00000000#32) (ix2 (0 : Fin 1) j) * Named.named (F := Ideal) κ "inv_50000" (φ := .f32) 0x37A7C5AC#32
      + bgr (ix2 (0 : Fin 1) j) = _
  rw [PlainDot.matmul_zero_plain_apply, inv_50000]
  rfl

/-! ## A state's embedding beside the pooled row -/

/-- The concatenation along the columns at (b, k): the state's embedding below column 64, the pooled row from there on. -/
theorem kCat_apply (x0 : FVec Ideal S256x64 .f32) (row : FVec Ideal S1x128 .f32) (b : Fin 256) (k : Fin 192) :
    concatenate S256x192 1 [⟨S256x64, x0⟩, ⟨S256x128, broadcastTo S256x128 row Gen.broadcasts_S1x128_S256x128⟩]
        Gen.concatenates_S256x64_S256x128_S256x192_d1 (ix2 b k)
      = if h : k.val < 64 then x0 (ix2 b (⟨k.val, h⟩ : Fin 64)) else row (ix2 (0 : Fin 1) (⟨k.val - 64, by omega⟩ : Fin 128)) := by
  by_cases h : k.val < 64
  · rw [dif_pos h]
    exact concatenate_pair_apply_left (t := S256x192) (s₁ := S256x64) (s₂ := S256x128) (1 : Fin 2) _ _ _ (ix2 b k) rfl
      (ix2 b (⟨k.val, h⟩ : Fin 64)) (by
        intro c
        match c with
        | ⟨0, _⟩ => rfl
        | ⟨1, _⟩ => rfl)
  · rw [dif_neg h]
    refine (concatenate_pair_apply_right (t := S256x192) (s₁ := S256x64) (s₂ := S256x128) (1 : Fin 2) _ _ _ (ix2 b k) rfl rfl
      (ix2 b (⟨k.val - 64, by omega⟩ : Fin 128)) (by
        intro c hc
        match c with
        | ⟨0, _⟩ => rfl
        | ⟨1, _⟩ => exact absurd rfl hc) (by
        show k.val - 64 + 64 = k.val; omega)).trans ?_
    exact broadcastTo_1b_ab_apply row _ b _

/-! ## The two heads -/

/-- A head of the kernel: the product with the head's weights plus its bias row on every row. -/
def kHead {N : Nat} (d : DotDims S256x128 ⟨2, ![128, N]⟩ ⟨2, ![256, N]⟩) (h : FVec Ideal S256x128 .bf16)
    (W : FVec Ideal ⟨2, ![128, N]⟩ .f32) (br : FVec Ideal ⟨2, ![1, N]⟩ .f32)
    (hs : (⟨2, ![1, N]⟩ : Shape).ShapeCasts ⟨2, ![1, N]⟩) (hb : (⟨2, ![1, N]⟩ : Shape).Broadcasts ⟨2, ![256, N]⟩) :
    FVec Ideal ⟨2, ![256, N]⟩ .f32 :=
  addf (matmul d none h (truncf .bf16 W Gen.bitsLt_bf16_f32) (constant ⟨2, ![256, N]⟩ .f32 0x00000000#32))
    (broadcastTo ⟨2, ![256, N]⟩ (shapeCast ⟨2, ![1, N]⟩ br hs) hb)

theorem kHead_apply {N : Nat} (d : DotDims S256x128 ⟨2, ![128, N]⟩ ⟨2, ![256, N]⟩) (hd : d = DotDims.plain 256 128 N)
    (h : FVec Ideal S256x128 .bf16) (W : FVec Ideal ⟨2, ![128, N]⟩ .f32) (br : FVec Ideal ⟨2, ![1, N]⟩ .f32)
    (hs : (⟨2, ![1, N]⟩ : Shape).ShapeCasts ⟨2, ![1, N]⟩) (hb : (⟨2, ![1, N]⟩ : Shape).Broadcasts ⟨2, ![256, N]⟩)
    (b : Fin 256) (a : Fin N) :
    kHead d h W br hs hb (ix2 b a) = (∑ k : Fin 128, h (ix2 b k) * W (ix2 k a)) + br (ix2 (0 : Fin 1) a) := by
  subst hd
  show matmul (DotDims.plain 256 128 N) none h (truncf .bf16 W Gen.bitsLt_bf16_f32) (constant ⟨2, ![256, N]⟩ .f32 0x00000000#32) (ix2 b a)
      + broadcastTo ⟨2, ![256, N]⟩ (shapeCast ⟨2, ![1, N]⟩ br hs) hb (ix2 b a) = _
  rw [PlainDot.matmul_zero_plain_apply, shapeCast_self, broadcastTo_1b_ab_apply]
  rfl

/-! ## The dueling combination -/

section Layout
variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-- The sum over the 8 actions of a row. -/
theorem rowSum_apply (v : FVec Ideal S256x8 .f32) (b : Fin 256) :
    multiReduction (F := Ideal) .add [1] S256 v 0x00000000#32 Gen.reduces_S256x8_S256 (.inl rfl) rfl (ix1 b)
      = ∑ a : Fin 8, v (ix2 b a) := by
  refine (Ideal.multiReduction_add_single v 0x00000000#32 Gen.reduces_S256x8_S256 (.inl rfl) rfl (ix1 b)).trans ?_
  show ∑ a : Fin 8, v (Gen.reduces_S256x8_S256.lift (ix1 b) a) = _
  refine Finset.sum_congr rfl fun a _ => congrArg v ?_
  funext c
  match c with
  | ⟨0, _⟩ => rfl
  | ⟨1, _⟩ => rfl

/-- The kernel's last step: the value on every action, plus the advantage less its mean over the 8 actions. -/
def kDuel (val : FVec Ideal S256x1 .f32) (adv : FVec Ideal S256x8 .f32) : FVec Ideal S256x8 .f32 :=
  addf (broadcastTo S256x8 val Gen.broadcasts_S256x1_S256x8)
    (subf adv (broadcastTo S256x8
      (divf (shapeCast S256x1 (multiReduction (F := Ideal) .add [1] S256 adv 0x00000000#32 Gen.reduces_S256x8_S256 (.inl rfl) rfl)
          Gen.shapeCasts_S256_S256x1)
        (broadcast S256x1 (Scalar.ofBits .f32 0x41000000#32))) Gen.broadcasts_S256x1_S256x8))

theorem kDuel_apply (val : FVec Ideal S256x1 .f32) (adv : FVec Ideal S256x8 .f32) (b : Fin 256) (a : Fin 8) :
    kDuel val adv (ix2 b a)
      = val (ix2 b (0 : Fin 1)) + (adv (ix2 b a) - Ideal.div (∑ a' : Fin 8, adv (ix2 b a')) ((8 : ℝ) : EReal)) := by
  show broadcastTo S256x8 val Gen.broadcasts_S256x1_S256x8 (ix2 b a) + (adv (ix2 b a) - broadcastTo S256x8
      (divf (shapeCast S256x1 (multiReduction (F := Ideal) .add [1] S256 adv 0x00000000#32 Gen.reduces_S256x8_S256 (.inl rfl) rfl)
          Gen.shapeCasts_S256_S256x1)
        (broadcast S256x1 (Scalar.ofBits .f32 0x41000000#32))) Gen.broadcasts_S256x1_S256x8 (ix2 b a)) = _
  rw [broadcastTo_a1_ab_apply, broadcastTo_a1_ab_apply]
  show val (ix2 b (0 : Fin 1)) + (adv (ix2 b a) - Ideal.div
      (shapeCast S256x1 (multiReduction (F := Ideal) .add [1] S256 adv 0x00000000#32 Gen.reduces_S256x8_S256 (.inl rfl) rfl)
          Gen.shapeCasts_S256_S256x1 (ix2 b (0 : Fin 1)))
      (Ideal.ofBits .f32 0x41000000#32)) = _
  rw [shapeCast_a_a1_apply, rowSum_apply, ofBits_eight]

/-! ## The two payloads as those layers -/

theorem pay2_eq (x0 : Vec Ideal S256x64 .f32) (cx : Vec Ideal S1x64 .f32) (Wg : Vec Ideal S64x128 .f32) (bgr : Vec Ideal S1x128 .f32)
    (W1 : Vec Ideal S192x128 .f32) (b1r : Vec Ideal S1x128 .f32) (W2 : Vec Ideal S128x128 .f32) (b2r : Vec Ideal S1x128 .f32) :
    Gen.k1_pay2 (F := Ideal) x0 cx Wg bgr W1 b1r W2 b2r
      = kLayer dot_S256x128_S128x128_S256x128_1_0_0_1_n_n
          (kLayer dot_S256x192_S192x128_S256x128_1_0_0_1_n_n
            (truncf .bf16 (concatenate S256x192 1 [⟨S256x64, shapeCast S256x64 x0 Gen.shapeCasts_S256x64_S256x64⟩,
                ⟨S256x128, broadcastTo S256x128 (kRow cx Wg bgr) Gen.broadcasts_S1x128_S256x128⟩]
              Gen.concatenates_S256x64_S256x128_S256x192_d1) Gen.bitsLt_bf16_f32) W1 b1r) W2 b2r := rfl

theorem pay1_eq (h2 : FVec Ideal S256x128 .bf16) (W3 : Vec Ideal S128x128 .f32) (b3r : Vec Ideal S1x128 .f32)
    (Wv : Vec Ideal S128x1 .f32) (Wa : Vec Ideal S128x8 .f32) (bvr : Vec Ideal S1x1 .f32) (bar : Vec Ideal S1x8 .f32) :
    Gen.k1_pay1 (F := Ideal) h2 W3 b3r Wv Wa bvr bar
      = kDuel
          (kHead dot_S256x128_S128x1_S256x1_1_0_0_1_n_n (kLayer dot_S256x128_S128x128_S256x128_1_0_0_1_n_n h2 W3 b3r) Wv bvr
            Gen.shapeCasts_S1x1_S1x1 Gen.broadcasts_S1x1_S256x1)
          (kHead dot_S256x128_S128x8_S256x8_1_0_0_1_n_n (kLayer dot_S256x128_S128x128_S256x128_1_0_0_1_n_n h2 W3 b3r) Wa bar
            Gen.shapeCasts_S1x8_S1x8 Gen.broadcasts_S1x8_S256x8) := rfl

/-! ## The layers are the specification's -/

/-- A layer over a previous layer known entry by entry. -/
theorem kLayer_apply_of {K : Nat} (d : DotDims ⟨2, ![256, K]⟩ ⟨2, ![K, 128]⟩ S256x128) (hd : d = DotDims.plain 256 K 128)
    (prev : FVec Ideal ⟨2, ![256, K]⟩ .bf16) (f : Fin 256 → Fin K → EReal) (hp : ∀ b k, prev (ix2 b k) = f b k)
    (W : FVec Ideal ⟨2, ![K, 128]⟩ .f32) (br : FVec Ideal S1x128 .f32) (b : Fin 256) (j : Fin 128) :
    kLayer d prev W br (ix2 b j) = max ((∑ k : Fin K, f b k * W (ix2 k j)) + br (ix2 (0 : Fin 1) j)) 0 := by
  rw [kLayer_apply d hd]
  exact congrArg (fun s => max (s + br (ix2 (0 : Fin 1) j)) 0) (Finset.sum_congr rfl fun k _ => by rw [hp b k])

/-- A head over a last layer known entry by entry. -/
theorem kHead_apply_of {N : Nat} (d : DotDims S256x128 ⟨2, ![128, N]⟩ ⟨2, ![256, N]⟩) (hd : d = DotDims.plain 256 128 N)
    (h : FVec Ideal S256x128 .bf16) (f : Fin 256 → Fin 128 → EReal) (hp : ∀ b k, h (ix2 b k) = f b k)
    (W : FVec Ideal ⟨2, ![128, N]⟩ .f32) (br : FVec Ideal ⟨2, ![1, N]⟩ .f32)
    (hs : (⟨2, ![1, N]⟩ : Shape).ShapeCasts ⟨2, ![1, N]⟩) (hb : (⟨2, ![1, N]⟩ : Shape).Broadcasts ⟨2, ![256, N]⟩)
    (b : Fin 256) (a : Fin N) :
    kHead d h W br hs hb (ix2 b a) = (∑ k : Fin 128, f b k * W (ix2 k a)) + br (ix2 (0 : Fin 1) a) := by
  rw [kHead_apply d hd]
  exact congrArg (fun s => s + br (ix2 (0 : Fin 1) a)) (Finset.sum_congr rfl fun k _ => by rw [hp b k])

/-- A bias row as the rank-1 array the specification takes. -/
abbrev rowArr {n : Nat} (r : FVec Ideal ⟨2, ![1, n]⟩ .f32) : Cert.Spec.Arr ⟨1, ![n]⟩ := fun i => r (ix2 (0 : Fin 1) (i 0))

/-- The states' embeddings as the specification takes them. -/
abbrev sX1 (x0 : FVec Ideal S256x64 .f32) : Fin 256 → Fin 64 → EReal := fun b q => x0 (ix2 b q)

/-- The pooled graph feature as the specification takes it. -/
abbrev sX2 (cx : FVec Ideal S1x64 .f32) (Wg : FVec Ideal S64x128 .f32) (bgr : FVec Ideal S1x128 .f32) : Fin 128 → EReal :=
  fun j => (∑ q : Fin 64, cx (ix2 (0 : Fin 1) q) * Wg (ix2 q j)) * ((1 / 50000 : ℝ) : EReal) + bgr (ix2 (0 : Fin 1) j)

section Assembly

variable (x0 : FVec Ideal S256x64 .f32) (cx : FVec Ideal S1x64 .f32) (Wg : FVec Ideal S64x128 .f32) (bgr : FVec Ideal S1x128 .f32)
  (W1 : FVec Ideal S192x128 .f32) (b1r : FVec Ideal S1x128 .f32) (W2 : FVec Ideal S128x128 .f32) (b2r : FVec Ideal S1x128 .f32)
  (W3 : FVec Ideal S128x128 .f32) (b3r : FVec Ideal S1x128 .f32) (Wv : FVec Ideal S128x1 .f32) (bvr : FVec Ideal S1x1 .f32)
  (Wa : FVec Ideal S128x8 .f32) (bar : FVec Ideal S1x8 .f32)

/-- The kernel's concatenated input. -/
def kIn : FVec Ideal S256x192 .bf16 :=
  truncf .bf16 (concatenate S256x192 1 [⟨S256x64, shapeCast S256x64 x0 Gen.shapeCasts_S256x64_S256x64⟩,
      ⟨S256x128, broadcastTo S256x128 (kRow cx Wg bgr) Gen.broadcasts_S1x128_S256x128⟩]
    Gen.concatenates_S256x64_S256x128_S256x192_d1) Gen.bitsLt_bf16_f32

/-- The concatenated input is the specification's. -/
theorem kIn_apply (b : Fin 256) (k : Fin 192) :
    kIn x0 cx Wg bgr (ix2 b k) = Cert.Spec.xcat (sX1 x0) (sX2 cx Wg bgr) b k := by
  show concatenate S256x192 1 [⟨S256x64, shapeCast S256x64 x0 Gen.shapeCasts_S256x64_S256x64⟩,
      ⟨S256x128, broadcastTo S256x128 (kRow cx Wg bgr) Gen.broadcasts_S1x128_S256x128⟩]
    Gen.concatenates_S256x64_S256x128_S256x192_d1 (ix2 b k) = _
  rw [shapeCast_self, kCat_apply]
  unfold Cert.Spec.xcat
  by_cases h : k.val < 64
  · rw [dif_pos h, dif_pos h]
  · rw [dif_neg h, dif_neg h]
    exact kRow_apply cx Wg bgr _

/-- The kernel's first hidden layer. -/
def kH1 : FVec Ideal S256x128 .bf16 := kLayer dot_S256x192_S192x128_S256x128_1_0_0_1_n_n (kIn x0 cx Wg bgr) W1 b1r
/-- The kernel's second hidden layer. -/
def kH2 : FVec Ideal S256x128 .bf16 := kLayer dot_S256x128_S128x128_S256x128_1_0_0_1_n_n (kH1 x0 cx Wg bgr W1 b1r) W2 b2r
/-- The kernel's third hidden layer. -/
def kH3 : FVec Ideal S256x128 .bf16 := kLayer dot_S256x128_S128x128_S256x128_1_0_0_1_n_n (kH2 x0 cx Wg bgr W1 b1r W2 b2r) W3 b3r

theorem kH1_apply (b : Fin 256) (j : Fin 128) :
    kH1 x0 cx Wg bgr W1 b1r (ix2 b j) = Cert.Spec.h1 W1 (rowArr b1r) (sX1 x0) (sX2 cx Wg bgr) b j :=
  kLayer_apply_of _ dot192_eq _ _ (kIn_apply x0 cx Wg bgr) W1 b1r b j

theorem kH2_apply (b : Fin 256) (j : Fin 128) :
    kH2 x0 cx Wg bgr W1 b1r W2 b2r (ix2 b j) = Cert.Spec.h2 W1 (rowArr b1r) W2 (rowArr b2r) (sX1 x0) (sX2 cx Wg bgr) b j :=
  kLayer_apply_of _ dot128_eq _ _ (kH1_apply x0 cx Wg bgr W1 b1r) W2 b2r b j

theorem kH3_apply (b : Fin 256) (j : Fin 128) :
    kH3 x0 cx Wg bgr W1 b1r W2 b2r W3 b3r (ix2 b j)
      = Cert.Spec.h3 W1 (rowArr b1r) W2 (rowArr b2r) W3 (rowArr b3r) (sX1 x0) (sX2 cx Wg bgr) b j :=
  kLayer_apply_of _ dot128_eq _ _ (kH2_apply x0 cx Wg bgr W1 b1r W2 b2r) W3 b3r b j

/-- The value head is the specification's. -/
theorem kValue_apply (b : Fin 256) :
    kHead dot_S256x128_S128x1_S256x1_1_0_0_1_n_n (kH3 x0 cx Wg bgr W1 b1r W2 b2r W3 b3r) Wv bvr
        Gen.shapeCasts_S1x1_S1x1 Gen.broadcasts_S1x1_S256x1 (ix2 b (0 : Fin 1))
      = Cert.Spec.value W1 (rowArr b1r) W2 (rowArr b2r) W3 (rowArr b3r) Wv (rowArr bvr) (sX1 x0) (sX2 cx Wg bgr) b :=
  kHead_apply_of _ dotV_eq _ _ (kH3_apply x0 cx Wg bgr W1 b1r W2 b2r W3 b3r) Wv bvr _ _ b 0

/-- The advantage head is the specification's. -/
theorem kAdv_apply (b : Fin 256) (a : Fin 8) :
    kHead dot_S256x128_S128x8_S256x8_1_0_0_1_n_n (kH3 x0 cx Wg bgr W1 b1r W2 b2r W3 b3r) Wa bar
        Gen.shapeCasts_S1x8_S1x8 Gen.broadcasts_S1x8_S256x8 (ix2 b a)
      = Cert.Spec.adv W1 (rowArr b1r) W2 (rowArr b2r) W3 (rowArr b3r) Wa (rowArr bar) (sX1 x0) (sX2 cx Wg bgr) b a :=
  kHead_apply_of _ dotA_eq _ _ (kH3_apply x0 cx Wg bgr W1 b1r W2 b2r W3 b3r) Wa bar _ _ b a

end Assembly

/-- The second kernel's arithmetic is the specification's perceptron with its two heads and the dueling combination. -/
theorem pay_eq_mlp (x0 : Vec Ideal S256x64 .f32) (cx : Vec Ideal S1x64 .f32) (Wg : Vec Ideal S64x128 .f32) (bgr : Vec Ideal S1x128 .f32)
    (W1 : Vec Ideal S192x128 .f32) (b1r : Vec Ideal S1x128 .f32) (W2 : Vec Ideal S128x128 .f32) (b2r : Vec Ideal S1x128 .f32)
    (W3 : Vec Ideal S128x128 .f32) (b3r : Vec Ideal S1x128 .f32) (Wv : Vec Ideal S128x1 .f32) (bvr : Vec Ideal S1x1 .f32)
    (Wa : Vec Ideal S128x8 .f32) (bar : Vec Ideal S1x8 .f32) :
    Gen.k1_pay1 (F := Ideal) (Gen.k1_pay2 (F := Ideal) x0 cx Wg bgr W1 b1r W2 b2r) W3 b3r Wv Wa bvr bar
      = Cert.Spec.mlp W1 (fun i => b1r (ix2 (0 : Fin 1) (i 0))) W2 (fun i => b2r (ix2 (0 : Fin 1) (i 0)))
          W3 (fun i => b3r (ix2 (0 : Fin 1) (i 0))) Wv (fun i => bvr (ix2 (0 : Fin 1) (i 0))) Wa (fun i => bar (ix2 (0 : Fin 1) (i 0)))
          (fun b q => x0 (ix2 b q))
          (fun j => (∑ q : Fin 64, cx (ix2 (0 : Fin 1) q) * Wg (ix2 q j)) * ((1 / 50000 : ℝ) : EReal) + bgr (ix2 (0 : Fin 1) j)) := by
  funext i
  obtain ⟨b, a, rfl⟩ : ∃ (b : Fin 256) (a : Fin 8), i = ix2 b a := ⟨i 0, i 1, eq_ix2 i⟩
  have e2 : Gen.k1_pay2 (F := Ideal) x0 cx Wg bgr W1 b1r W2 b2r = kH2 x0 cx Wg bgr W1 b1r W2 b2r := rfl
  rw [e2, pay1_eq]
  refine (kDuel_apply _ _ b a).trans ?_
  rw [show kLayer dot_S256x128_S128x128_S256x128_1_0_0_1_n_n (kH2 x0 cx Wg bgr W1 b1r W2 b2r) W3 b3r
      = kH3 x0 cx Wg bgr W1 b1r W2 b2r W3 b3r from rfl, kValue_apply, kAdv_apply]
  simp only [kAdv_apply]
  rfl

end Cert.KernelIdeal.PayVal

end
-- ==== Proof.LibRowGatherClamp.lean ====
/-
  Taking rows of a table with the start index clamped: the gather that x[idx] of an [N × C] array lowers to, read
  at an entry, for an ARBITRARY start index.

  With the row axis collapsed and start-indexed and the column axis an offset axis of full width, entry (r, q) of
  the result is the table's entry (row, q), where row is start index r read as a signed integer and clamped to
  [0, N − 1]: a negative start index reads row 0, one past the end reads the last row.
-/
import Idealize.ShloMosaic.Lib.ValueIdx

noncomputable section

namespace Cert.LibRowGatherClamp

open Idealize.ShloMosaic Idealize.ShloMosaic.ValueIdx

/-- Entry (r, q) of a row gather is the table's entry (row, q), row being start index r read signed and clamped
    into [0, N − 1]. -/
theorem gather_rows_clamp_apply {α : Type} {N C n w : Nat}
    (d : GatherDims ⟨2, ![N, C]⟩ ⟨2, ![n, 1]⟩ ⟨2, ![n, C]⟩)
    (hoff : d.offsetDims = [1]) (hcol : d.collapsedSliceDims = [0]) (hob : d.operandBatchingDims = [])
    (hsb : d.startIndicesBatchingDims = []) (hmap : d.startIndexMap = [0]) (hiv : d.indexVectorDim = 1)
    (hsl : d.sliceSizes = ![1, C])
    (x : (⟨2, ![N, C]⟩ : Shape).Idx → α) (idx : IVec ⟨2, ![n, 1]⟩ w) (r : Fin n) (q : Fin C) (hN : 0 < N) :
    Host.gather d x idx (ix2 r q)
      = x (ix2 (⟨min (idx (ix2 r (0 : Fin 1))).toInt.toNat (N - 1), by omega⟩ : Fin N) q) := by
  -- the record's data are the seven printed lists: make them literal so that the axis bookkeeping computes
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the row axis: collapsed and start-indexed, so the operand's row is the clamped start index alone
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    -- the start index is read at (r, 0): r from the result's batch axis, 0 on the index vector's axis
    generalize hX : GatherDims.siIdx _ (ix2 r q) _ = X
    have hX' : X = ix2 r (0 : Fin 1) := by
      rw [← hX]
      funext b
      match b with
      | ⟨0, _⟩ => rfl
      | ⟨1, _⟩ => rfl
    rw [hX']
    rfl
  | ⟨1, _⟩ =>
    -- the column axis: an offset axis of full width, no start, so the operand's column is the result's
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl

end Cert.LibRowGatherClamp

end
-- ==== Proof.KI.HostEmb.lean ====
/-
  What the host code hands the two kernel regions from the embedding table.

  The table has 50000 rows of 64 entries. Before region 0 the host takes its rows at the node list (50000 words) and
  pads the result below with 176 rows to 50176 rows; before region 1 it takes its rows at the 256 states. A take
  first adds 50000 to a negative index, then gathers the rows at the indices (the gather clamps an index into
  [0, 49999]), and keeps a gathered row where its index lies in [0, 49999], a fill value elsewhere. When every
  index is a node number nothing is wrapped, nothing is clamped and every row is kept: entry (r, q) of a take is the
  table's entry (row of index r, q). The padding value is the integer zero converted, so the 176 rows are zero.

  Each stretch of host operations is read once over a generic valuation of the buffers: its result buffer as a
  function of the buffers it reads. The buffers' contents when region 0 is entered are then these functions
  chained, a buffer that a stretch does not write keeping its contents.
-/
import proofs.«409071_j82351702934075_2_alg».proof.Proof.Gen.KernelIdeal.Regions
import proofs.«409071_j82351702934075_2_alg».proof.Proof.Spec
import proofs.«409071_j82351702934075_2_alg».proof.Proof.LibRowGatherClamp
import Idealize.ShloMosaic.Lib.StableHlo.Run
import Idealize.ShloMosaic.Lib.ValueIdx
import Idealize.ShloMosaic.Lib.Pipeline.Value
import Idealize.ShloMosaic.PureOps.Reduce

noncomputable section

namespace Cert.KernelIdeal.HostVal

open Cert.KernelIdeal Cert.KernelIdeal.Gen
open Idealize.ShloMosaic Idealize.ShloMosaic.TcCoe Idealize.ShloMosaic.ValueIdx Idealize.ShloMosaic.StableHlo

/-! ## Words: a node number compared with the table's bounds -/

/-- A word that is not negative is not below zero, -/
theorem cmpi_slt_zero {w : BitVec 32} (h : 0 ≤ w.toInt) : IntOp.cmpi .slt w 0#32 = 0#1 := by
  have e : w.slt 0#32 = false := by simp [BitVec.slt, h]
  simp [IntOp.cmpi, e]

/-- is at least zero, -/
theorem cmpi_sge_zero {w : BitVec 32} (h : 0 ≤ w.toInt) : IntOp.cmpi .sge w 0#32 = 1#1 := by
  have e : (0#32).sle w = true := by simp [BitVec.sle, h]
  simp [IntOp.cmpi, e]

/-- and, when below 50000, is at most 49999. -/
theorem cmpi_sle_last {w : BitVec 32} (h : w.toInt < 50000) : IntOp.cmpi .sle w 49999#32 = 1#1 := by
  have e : w.sle 49999#32 = true := by
    have : (49999#32).toInt = 49999 := by decide
    simp [BitVec.sle, this]; omega
  simp [IntOp.cmpi, e]

/-- The and of two set bits is set. -/
theorem andi_one_one : IntOp.andi 1#1 1#1 = 1#1 := by decide
/-! ## Broadcasts and the reduction along a unit axis, read at an entry -/

section Reads
variable {n : Nat} {α : Type}

/-- A vector kept as an [n × 1] column reads, at (r, 0), the vector at r. -/
theorem col_apply (h : (⟨1, ![n]⟩ : Shape).BroadcastsInDim ⟨2, ![n, 1]⟩ ![0]) (v : (⟨1, ![n]⟩ : Shape).Idx → α) (r : Fin n) :
    broadcastInDim ⟨2, ![n, 1]⟩ ![0] h v (ix2 r (0 : Fin 1)) = v (ix1 r) := by
  refine broadcastInDim_apply _ h v _ (ix1 r) fun a => ?_
  match a with
  | ⟨0, _⟩ =>
    show r.val = if n = 1 then 0 else r.val
    have := r.isLt
    split <;> omega

/-- A vector laid along the rows of an [n × C] rectangle reads, at (r, q), the vector at r. -/
theorem rows_apply {C : Nat} (h : (⟨1, ![n]⟩ : Shape).BroadcastsInDim ⟨2, ![n, C]⟩ ![0]) (v : (⟨1, ![n]⟩ : Shape).Idx → α) (r : Fin n) (q : Fin C) :
    broadcastInDim ⟨2, ![n, C]⟩ ![0] h v (ix2 r q) = v (ix1 r) := by
  refine broadcastInDim_apply _ h v _ (ix1 r) fun a => ?_
  match a with
  | ⟨0, _⟩ =>
    show r.val = if n = 1 then 0 else r.val
    have := r.isLt
    split <;> omega

/-- A left fold by "and" from the bit 1 over bits that are all 1 is 1. -/
theorem foldl_andi_one {ι : Type} (f : ι → BitVec 1) :
    ∀ (l : List ι), (∀ i ∈ l, f i = 1#1) → l.foldl (fun r i => IntOp.andi r (f i)) 1#1 = 1#1
  | [], _ => rfl
  | a :: l, h => by
    rw [List.foldl_cons, h a (List.mem_cons_self ..), andi_one_one]
    exact foldl_andi_one f l fun i hi => h i (List.mem_cons_of_mem _ hi)

/-- The "and" over the one column of an [n × 1] column of bits, from the bit 1, is, at r, 1 when the bit at (r, 0) is. -/
theorem reduce_col_one (x : IVec ⟨2, ![n, 1]⟩ 1) (init : IVec ⟨0, ![]⟩ 1) (h : (⟨2, ![n, 1]⟩ : Shape).ReducesTo [1] ⟨1, ![n]⟩)
    (hu : 0 < (⟨0, ![]⟩ : Shape).numel) (hinit : ∀ i, init i = 1#1) (r : Fin n) (hx : x (ix2 r (0 : Fin 1)) = 1#1) :
    Host.reduce IntOp.andi x init h hu (ix1 r) = 1#1 := by
  rw [Host.reduce_eq_foldl, hinit]
  refine foldl_andi_one x _ fun i hi => ?_
  have hd : h.drop i = ix1 r := by simpa using (List.mem_filter.1 hi).2
  have hv : (h.drop i 0 : Nat) = i 0 := Shape.ReducesTo.drop_apply_val h i 0
  have e : i = ix2 r (0 : Fin 1) := by
    funext b
    match b with
    | ⟨0, _⟩ =>
      apply Fin.ext
      show (i 0).val = r.val
      rw [← hv, hd]
      rfl
    | ⟨1, _⟩ =>
      apply Fin.ext
      have h1 : (i 1).val < 1 := (i 1).isLt
      show (i 1).val = 0
      omega
  rw [e, hx]

end Reads

/-! ## The padded table and the reshaped column, read at an entry -/

section Layout
variable {α : Type}

/-- The 50000 × 64 table padded below to 50176 rows reads, at (k, q), the table at (k, q) for k < 50000 and the
    padding value in the 176 rows below. -/
theorem padRows_apply (x : S50000x64.Idx → α) (v : S_.Idx → α)
    (h : S50000x64.Pads (![0, 0] : Fin 2 → Nat) ![176, 0] ![0, 0] S50176x64) (hu : 0 < S_.numel) (k : Fin 50176) (q : Fin 64) :
    pad S50176x64 ![0, 0] ![176, 0] ![0, 0] x v h hu (ix2 k q)
      = if hk : k.val < 50000 then x (ix2 (⟨k.val, hk⟩ : Fin 50000) q) else v ix0 := by
  unfold pad
  by_cases hk : k.val < 50000
  · rw [dif_pos hk]
    split
    · refine congrArg x (funext fun a => ?_)
      match a with
      | ⟨0, _⟩ => apply Fin.ext; show (k.val - 0) / (0 + 1) = k.val; omega
      | ⟨1, _⟩ => apply Fin.ext; show (q.val - 0) / (0 + 1) = q.val; omega
    · next hnot =>
      refine absurd (fun a => ?_) hnot
      have hq := q.isLt
      match a with
      | ⟨0, _⟩ => exact ⟨Nat.zero_le _, by show (k.val - 0) % (0 + 1) = 0; omega, by show (k.val - 0) / (0 + 1) < 50000; omega⟩
      | ⟨1, _⟩ => exact ⟨Nat.zero_le _, by show (q.val - 0) % (0 + 1) = 0; omega, by show (q.val - 0) / (0 + 1) < 64; omega⟩
  · rw [dif_neg hk]
    split
    · next hin =>
      have := (hin ⟨0, by decide⟩).2.2
      change (k.val - 0) / (0 + 1) < 50000 at this
      omega
    · exact congrArg v (funext fun a => a.elim0)

/-- The [256 × 1] column as a vector reads, at b, the column at (b, 0). -/
theorem colVec_apply (x : S256x1.Idx → α) (h : S256x1.ShapeCasts S256) (b : Fin 256) :
    shapeCast S256 x h (ix1 b) = x (ix2 b (0 : Fin 1)) := by
  refine shapeCast_apply x h _ _ ?_
  rw [Shape.rowMajor_val_two, Shape.rowMajor_val_one]
  show b.val * 1 + 0 = b.val
  omega

end Layout

/-! ## Taking rows of the 50000-row table, the default way: wrap, gather, and keep the row where the index is in bounds -/

section Take
variable {n : Nat}

/-- The first step: the table's extent added to a negative index; the result kept as an [n × 1] column. -/
def wrapCol (hb : (⟨0, ![]⟩ : Shape).BroadcastsInDim ⟨1, ![n]⟩ ![])
    (hc : (⟨1, ![n]⟩ : Shape).BroadcastsInDim ⟨2, ![n, 1]⟩ ![0]) (idx : IVec ⟨1, ![n]⟩ 32) : IVec ⟨2, ![n, 1]⟩ 32 :=
  broadcastInDim ⟨2, ![n, 1]⟩ ![0] hc
    (select (cmpi .slt idx (broadcastInDim ⟨1, ![n]⟩ ![] hb (constantI ⟨0, ![]⟩ 32 0#32)))
      (addi idx (broadcastInDim ⟨1, ![n]⟩ ![] hb (constantI ⟨0, ![]⟩ 32 50000#32))) idx)

/-- It leaves a node number as it is. -/
theorem wrapCol_apply (hb : (⟨0, ![]⟩ : Shape).BroadcastsInDim ⟨1, ![n]⟩ ![])
    (hc : (⟨1, ![n]⟩ : Shape).BroadcastsInDim ⟨2, ![n, 1]⟩ ![0]) (idx : IVec ⟨1, ![n]⟩ 32) (r : Fin n)
    (h0 : 0 ≤ (idx (ix1 r)).toInt) : wrapCol hb hc idx (ix2 r (0 : Fin 1)) = idx (ix1 r) := by
  unfold wrapCol
  rw [col_apply]
  show Scalar.select (IntOp.cmpi .slt (idx (ix1 r)) 0#32) _ (idx (ix1 r)) = _
  rw [cmpi_slt_zero h0, select_zero]

/-- The rest: the rows gathered at the index column, each kept where its index lies in [0, 49999] and replaced by a
    fill value elsewhere. -/
def takeTail (d : GatherDims ⟨2, ![50000, 64]⟩ ⟨2, ![n, 1]⟩ ⟨2, ![n, 64]⟩)
    (hz : (⟨0, ![]⟩ : Shape).BroadcastsInDim ⟨2, ![n, 1]⟩ ![])
    (h1 : (⟨1, ![1]⟩ : Shape).BroadcastsInDim ⟨2, ![1, 1]⟩ ![1])
    (h11 : (⟨2, ![1, 1]⟩ : Shape).BroadcastsInDim ⟨2, ![n, 1]⟩ ![0, 1])
    (hred : (⟨2, ![n, 1]⟩ : Shape).ReducesTo [1] ⟨1, ![n]⟩) (hu : 0 < (⟨0, ![]⟩ : Shape).numel)
    (hrow : (⟨1, ![n]⟩ : Shape).BroadcastsInDim ⟨2, ![n, 64]⟩ ![0])
    (hnan : (⟨0, ![]⟩ : Shape).BroadcastsInDim ⟨2, ![n, 64]⟩ ![])
    (emb : (⟨2, ![50000, 64]⟩ : Shape).Idx → EReal) (c : IVec ⟨2, ![n, 1]⟩ 32) : (⟨2, ![n, 64]⟩ : Shape).Idx → EReal :=
  select
    (broadcastInDim ⟨2, ![n, 64]⟩ ![0] hrow
      (Host.reduce IntOp.andi
        (andi (cmpi .sge c (broadcastInDim ⟨2, ![n, 1]⟩ ![] hz (constantI ⟨0, ![]⟩ 32 0#32)))
          (cmpi .sle c (broadcastInDim ⟨2, ![n, 1]⟩ ![0, 1] h11 (broadcastInDim ⟨2, ![1, 1]⟩ ![1] h1 (constantI ⟨1, ![1]⟩ 32 49999#32)))))
        (constantI ⟨0, ![]⟩ 1 1#1) hred hu))
    (Host.gather d emb c)
    (broadcastInDim ⟨2, ![n, 64]⟩ ![] hnan (constant (F := Ideal) ⟨0, ![]⟩ .f32 0x7FC00000#32))

/-- Entry (r, q) is the table's entry (the index's row, q) when the index column's word at r is a node number. -/
theorem takeTail_apply (d : GatherDims ⟨2, ![50000, 64]⟩ ⟨2, ![n, 1]⟩ ⟨2, ![n, 64]⟩)
    (hoff : d.offsetDims = [1]) (hcol : d.collapsedSliceDims = [0]) (hob : d.operandBatchingDims = [])
    (hsb : d.startIndicesBatchingDims = []) (hmap : d.startIndexMap = [0]) (hiv : d.indexVectorDim = 1)
    (hsl : d.sliceSizes = ![1, 64])
    (hz : (⟨0, ![]⟩ : Shape).BroadcastsInDim ⟨2, ![n, 1]⟩ ![])
    (h1 : (⟨1, ![1]⟩ : Shape).BroadcastsInDim ⟨2, ![1, 1]⟩ ![1])
    (h11 : (⟨2, ![1, 1]⟩ : Shape).BroadcastsInDim ⟨2, ![n, 1]⟩ ![0, 1])
    (hred : (⟨2, ![n, 1]⟩ : Shape).ReducesTo [1] ⟨1, ![n]⟩) (hu : 0 < (⟨0, ![]⟩ : Shape).numel)
    (hrow : (⟨1, ![n]⟩ : Shape).BroadcastsInDim ⟨2, ![n, 64]⟩ ![0])
    (hnan : (⟨0, ![]⟩ : Shape).BroadcastsInDim ⟨2, ![n, 64]⟩ ![])
    (emb : (⟨2, ![50000, 64]⟩ : Shape).Idx → EReal) (c : IVec ⟨2, ![n, 1]⟩ 32) (r : Fin n) (q : Fin 64)
    (hn : Cert.Spec.IsNode (c (ix2 r (0 : Fin 1)))) :
    takeTail d hz h1 h11 hred hu hrow hnan emb c (ix2 r q) = emb (ix2 (Cert.Spec.rowOf (c (ix2 r (0 : Fin 1)))) q) := by
  unfold takeTail
  rw [select_apply, rows_apply, reduce_col_one _ (constantI ⟨0, ![]⟩ 1 1#1) hred hu (fun _ => rfl) r ?_, select_one,
    Cert.LibRowGatherClamp.gather_rows_clamp_apply d hoff hcol hob hsb hmap hiv hsl emb c r q (by decide)]
  · rfl
  · show IntOp.andi (IntOp.cmpi .sge (c (ix2 r 0)) 0#32) (IntOp.cmpi .sle (c (ix2 r 0)) 49999#32) = 1#1
    rw [cmpi_sge_zero hn.1, cmpi_sle_last hn.2, andi_one_one]

end Take

/-! ## The stretches, each over the buffers it reads -/

section Stretches
variable (W : Valuation τ sig (Elt Ideal))

/-- The first take leaves the table's rows at the wrapped node list. -/
theorem after0_main_v0 :
    (StableHlo.after (hostOps0 (F := Ideal)) W (Proc.devRef .tc main_v0) : S50000x64.Idx → EReal)
      = takeTail gather_S50000x64_S50000x1_S50000x64_1_0_n_n_0_1_164 bcast_S_S50000x1 bcast_S1_S1x1_1 bcast_S1x1_S50000x1_0_1
          reducesTo_S50000x1_S50000_d1 h_S_ bcast_S50000_S50000x64_0 bcast_S_S50000x64
          (W (Proc.devRef .tc main_arg4)) (wrapCol bcast_S_S50000 bcast_S50000_S50000x1_0 (W (Proc.devRef .tc main_arg1))) := by
  unfold takeTail wrapCol
  after_results_simp
  simp only [TRef.ofBuf, TRef.toBuf, cast_eq]

/-- The states' column as a vector. -/
theorem after0_1_main_v1 :
    (StableHlo.after (hostOps0_1 (F := Ideal)) W (Proc.devRef .tc main_v1) : IVec S256 32)
      = shapeCast S256 (W (Proc.devRef .tc main_arg0) : IVec S256x1 32) shapeCasts_S256x1_S256 := by
  after_results; rfl

/-- The second take leaves the table's rows at the wrapped states. -/
theorem after0_2_main_v2 :
    (StableHlo.after (hostOps0_2 (F := Ideal)) W (Proc.devRef .tc main_v2) : S256x64.Idx → EReal)
      = takeTail gather_S50000x64_S256x1_S256x64_1_0_n_n_0_1_164 bcast_S_S256x1 bcast_S1_S1x1_1 bcast_S1x1_S256x1_0_1
          reducesTo_S256x1_S256_d1 h_S_ bcast_S256_S256x64_0 bcast_S_S256x64
          (W (Proc.devRef .tc main_arg4)) (wrapCol bcast_S_S256 bcast_S256_S256x1_0 (W (Proc.devRef .tc main_v1))) := by
  unfold takeTail wrapCol
  after_results_simp
  simp only [TRef.ofBuf, TRef.toBuf, cast_eq]

/-- The padding value's word is the integer zero. -/
theorem after0_5_main_c_7 :
    (StableHlo.after (hostOps0_5 (F := Ideal)) W (Proc.devRef .tc main_c_7) : IVec S_ 32) = constantI S_ 32 0#32 := by
  after_results_simp

/-- The padded table: 176 rows of the converted padding value below the 50000 rows. -/
theorem after0_6_main_v38 :
    (StableHlo.after (hostOps0_6 (F := Ideal)) W (Proc.devRef .tc main_v38) : S50176x64.Idx → EReal)
      = pad S50176x64 ![0, 0] ![176, 0] ![0, 0] (W (Proc.devRef .tc main_v0) : S50000x64.Idx → EReal)
          (sitofp (F := Ideal) .f32 (W (Proc.devRef .tc main_c_7) : IVec S_ 32)) pads_S50000x64_S50176x64_01760_000 h_S_ := by
  after_results; rfl

end Stretches

/-! ## What region 0 and region 1 are handed -/

section Chain
variable (m : (ℓ : Loc nD τ sig) → Buf (Elt Ideal) ℓ) (c : Dev nD)

/-- The padding value: the integer zero converted. -/
theorem padValue_zero : sitofp (F := Ideal) .f32 (constantI S_ 32 0#32) ix0 = (0 : EReal) := by
  show (((0#32 : BitVec 32).toInt : ℝ) : EReal) = 0
  simp

/-- The padded table when region 0 is entered is the pad stretch's result from the buffers before it; nothing later writes it. -/
theorem V10_main_v38_eq : V10 m c main_v38 = StableHlo.after hostOps0_6 (V6 m c) (Proc.devRef .tc main_v38) :=
  (V10_of m c main_v38 (by decide)).trans <| (V9_of m c main_v38 (by decide)).trans (V8_of m c main_v38 (by decide))

/-- The first take's result reaches the pad stretch as the take left it. -/
theorem V6_main_v0_eq : V6 m c main_v0 = StableHlo.after hostOps0 (V0 m c) (Proc.devRef .tc main_v0) :=
  (V6_of m c main_v0 (by decide)).trans <| (V5_of m c main_v0 (by decide)).trans <| (V4_of m c main_v0 (by decide)).trans <|
    (V3_of m c main_v0 (by decide)).trans (V2_of m c main_v0 (by decide))

/-- The second take's result reaches region 0's entry as the take left it. -/
theorem V10_main_v2_eq : V10 m c main_v2 = StableHlo.after hostOps0_2 (V2 m c) (Proc.devRef .tc main_v2) :=
  (V10_of m c main_v2 (by decide)).trans <| (V9_of m c main_v2 (by decide)).trans <| (V8_of m c main_v2 (by decide)).trans <|
    (V7_of m c main_v2 (by decide)).trans <| (V6_of m c main_v2 (by decide)).trans <| (V5_of m c main_v2 (by decide)).trans
      (V4_of m c main_v2 (by decide))

/-- The table reaches the second take as launched. -/
theorem V2_main_arg4_eq : V2 m c main_arg4 = m ((c : Thread nD τ).loc main_arg4) :=
  (V2_of m c main_arg4 (by decide)).trans (V1_of m c main_arg4 (by decide))

/-- Rows 0 … 49999 of region 0's second operand are the nodes' embeddings, the 176 rows below are zero. -/
theorem V10_main_v38
    (hr : Cert.Spec.InRange (m ((c : Thread nD τ).loc main_arg0)) (m ((c : Thread nD τ).loc main_arg1)) (m ((c : Thread nD τ).loc main_arg2)))
    (k : Fin 50176) (q : Fin 64) :
    (V10 (F := Ideal) m c main_v38 : S50176x64.Idx → EReal) (ix2 k q)
      = if h : k.val < 50000 then
          Cert.Spec.hx (m ((c : Thread nD τ).loc main_arg1)) (m ((c : Thread nD τ).loc main_arg4)) (⟨k.val, h⟩ : Fin 50000) q
        else 0 := by
  rw [V10_main_v38_eq, after0_6_main_v38, padRows_apply]
  split
  · next h =>
    rw [V6_main_v0_eq, after0_main_v0]
    have hn : Cert.Spec.IsNode ((m ((c : Thread nD τ).loc main_arg1) : IVec S50000 32) (ix1 (⟨k.val, h⟩ : Fin 50000))) := hr.xidx _
    have hw := wrapCol_apply bcast_S_S50000 bcast_S50000_S50000x1_0 (m ((c : Thread nD τ).loc main_arg1) : IVec S50000 32) (⟨k.val, h⟩ : Fin 50000) hn.1
    rw [takeTail_apply _ rfl rfl rfl rfl rfl rfl rfl]
    · show (m ((c : Thread nD τ).loc main_arg4) : S50000x64.Idx → EReal) _ = _
      unfold Cert.Spec.hx
      rw [show V0 m c (Proc.devRef .tc main_arg1) = m ((c : Thread nD τ).loc main_arg1) from rfl, hw]
    · rw [show V0 m c (Proc.devRef .tc main_arg1) = m ((c : Thread nD τ).loc main_arg1) from rfl, hw]
      exact hn
  · show sitofp (F := Ideal) .f32 (StableHlo.after hostOps0_5 (V5 m c) (Proc.devRef .tc main_c_7) : IVec S_ 32) ix0 = 0
    rw [after0_5_main_c_7]
    exact padValue_zero

/-- Region 1's first operand holds each state's own embedding. -/
theorem V10_main_v2
    (hr : Cert.Spec.InRange (m ((c : Thread nD τ).loc main_arg0)) (m ((c : Thread nD τ).loc main_arg1)) (m ((c : Thread nD τ).loc main_arg2)))
    (b : Fin 256) (q : Fin 64) :
    (V10 (F := Ideal) m c main_v2 : S256x64.Idx → EReal) (ix2 b q)
      = Cert.Spec.x1 (m ((c : Thread nD τ).loc main_arg0)) (m ((c : Thread nD τ).loc main_arg4)) b q := by
  rw [V10_main_v2_eq, after0_2_main_v2]
  -- the states as a vector: the launch column reshaped
  have hv1 : (V2 m c (Proc.devRef .tc main_v1) : IVec S256 32) (ix1 b)
      = (m ((c : Thread nD τ).loc main_arg0) : IVec S256x1 32) (ix2 b (0 : Fin 1)) := by
    show (StableHlo.after hostOps0_1 (V1 m c) (Proc.devRef .tc main_v1) : IVec S256 32) (ix1 b) = _
    rw [after0_1_main_v1, colVec_apply, V1_of m c main_arg0 (by decide)]
  have hn : Cert.Spec.IsNode ((m ((c : Thread nD τ).loc main_arg0) : IVec S256x1 32) (ix2 b (0 : Fin 1))) := hr.state _
  have hw := wrapCol_apply bcast_S_S256 bcast_S256_S256x1_0 (V2 m c (Proc.devRef .tc main_v1) : IVec S256 32) b
    (by rw [hv1]; exact hn.1)
  rw [takeTail_apply _ rfl rfl rfl rfl rfl rfl rfl]
  · rw [hw, hv1, V2_main_arg4_eq]
    rfl
  · rw [hw, hv1]
    exact hn

end Chain

end Cert.KernelIdeal.HostVal

end
-- ==== Proof.LibScatterLand.lean ====
import Idealize.ShloMosaic.PureOps.Dims

/-!
  Where an update of a `stablehlo.scatter` lands.

  For any scatter dimension numbers, update index `j` lands on operand element `i` exactly when, on every
  operand axis, the start read off the scatter indices (signed, not clamped) plus the window coordinate
  equals `i`'s coordinate. An update whose start plus window coordinate leaves the operand on some axis
  lands on no element.
-/

namespace Idealize.ShloMosaic.ScatterLand

open Idealize.ShloMosaic

variable {s si u : Shape} (d : ScatterDims s si u)

/-- Update index `j` lands on operand element `i` if and only if, on every operand axis `a`, the start of
    the window plus the window coordinate is the coordinate of `i` on `a`. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hh =>
      have hi := congrFun (Option.some.inj h) a
      have hv := congrArg Fin.val hi
      have := hh a
      simp only at hv
      omega
    · cases h
  · intro h
    have hh : ∀ a, 0 ≤ d.start j idx a + d.window j a ∧ d.start j idx a + d.window j a < s.size a := by
      intro a
      have := h a
      have := (i a).isLt
      omega
    rw [dif_pos hh]
    refine congrArg some (funext fun a => Fin.ext ?_)
    have := h a
    show (d.start j idx a + d.window j a).toNat = (i a).val
    omega

/-- An update whose start plus window coordinate is outside the operand on some axis lands nowhere. -/
theorem resultIdx?_eq_none_of_outside {w : Nat} (j : u.Idx) (idx : IVec si w) (a : Fin s.rank)
    (h : d.start j idx a + (d.window j a : Int) < 0 ∨ (s.size a : Int) ≤ d.start j idx a + (d.window j a : Int)) :
    d.resultIdx? j idx = none := by
  unfold ScatterDims.resultIdx?
  rw [dif_neg]
  intro hh
  have := hh a
  omega

end Idealize.ShloMosaic.ScatterLand
-- ==== Proof.LibSumIdx.lean ====
/-
  A sum over the index set of an array of rank 1, 3 or 4 is the nested sum over its coordinates.

  The index set of a shape [n0, …, nk] is in bijection with the product of the coordinate ranges Fin n0 × … × Fin nk
  (an index is the tuple of its coordinates), so a sum over it in any commutative monoid is the iterated sum, one
  coordinate at a time, outermost axis first. The library states this for rank 2; these are the other ranks, in the same form.
-/
import Idealize.ShloMosaic.Lib.ValueIdx

open scoped BigOperators

namespace Idealize.ShloMosaic.ValueIdx

/-- A rank-1 index set is its coordinate range. -/
def idxEquiv1 {n0 : Nat} : (⟨1, ![n0]⟩ : Shape).Idx ≃ Fin n0 where
  toFun i := i 0
  invFun a := ix1 a
  left_inv i := (eq_ix1 i).symm
  right_inv _ := rfl

/-- A sum over a rank-1 index set is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Idealize.ShloMosaic.ValueIdx
-- ==== Proof.KI.HostGraph.lean ====
/-
  What the host code hands region 0 from the graph: per source node, the total normalised weight of the edges that
  leave it, padded with zeros to 50176 entries and laid as one row.

  The 850000 "edges" are the 800000 given ones (a row of source words, a row of target words, a weight each) followed
  by one self loop of weight 1 per node. The degree of a node is the total weight of the edges whose target word is the
  node; its inverse square root (0 where the degree is not positive) is taken at an edge's two end words, each read as a
  table index (a negative word wrapped by the table's length, then clamped into the table: for a node word, the word's
  own row); the product with the edge's weight is the edge's normalised weight; and those are added up per source word.
  Under the range hypothesis every word is a node number, so each step is the specification's.
-/
import proofs.«409071_j82351702934075_2_alg».proof.Proof.Gen.KernelIdeal.Regions
import proofs.«409071_j82351702934075_2_alg».proof.Proof.Spec
import proofs.«409071_j82351702934075_2_alg».proof.Proof.LibScatterLand
import proofs.«409071_j82351702934075_2_alg».proof.Proof.LibSumIdx
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value

noncomputable section

open scoped BigOperators

namespace Cert.KernelIdeal.HostVal.Graph

open Cert.KernelIdeal Cert.KernelIdeal.Gen
open Idealize.ShloMosaic Idealize.ShloMosaic.TcCoe Idealize.ShloMosaic.ValueIdx
open Idealize.ShloMosaic.StableHlo.Predicate (ixP gather_take bcast_col1 toInt_ofNat_small)

/-! ## Index spellings -/

/-- The rank-1 index at a coordinate, in its two spellings. -/
theorem ofFin_eq_ix1 {n : Nat} (p : Fin n) : Shape.Idx.ofFin p = ix1 p := by
  funext a; match a with | ⟨0, _⟩ => exact Fin.ext rfl

/-! ## A scatter-add of a vector by a column of index words -/

/-- A scatter-add of a vector of n updates into a vector of N entries, update e sent to the entry its index word
    names (read signed; no clamp, no wrap): entry i ends as what it held plus the sum of the updates whose word is i. -/
theorem scatterAdd_col_apply {N n : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ 32) (upd : (⟨1, ![n]⟩ : Shape).Idx → EReal) (i : Fin N) :
    Ideal.hostScatterAdd d x idx upd (ix1 i)
      = x (ix1 i) + ∑ e : Fin n, if (idx (ix2 e (0 : Fin 1))).toInt = (i.val : ℤ) then upd (ix1 e) else 0 := by
  classical
  unfold Ideal.hostScatterAdd
  rw [Finset.sum_filter, sum_idx1]
  congr 1
  refine Finset.sum_congr rfl fun e _ => ?_
  refine if_congr ?_ rfl rfl
  rw [ScatterLand.resultIdx?_eq_some_iff, Fin.forall_fin_one]
  obtain ⟨uw, iw, sd, iv, wf⟩ := d
  dsimp only at huw hiw hsd hiv
  subst huw hiw hsd hiv
  have hw : ScatterDims.window ⟨[], [0], [0], 1, wf⟩ (ix1 e) (0 : Fin 1) = 0 := by
    unfold ScatterDims.window
    rw [dif_neg (by simp [ScatterDims.sKept, Shape.kept])]
  have hs : ScatterDims.start ⟨[], [0], [0], 1, wf⟩ (ix1 e) idx (0 : Fin 1) = (idx (ix2 e (0 : Fin 1))).toInt := by
    unfold ScatterDims.start
    rw [dif_pos (by simp)]
    generalize hX : ScatterDims.siIdx _ (ix1 e) _ = X
    have hX' : X = ix2 e (0 : Fin 1) := by
      rw [← hX]
      funext b
      match b with
      | ⟨0, _⟩ => rfl
      | ⟨1, _⟩ => rfl
    rw [hX']
  rw [hw, hs]
  simp

/-! ## A take of a table at a column of index words -/

/-- A vector as a column reads, at row e, the vector at e. -/
theorem col_apply {α : Type} {n : Nat} (hb : (⟨1, ![n]⟩ : Shape).BroadcastsInDim ⟨2, ![n, 1]⟩ ![0])
    (w : (⟨1, ![n]⟩ : Shape).Idx → α) (e : Fin n) :
    broadcastInDim ⟨2, ![n, 1]⟩ ![0] hb w (ix2 e (0 : Fin 1)) = w (ix1 e) := by
  have h : ixP e = ix2 e (0 : Fin 1) := by
    funext a; match a with | ⟨0, _⟩ => rfl | ⟨1, _⟩ => rfl
  rw [← h]
  exact (bcast_col1 hb w e).trans (congrArg w (ofFin_eq_ix1 e))

/-- A take of a table of N entries at a column of n index words: entry e of the result is the table at word e read
    signed and clamped into the table. -/
theorem take_col_apply {α : Type} {N n : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (hb : (⟨1, ![n]⟩ : Shape).BroadcastsInDim ⟨2, ![n, 1]⟩ ![0])
    (x : (⟨1, ![N]⟩ : Shape).Idx → α) (w : IVec ⟨1, ![n]⟩ 32) (e : Fin n) (hN : 0 < N) :
    Host.gather d x (broadcastInDim ⟨2, ![n, 1]⟩ ![0] hb w) (ix1 e)
      = x (ix1 ⟨min (w (ix1 e)).toInt.toNat (N - 1), by omega⟩) := by
  have h1 := gather_take d hcoll hob hsim hivd x (broadcastInDim ⟨2, ![n, 1]⟩ ![0] hb w) e hN
  have hidx : broadcastInDim ⟨2, ![n, 1]⟩ ![0] hb w (ixP e) = w (ix1 e) :=
    (bcast_col1 hb w e).trans (congrArg w (ofFin_eq_ix1 e))
  simp only [hidx, ofFin_eq_ix1] at h1
  exact h1

/-- The index wrap (a negative word has the table's length added) leaves a word that is not negative as it is. -/
theorem wrap_of_nonneg {n : Nat} (w z k : IVec ⟨1, ![n]⟩ 32) (e : Fin n) (hz : z (ix1 e) = 0#32)
    (h : 0 ≤ (w (ix1 e)).toInt) :
    select (cmpi .slt w z) (addi w k) w (ix1 e) = w (ix1 e) := by
  rw [select_apply]
  have : cmpi .slt w z (ix1 e) = 0#1 := by
    show IntOp.cmpi .slt (w (ix1 e)) (z (ix1 e)) = 0#1
    rw [hz]
    have h0 : ¬ (w (ix1 e)).toInt < 0 := by omega
    simp [IntOp.cmpi, BitVec.slt, h0]
  rw [this, select_zero]

/-- A word clamped into a table of 50000 rows is the row the specification gives it. -/
theorem rowOf_eq (w : BitVec 32) : (⟨min w.toInt.toNat (50000 - 1), by omega⟩ : Fin 50000) = Cert.Spec.rowOf w :=
  Fin.ext rfl

/-- A number below 50000, as a word, is a node number. -/
theorem isNode_of_lt (k : Nat) (hk : k < 50000) : Cert.Spec.IsNode (BitVec.ofNat 32 k) := by
  unfold Cert.Spec.IsNode
  rw [toInt_ofNat_small k (by omega)]
  omega

/-! ## The edge rows and the weights, with the self loops behind -/

/-- Row r of the edge list laid end to end with the node numbers 0 … 49999, read at edge e: the row's word for a given
    edge, the node's own number for a self loop. -/
theorem edgeRow_apply (ei : IVec ⟨2, ![2, 800000]⟩ 32) (r : Fin 2)
    (hs : (⟨2, ![2, 800000]⟩ : Shape).Slices ![r.val, 0] ⟨2, ![1, 800000]⟩)
    (hc : (⟨2, ![1, 800000]⟩ : Shape).ShapeCasts ⟨1, ![800000]⟩)
    (hk : Shape.Concatenates [(⟨1, ![800000]⟩ : Shape), ⟨1, ![50000]⟩] ⟨1, ![850000]⟩ 0) (e : Fin 850000) :
    concatenate (α := BitVec 32) ⟨1, ![850000]⟩ 0
        [⟨⟨1, ![800000]⟩, shapeCast ⟨1, ![800000]⟩ (extractStridedSlice ⟨2, ![1, 800000]⟩ ![r.val, 0] ei hs) hc⟩,
          ⟨⟨1, ![50000]⟩, iotaInDim ⟨1, ![50000]⟩ 32 0⟩] hk (ix1 e)
      = if h : e.val < 800000 then ei (ix2 r (⟨e.val, h⟩ : Fin 800000)) else BitVec.ofNat 32 (e.val - 800000) := by
  split
  · next h =>
    rw [concatenate_pair_apply_left 0 _ _ hk (ix1 e) rfl (ix1 (⟨e.val, h⟩ : Fin 800000))
      (fun b => by match b with | ⟨0, _⟩ => rfl)]
    rw [shapeCast_1a_a_apply, slice2_axis0_apply r.val ei hs (0 : Fin 1) ⟨e.val, h⟩ r (by simp)]
  · next h =>
    rw [concatenate_pair_apply_right 0 _ _ hk (ix1 e) rfl rfl (ix1 (⟨e.val - 800000, by omega⟩ : Fin 50000))
      (fun b hb => absurd (Subsingleton.elim _ _) hb) (by show e.val - 800000 + 800000 = e.val; omega)]
    rfl

/-- The edge weights followed by a one per self loop, read at edge e. -/
theorem weights_apply (ew : (⟨1, ![800000]⟩ : Shape).Idx → EReal)
    (hb : (⟨0, ![]⟩ : Shape).BroadcastsInDim ⟨1, ![50000]⟩ ![])
    (hk : Shape.Concatenates [(⟨1, ![800000]⟩ : Shape), ⟨1, ![50000]⟩] ⟨1, ![850000]⟩ 0) (e : Fin 850000) :
    concatenate (α := EReal) ⟨1, ![850000]⟩ 0
        [⟨⟨1, ![800000]⟩, ew⟩,
          ⟨⟨1, ![50000]⟩, broadcastInDim ⟨1, ![50000]⟩ ![] hb (constant (F := Ideal) ⟨0, ![]⟩ .f32 0x3F800000#32)⟩] hk (ix1 e)
      = Cert.Spec.wt ew e := by
  unfold Cert.Spec.wt
  split
  · next h =>
    rw [concatenate_pair_apply_left 0 _ _ hk (ix1 e) rfl (ix1 (⟨e.val, h⟩ : Fin 800000))
      (fun b => by match b with | ⟨0, _⟩ => rfl)]
  · next h =>
    rw [concatenate_pair_apply_right 0 _ _ hk (ix1 e) rfl rfl (ix1 (⟨e.val - 800000, by omega⟩ : Fin 50000))
      (fun b hb => absurd (Subsingleton.elim _ _) hb) (by show e.val - 800000 + 800000 = e.val; omega)]
    rw [broadcastInDim_scalar_apply, constant_apply, Ideal.ofBits_one_f32]

/-- The same at the host operation: entry i of a scatter-add of n updates into N entries. -/
theorem host_scatterAdd_col_apply {N n : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![n, 1]⟩ 32) (upd : FVec Ideal ⟨1, ![n]⟩ .f32) (i : Fin N) :
    Host.scatterAdd (F := Ideal) d x idx upd (ix1 i)
      = x (ix1 i) + ∑ e : Fin n, if (idx (ix2 e (0 : Fin 1))).toInt = (i.val : ℤ) then upd (ix1 e) else 0 :=
  scatterAdd_col_apply d huw hiw hsd hiv x idx upd i

/-- The host's inverse square root at an index is the instance's at the element. -/
theorem hostRsqrt_apply {s : Shape} (x : FVec Ideal s .f32) (i : s.Idx) :
    Host.rsqrt x i = FloatOps.hostUnary (F := Ideal) (φ := .f32) .rsqrt (x i) := rfl

/-- The select of the inverse square root of d on the bit of "d is greater than 0". -/
theorem select_rsqrt_pos (d : EReal) :
    Scalar.select (FloatOps.cmpf (F := Ideal) (φ := .f32) .ogt d (0 : EReal))
        (FloatOps.hostUnary (F := Ideal) (φ := .f32) .rsqrt d) (0 : EReal)
      = if 0 < d then Ideal.rsqrt d else 0 := by
  show Scalar.select (Ideal.cmp .ogt d 0) (Ideal.rsqrt d) 0 = _
  by_cases h : 0 < d
  · rw [if_pos h]
    have : Ideal.cmp .ogt d 0 = 1#1 := by simp [Ideal.cmp, h]
    rw [this, select_one]
  · rw [if_neg h]
    have : Ideal.cmp .ogt d 0 = 0#1 := by simp [Ideal.cmp, h]
    rw [this, select_zero]

/-! ## The host stretches' results as functions of the buffers they read -/

section Pure
variable {F : FTy → Type} [FloatOps F]

/-- Row 0 of the edge list, then the node numbers: the 850000 source words. -/
def srcA (ei : IVec S2x800000 32) : IVec S850000 32 :=
  concatenate S850000 0
    [⟨S800000, shapeCast S800000 (extractStridedSlice S1x800000 ![0, 0] ei Gen.slices_S2x800000_S1x800000_0_0) Gen.shapeCasts_S1x800000_S800000⟩,
      ⟨S50000, iotaInDim S50000 32 0⟩] Gen.concatenates_S800000_S50000_S850000_d0

/-- Row 1 of the edge list, then the node numbers: the 850000 target words. -/
def dstA (ei : IVec S2x800000 32) : IVec S850000 32 :=
  concatenate S850000 0
    [⟨S800000, shapeCast S800000 (extractStridedSlice S1x800000 ![1, 0] ei Gen.slices_S2x800000_S1x800000_1_0) Gen.shapeCasts_S1x800000_S800000⟩,
      ⟨S50000, iotaInDim S50000 32 0⟩] Gen.concatenates_S800000_S50000_S850000_d0

/-- The edge weights, then a one per self loop. -/
def wtA (ew : FVec F S800000 .f32) : FVec F S850000 .f32 :=
  concatenate S850000 0
    [⟨S800000, ew⟩, ⟨S50000, broadcastInDim S50000 ![] Gen.bcast_S_S50000 (constant (F := F) S_ .f32 0x3F800000#32)⟩]
    Gen.concatenates_S800000_S50000_S850000_d0

/-- A zero per node. -/
def zerosA : FVec F S50000 .f32 := broadcastInDim S50000 ![] Gen.bcast_S_S50000 (constant (F := F) S_ .f32 0x00000000#32)

/-- A vector of 850000 words as a column of start indices. -/
def colA (w : IVec S850000 32) : IVec S850000x1 32 := broadcastInDim S850000x1 ![0] Gen.bcast_S850000_S850000x1_0 w

/-- Per node, the total of the weights of the edges whose target word is the node. -/
def degA (ei : IVec S2x800000 32) (ew : FVec F S800000 .f32) : FVec F S50000 .f32 :=
  Host.scatterAdd scatter_S50000_S850000x1_S850000_n_0_0_1 (zerosA (F := F)) (colA (dstA ei)) (wtA ew)

/-- Per node, the inverse square root of a positive degree, 0 otherwise. -/
def dinvA (ei : IVec S2x800000 32) (ew : FVec F S800000 .f32) : FVec F S50000 .f32 :=
  select (cmpf .ogt (degA ei ew) (zerosA (F := F))) (Host.rsqrt (degA ei ew)) (zerosA (F := F))

/-- The index wrap: a negative word has 50000 added. -/
def wrapA (w : IVec S850000 32) : IVec S850000 32 :=
  select (cmpi .slt w (broadcastInDim S850000 ![] Gen.bcast_S_S850000 (constantI S_ 32 0#32)))
    (addi w (broadcastInDim S850000 ![] Gen.bcast_S_S850000 (constantI S_ 32 50000#32))) w

/-- Per edge, the weight times the table's entries at the (wrapped, clamped) source and target words. -/
def normA (dinv : FVec F S50000 .f32) (src dst : IVec S850000 32) (wt : FVec F S850000 .f32) : FVec F S850000 .f32 :=
  mulf (mulf (Host.gather gather_S50000_S850000x1_S850000_n_0_n_n_0_1_1 dinv (colA (wrapA src))) wt)
    (Host.gather gather_S50000_S850000x1_S850000_n_0_n_n_0_1_1 dinv (colA (wrapA dst)))

/-- Per node, the total of those products over the edges whose source word is the node. -/
def cvecA (dinv : FVec F S50000 .f32) (src dst : IVec S850000 32) (wt : FVec F S850000 .f32) : FVec F S50000 .f32 :=
  Host.scatterAdd scatter_S50000_S850000x1_S850000_n_0_0_1 (zerosA (F := F)) (colA src) (normA dinv src dst wt)

end Pure

section Stretches
variable {F : FTy → Type} [FloatOps F] [Named F] (W : Valuation τ sig (Elt F))

theorem after3_v8 : (StableHlo.after (hostOps0_3 (F := F)) W (Proc.devRef .tc main_v8) : IVec S850000 32)
    = srcA (W (Proc.devRef .tc main_arg2) : IVec S2x800000 32) := by
  after_results; rfl

theorem after3_v9 : (StableHlo.after (hostOps0_3 (F := F)) W (Proc.devRef .tc main_v9) : IVec S850000 32)
    = dstA (W (Proc.devRef .tc main_arg2) : IVec S2x800000 32) := by
  after_results; rfl

theorem after3_v11 : (StableHlo.after (hostOps0_3 (F := F)) W (Proc.devRef .tc main_v11) : FVec F S850000 .f32)
    = wtA (W (Proc.devRef .tc main_arg3) : FVec F S800000 .f32) := by
  after_results; rfl

theorem after3_v16 : (StableHlo.after (hostOps0_3 (F := F)) W (Proc.devRef .tc main_v16) : IVec S50000 1)
    = cmpf .ogt (degA (W (Proc.devRef .tc main_arg2) : IVec S2x800000 32) (W (Proc.devRef .tc main_arg3) : FVec F S800000 .f32))
        (zerosA (F := F)) := by
  after_results_simp; rfl

theorem after3_v17 : (StableHlo.after (hostOps0_3 (F := F)) W (Proc.devRef .tc main_v17) : FVec F S50000 .f32)
    = Host.rsqrt (degA (W (Proc.devRef .tc main_arg2) : IVec S2x800000 32) (W (Proc.devRef .tc main_arg3) : FVec F S800000 .f32)) := by
  after_results_simp; rfl

theorem after3_cst_2 : (StableHlo.after (hostOps0_3 (F := F)) W (Proc.devRef .tc main_cst_2) : FVec F S_ .f32)
    = constant (F := F) S_ .f32 0x00000000#32 := by
  after_results_simp

theorem after4_v18 : (StableHlo.after (hostOps0_4 (F := F)) W (Proc.devRef .tc main_v18) : FVec F S50000 .f32)
    = select (W (Proc.devRef .tc main_v16) : IVec S50000 1) (W (Proc.devRef .tc main_v17) : FVec F S50000 .f32)
        (broadcastInDim S50000 ![] Gen.bcast_S_S50000 (W (Proc.devRef .tc main_cst_2) : FVec F S_ .f32)) := by
  after_results_simp; rfl

theorem after5_v37 : (StableHlo.after (hostOps0_5 (F := F)) W (Proc.devRef .tc main_v37) : FVec F S50000 .f32)
    = cvecA (W (Proc.devRef .tc main_v18) : FVec F S50000 .f32) (W (Proc.devRef .tc main_v8) : IVec S850000 32)
        (W (Proc.devRef .tc main_v9) : IVec S850000 32) (W (Proc.devRef .tc main_v11) : FVec F S850000 .f32) := by
  after_results_simp
  rfl

theorem after7_c_8 : (StableHlo.after (hostOps0_7 (F := F)) W (Proc.devRef .tc main_c_8) : IVec S_ 32)
    = constantI S_ 32 0#32 := by
  after_results_simp

end Stretches

section Stretches2
variable {F : FTy → Type} [FloatOps F] [Named F] (W : Valuation τ sig (Elt F))

theorem after8_v39 : (StableHlo.after (hostOps0_8 (F := F)) W (Proc.devRef .tc main_v39) : FVec F S50176 .f32)
    = pad S50176 ![0] ![176] ![0] (W (Proc.devRef .tc main_v37) : FVec F S50000 .f32)
        (sitofp (F := F) .f32 (W (Proc.devRef .tc main_c_8) : IVec S_ 32)) Gen.pads_S50000_S50176_01760 Gen.h_S_ := by
  after_results_simp; rfl

theorem after9_v40 : (StableHlo.after (hostOps0_9 (F := F)) W (Proc.devRef .tc main_v40) : FVec F S1x50176 .f32)
    = shapeCast S1x50176 (W (Proc.devRef .tc main_v39) : FVec F S50176 .f32) Gen.shapeCasts_S50176_S1x50176 := by
  after_results_simp; rfl

end Stretches2

/-! ## Those functions at one entry, in the specification's terms -/

section Values
variable (ei : IVec S2x800000 32) (ew : FVec Ideal S800000 .f32)

theorem srcA_apply (e : Fin 850000) : srcA ei (ix1 e) = Cert.Spec.srcW ei e :=
  edgeRow_apply ei 0 _ _ _ e

theorem dstA_apply (e : Fin 850000) : dstA ei (ix1 e) = Cert.Spec.dstW ei e :=
  edgeRow_apply ei 1 _ _ _ e

theorem wtA_apply (e : Fin 850000) : wtA (F := Ideal) ew (ix1 e) = Cert.Spec.wt ew e :=
  weights_apply ew _ _ e

theorem zerosA_apply (i : S50000.Idx) : zerosA (F := Ideal) i = 0 := by
  unfold zerosA
  rw [broadcastInDim_scalar_apply, constant_apply, Ideal.ofBits_zero_f32]

theorem colA_apply (w : IVec S850000 32) (e : Fin 850000) : colA w (ix2 e (0 : Fin 1)) = w (ix1 e) :=
  col_apply _ w e

/-- The scatter-add of the weights at the target words is the degree. -/
theorem degA_apply (n : Fin 50000) : degA (F := Ideal) ei ew (ix1 n) = Cert.Spec.deg ei ew n := by
  unfold degA Cert.Spec.deg
  rw [host_scatterAdd_col_apply scatter_S50000_S850000x1_S850000_n_0_0_1 rfl rfl rfl rfl, zerosA_apply, zero_add]
  refine Finset.sum_congr rfl fun e _ => ?_
  rw [colA_apply, dstA_apply, wtA_apply]

/-- The select of the inverse square root on "the degree is positive" is the specification's. -/
theorem dinvA_apply (n : Fin 50000) : dinvA (F := Ideal) ei ew (ix1 n) = Cert.Spec.dinv ei ew n := by
  unfold dinvA Cert.Spec.dinv
  rw [select_apply, cmpf_apply, hostRsqrt_apply, zerosA_apply, degA_apply]
  exact select_rsqrt_pos _

/-- The table taken at a node word (wrapped, then clamped) is the table at the word's row. -/
theorem take_wrap_apply (t : FVec Ideal S50000 .f32) (w : IVec S850000 32) (e : Fin 850000)
    (h : Cert.Spec.IsNode (w (ix1 e))) :
    Host.gather gather_S50000_S850000x1_S850000_n_0_n_n_0_1_1 t (colA (wrapA w)) (ix1 e)
      = t (ix1 (Cert.Spec.rowOf (w (ix1 e)))) := by
  unfold colA
  rw [take_col_apply gather_S50000_S850000x1_S850000_n_0_n_n_0_1_1 rfl rfl rfl rfl _ t (wrapA w) e (by norm_num)]
  have hw : wrapA w (ix1 e) = w (ix1 e) := by
    unfold wrapA
    exact wrap_of_nonneg w _ _ e (by rw [broadcastInDim_scalar_apply]; rfl) h.1
  simp only [hw]
  exact congrArg t (congrArg ix1 (rowOf_eq _))

/-- An edge's product, both its end words node numbers. -/
theorem normA_apply (t : FVec Ideal S50000 .f32) (src dst : IVec S850000 32) (wt : FVec Ideal S850000 .f32) (e : Fin 850000)
    (hs : Cert.Spec.IsNode (src (ix1 e))) (hd : Cert.Spec.IsNode (dst (ix1 e))) :
    normA t src dst wt (ix1 e)
      = t (ix1 (Cert.Spec.rowOf (src (ix1 e)))) * wt (ix1 e) * t (ix1 (Cert.Spec.rowOf (dst (ix1 e)))) := by
  unfold normA
  rw [mulf_apply, mulf_apply, take_wrap_apply t src e hs, take_wrap_apply t dst e hd]

/-- The scatter-add of the edges' products at the source words. -/
theorem cvecA_apply (t : FVec Ideal S50000 .f32) (src dst : IVec S850000 32) (wt : FVec Ideal S850000 .f32) (n : Fin 50000) :
    cvecA t src dst wt (ix1 n)
      = ∑ e : Fin 850000, if (src (ix1 e)).toInt = (n.val : ℤ) then normA t src dst wt (ix1 e) else 0 := by
  unfold cvecA
  rw [host_scatterAdd_col_apply scatter_S50000_S850000x1_S850000_n_0_0_1 rfl rfl rfl rfl, zerosA_apply, zero_add]
  refine Finset.sum_congr rfl fun e _ => ?_
  rw [colA_apply]

/-- Every source word is a node number: a given edge's by the range hypothesis, a self loop's because it is below 50000. -/
theorem isNode_srcW (hei : ∀ i, Cert.Spec.IsNode (ei i)) (e : Fin 850000) : Cert.Spec.IsNode (Cert.Spec.srcW ei e) := by
  unfold Cert.Spec.srcW
  split
  · exact hei _
  · exact isNode_of_lt _ (by omega)

/-- Every target word is a node number, likewise. -/
theorem isNode_dstW (hei : ∀ i, Cert.Spec.IsNode (ei i)) (e : Fin 850000) : Cert.Spec.IsNode (Cert.Spec.dstW ei e) := by
  unfold Cert.Spec.dstW
  split
  · exact hei _
  · exact isNode_of_lt _ (by omega)

/-- THE GRAPH VECTOR: with every edge word a node number, the host's vector is the specification's, node by node. -/
theorem cvecA_eq (hei : ∀ i, Cert.Spec.IsNode (ei i)) (n : Fin 50000) :
    cvecA (dinvA (F := Ideal) ei ew) (srcA ei) (dstA ei) (wtA (F := Ideal) ew) (ix1 n) = Cert.Spec.cvec ei ew n := by
  rw [cvecA_apply]
  unfold Cert.Spec.cvec Cert.Spec.norm
  refine Finset.sum_congr rfl fun e _ => ?_
  rw [normA_apply _ _ _ _ e (by rw [srcA_apply]; exact isNode_srcW ei hei e) (by rw [dstA_apply]; exact isNode_dstW ei hei e)]
  rw [srcA_apply, dstA_apply, wtA_apply, dinvA_apply, dinvA_apply]

end Values

/-! ## Down the fold: what region 0 is entered from -/

section Chain
variable (m : (ℓ : Loc nD τ sig) → Buf (Elt Ideal) ℓ) (c : Dev nD)

/-- The edge list as launched. -/
abbrev eiOf : IVec S2x800000 32 := m ((c : Thread nD τ).loc main_arg2)
/-- The edge weights as launched. -/
abbrev ewOf : FVec Ideal S800000 .f32 := m ((c : Thread nD τ).loc main_arg3)

/-- No stretch before the graph's writes the edge list. -/
theorem V3_arg2 : (V3 (F := Ideal) m c main_arg2 : IVec S2x800000 32) = eiOf m c :=
  (V3_of m c main_arg2 (by decide)).trans <| (V2_of m c main_arg2 (by decide)).trans <| (V1_of m c main_arg2 (by decide)).trans rfl

/-- Nor the edge weights. -/
theorem V3_arg3 : (V3 (F := Ideal) m c main_arg3 : FVec Ideal S800000 .f32) = ewOf m c :=
  (V3_of m c main_arg3 (by decide)).trans <| (V2_of m c main_arg3 (by decide)).trans <| (V1_of m c main_arg3 (by decide)).trans rfl

theorem V4_v8 : (V4 (F := Ideal) m c main_v8 : IVec S850000 32) = srcA (eiOf m c) :=
  (after3_v8 (V3 m c)).trans (congrArg srcA (V3_arg2 m c))

theorem V4_v9 : (V4 (F := Ideal) m c main_v9 : IVec S850000 32) = dstA (eiOf m c) :=
  (after3_v9 (V3 m c)).trans (congrArg dstA (V3_arg2 m c))

theorem V4_v11 : (V4 (F := Ideal) m c main_v11 : FVec Ideal S850000 .f32) = wtA (ewOf m c) :=
  (after3_v11 (V3 m c)).trans (congrArg wtA (V3_arg3 m c))

theorem V4_v16 : (V4 (F := Ideal) m c main_v16 : IVec S50000 1)
    = cmpf .ogt (degA (F := Ideal) (eiOf m c) (ewOf m c)) (zerosA (F := Ideal)) :=
  (after3_v16 (V3 m c)).trans
    (congrArg₂ (fun a b => cmpf .ogt (degA (F := Ideal) a b) (zerosA (F := Ideal))) (V3_arg2 m c) (V3_arg3 m c))

theorem V4_v17 : (V4 (F := Ideal) m c main_v17 : FVec Ideal S50000 .f32)
    = Host.rsqrt (degA (F := Ideal) (eiOf m c) (ewOf m c)) :=
  (after3_v17 (V3 m c)).trans
    (congrArg₂ (fun a b => Host.rsqrt (degA (F := Ideal) a b)) (V3_arg2 m c) (V3_arg3 m c))

theorem V4_cst_2 : (V4 (F := Ideal) m c main_cst_2 : FVec Ideal S_ .f32) = constant (F := Ideal) S_ .f32 0x00000000#32 :=
  after3_cst_2 (V3 m c)

/-- The inverse square roots of the degrees. -/
theorem V5_v18 : (V5 (F := Ideal) m c main_v18 : FVec Ideal S50000 .f32) = dinvA (eiOf m c) (ewOf m c) := by
  refine (after4_v18 (V4 m c)).trans ?_
  rw [V4_v16, V4_v17, V4_cst_2]
  rfl

theorem V5_v8 : (V5 (F := Ideal) m c main_v8 : IVec S850000 32) = srcA (eiOf m c) :=
  (V5_of m c main_v8 (by decide)).trans (V4_v8 m c)

theorem V5_v9 : (V5 (F := Ideal) m c main_v9 : IVec S850000 32) = dstA (eiOf m c) :=
  (V5_of m c main_v9 (by decide)).trans (V4_v9 m c)

theorem V5_v11 : (V5 (F := Ideal) m c main_v11 : FVec Ideal S850000 .f32) = wtA (ewOf m c) :=
  (V5_of m c main_v11 (by decide)).trans (V4_v11 m c)

/-- The graph vector, as the named function of the launch contents. -/
theorem V6_v37 : (V6 (F := Ideal) m c main_v37 : FVec Ideal S50000 .f32)
    = cvecA (dinvA (F := Ideal) (eiOf m c) (ewOf m c)) (srcA (eiOf m c)) (dstA (eiOf m c)) (wtA (F := Ideal) (ewOf m c)) := by
  refine (after5_v37 (V5 m c)).trans ?_
  rw [V5_v18, V5_v8, V5_v9, V5_v11]

theorem V8_v37 : (V8 (F := Ideal) m c main_v37 : FVec Ideal S50000 .f32)
    = cvecA (dinvA (F := Ideal) (eiOf m c) (ewOf m c)) (srcA (eiOf m c)) (dstA (eiOf m c)) (wtA (F := Ideal) (ewOf m c)) :=
  (V8_of m c main_v37 (by decide)).trans <| (V7_of m c main_v37 (by decide)).trans (V6_v37 m c)

theorem V8_c_8 : (V8 (F := Ideal) m c main_c_8 : IVec S_ 32) = constantI S_ 32 0#32 :=
  after7_c_8 (V7 m c)

/-- The graph vector padded with 176 entries of the converted zero word. -/
theorem V9_v39 : (V9 (F := Ideal) m c main_v39 : FVec Ideal S50176 .f32)
    = pad S50176 ![0] ![176] ![0]
        (cvecA (dinvA (F := Ideal) (eiOf m c) (ewOf m c)) (srcA (eiOf m c)) (dstA (eiOf m c)) (wtA (F := Ideal) (ewOf m c)))
        (sitofp (F := Ideal) .f32 (constantI S_ 32 0#32)) Gen.pads_S50000_S50176_01760 Gen.h_S_ := by
  refine (after8_v39 (V8 m c)).trans ?_
  rw [V8_v37, V8_c_8]

/-- A vector of 50000 entries padded behind with 176 copies of a value, read at an entry. -/
theorem pad_tail_apply (x : FVec Ideal S50000 .f32) (v : FVec Ideal S_ .f32) (k : Fin 50176) :
    pad S50176 ![0] ![176] ![0] x v Gen.pads_S50000_S50176_01760 Gen.h_S_ (ix1 k)
      = if h : k.val < 50000 then x (ix1 (⟨k.val, h⟩ : Fin 50000)) else v ix0 := by
  split
  · next h =>
    exact pad_apply_of_inside _ _ _ x v _ _ (ix1 k) (ix1 (⟨k.val, h⟩ : Fin 50000))
      (fun a => by match a with | ⟨0, _⟩ => (show k.val = 0 + k.val * (0 + 1); omega))
  · next h =>
    rw [pad_apply_of_not_inside _ _ _ x v _ _ (ix1 k) (0 : Fin 1)
      (by show ¬(0 ≤ k.val ∧ (k.val - 0) % (0 + 1) = 0 ∧ (k.val - 0) / (0 + 1) < 50000); omega)]
    exact congrArg v (eq_ix0 _)

end Chain

end Cert.KernelIdeal.HostVal.Graph

namespace Cert.KernelIdeal.HostVal

open Cert.KernelIdeal Cert.KernelIdeal.Gen
open Idealize.ShloMosaic Idealize.ShloMosaic.TcCoe Idealize.ShloMosaic.ValueIdx
open Cert.KernelIdeal.HostVal.Graph

/-- WHAT REGION 0 IS ENTERED FROM, its first operand: the row whose first 50000 entries are the specification's graph
    vector and whose last 176 are zero. -/
theorem V10_main_v40 (m : (ℓ : Loc nD τ sig) → Buf (Elt Ideal) ℓ) (c : Dev nD)
    (hr : Cert.Spec.InRange (m ((c : Thread nD τ).loc main_arg0)) (m ((c : Thread nD τ).loc main_arg1))
      (m ((c : Thread nD τ).loc main_arg2))) (k : Fin 50176) :
    (Gen.V10 (F := Ideal) m c main_v40 : S1x50176.Idx → EReal) (ix2 (0 : Fin 1) k)
      = if h : k.val < 50000 then
          Cert.Spec.cvec (m ((c : Thread nD τ).loc main_arg2)) (m ((c : Thread nD τ).loc main_arg3)) ⟨k.val, h⟩
        else 0 := by
  have h10 : (Gen.V10 (F := Ideal) m c main_v40 : FVec Ideal S1x50176 .f32)
      = shapeCast S1x50176 (V9 (F := Ideal) m c main_v39 : FVec Ideal S50176 .f32) Gen.shapeCasts_S50176_S1x50176 :=
    after9_v40 (V9 m c)
  rw [h10, V9_v39, shapeCast_a_1a_apply, pad_tail_apply]
  split
  · next h => exact cvecA_eq (eiOf m c) (ewOf m c) hr.ei ⟨k.val, h⟩
  · next h =>
    show (((0#32 : BitVec 32).toInt : ℝ) : EReal) = 0
    simp

end Cert.KernelIdeal.HostVal

end
-- ==== Proof.KI.KValue.lean ====
/-
  The value of the kernel program: what its result array holds at the end.

  The second region stores one value, the three-layer perceptron with its two heads, computed from fourteen arrays:
  the states' own embeddings, the first region's output row, the graph projection and its bias row, and the
  perceptron's weights and bias rows.  The bias rows are the bias vectors read as one-row matrices; the weights are the
  arguments themselves; the states' embeddings are the specification's.  The first region's output row is the dot
  product, over 50176 rows, of the per-source weight totals with the embeddings, both padded with zeros beyond the
  50000 nodes, hence the specification's contraction over the nodes.  So the stored value is the specification's
  perceptron at the states' embeddings and the kernel's pooled graph feature.
-/
import proofs.«409071_j82351702934075_2_alg».proof.Proof.KI.RegsDefs
import proofs.«409071_j82351702934075_2_alg».proof.Proof.KI.R0Value
import proofs.«409071_j82351702934075_2_alg».proof.Proof.KI.R1Value
import proofs.«409071_j82351702934075_2_alg».proof.Proof.KI.PayHead
import proofs.«409071_j82351702934075_2_alg».proof.Proof.KI.HostEmb
import proofs.«409071_j82351702934075_2_alg».proof.Proof.KI.HostGraph
import proofs.«409071_j82351702934075_2_alg».proof.Proof.Spec
import Idealize.ShloMosaic.Lib.ValueIdx
import Mathlib.Algebra.BigOperators.Fin
import Mathlib.Algebra.BigOperators.Group.Finset.Basic

set_option maxRecDepth 16384

noncomputable section

namespace Cert.KernelIdeal.Hand

open Idealize.ShloMosaic Idealize.ShloMosaic.TcCoe
open Cert.KernelIdeal Cert.KernelIdeal.Gen Idealize.ShloMosaic.ValueIdx
open scoped BigOperators

/-! ### Two facts about sums and one about the specification -/

/-- A sum over a longer range of a function that is `f` below `a` and zero from `a` on is the sum of `f`. -/
theorem sum_dite_lt {M : Type*} [AddCommMonoid M] {a b : ℕ} (hab : a ≤ b) (f : Fin a → M) :
    ∑ k : Fin b, (if h : k.val < a then f ⟨k.val, h⟩ else 0) = ∑ n : Fin a, f n := by
  obtain ⟨d, rfl⟩ := Nat.exists_eq_add_of_le hab
  rw [Fin.sum_univ_add]
  have h1 : ∀ i : Fin a, (if h : (Fin.castAdd d i).val < a then f ⟨(Fin.castAdd d i).val, h⟩ else 0) = f i := by
    intro i
    rw [dif_pos (by simp)]
    rfl
  have h2 : ∀ i : Fin d, (if h : (Fin.natAdd a i).val < a then f ⟨(Fin.natAdd a i).val, h⟩ else 0) = 0 := by
    intro i
    rw [dif_neg (by simp)]
  simp only [h1, h2, Finset.sum_const_zero, add_zero]

/-- The dot product of two vectors padded with zeros is the dot product of the unpadded vectors. -/
theorem padded_dot {a b : ℕ} (hab : a ≤ b) (u v : Fin b → EReal) (f g : Fin a → EReal)
    (hu : ∀ k : Fin b, u k = if h : k.val < a then f ⟨k.val, h⟩ else 0)
    (hv : ∀ k : Fin b, v k = if h : k.val < a then g ⟨k.val, h⟩ else 0) :
    ∑ k : Fin b, u k * v k = ∑ n : Fin a, f n * g n := by
  rw [← sum_dite_lt hab fun n => f n * g n]
  refine Finset.sum_congr rfl fun k _ => ?_
  rw [hu k, hv k]
  by_cases h : k.val < a
  · rw [dif_pos h, dif_pos h, dif_pos h]
  · rw [dif_neg h, dif_neg h, dif_neg h, mul_zero]

/-- The specification's perceptron at equal arguments. -/
theorem mlp_congr {W1 W1' : Cert.Spec.Arr ⟨2, ![192, 128]⟩} {b1 b1' : Cert.Spec.Arr ⟨1, ![128]⟩}
    {W2 W2' : Cert.Spec.Arr ⟨2, ![128, 128]⟩} {b2 b2' : Cert.Spec.Arr ⟨1, ![128]⟩}
    {W3 W3' : Cert.Spec.Arr ⟨2, ![128, 128]⟩} {b3 b3' : Cert.Spec.Arr ⟨1, ![128]⟩}
    {Wv Wv' : Cert.Spec.Arr ⟨2, ![128, 1]⟩} {bv bv' : Cert.Spec.Arr ⟨1, ![1]⟩}
    {Wa Wa' : Cert.Spec.Arr ⟨2, ![128, 8]⟩} {ba ba' : Cert.Spec.Arr ⟨1, ![8]⟩}
    {x1 x1' : Fin 256 → Fin 64 → EReal} {x2 x2' : Fin 128 → EReal}
    (e1 : W1 = W1') (e2 : b1 = b1') (e3 : W2 = W2') (e4 : b2 = b2') (e5 : W3 = W3') (e6 : b3 = b3')
    (e7 : Wv = Wv') (e8 : bv = bv') (e9 : Wa = Wa') (e10 : ba = ba') (e11 : x1 = x1') (e12 : x2 = x2') :
    Cert.Spec.mlp W1 b1 W2 b2 W3 b3 Wv bv Wa ba x1 x2 = Cert.Spec.mlp W1' b1' W2' b2' W3' b3' Wv' bv' Wa' ba' x1' x2' := by
  rw [e1, e2, e3, e4, e5, e6, e7, e8, e9, e10, e11, e12]

/-- The pooled graph feature from a contracted vector, a projection and a bias row equal to the specification's. -/
theorem x2_congr (cx : (⟨2, ![1, 64]⟩ : Shape).Idx → EReal) (Wg Wg' : Cert.Spec.Arr ⟨2, ![64, 128]⟩)
    (bgr : (⟨2, ![1, 128]⟩ : Shape).Idx → EReal) (bg : Cert.Spec.Arr ⟨1, ![128]⟩) (ch : Fin 64 → EReal)
    (hcx : ∀ q : Fin 64, cx (ix2 (0 : Fin 1) q) = ch q) (hWg : Wg = Wg')
    (hbg : ∀ j : Fin 128, bgr (ix2 (0 : Fin 1) j) = bg (ix1 j)) :
    (fun j : Fin 128 => (∑ q : Fin 64, cx (ix2 (0 : Fin 1) q) * Wg (ix2 q j)) * ((1 / 50000 : ℝ) : EReal)
        + bgr (ix2 (0 : Fin 1) j))
      = fun j : Fin 128 => (∑ q : Fin 64, ch q * Wg' (ix2 q j)) * ((1 / 50000 : ℝ) : EReal) + bg (ix1 j) := by
  subst hWg
  funext j
  simp only [hcx, hbg]

/-! ### The join -/

section Join

variable (m : (ℓ : Loc nD τ sig) → Buf (Elt Ideal) ℓ) (c : Dev nD)

/-- The first region's output row, as the second region finds it, is the per-source totals contracted with the
    embeddings: the padded rows beyond the 50000 nodes are zero in both factors. -/
theorem cx_eq (hr : Cert.Spec.InRange (m ((c.tc : Thread nD τ).loc main_arg0)) (m ((c.tc : Thread nD τ).loc main_arg1))
      (m ((c.tc : Thread nD τ).loc main_arg2))) (q : Fin 64) :
    (show S1x64.Idx → EReal from VE1 m c main_v41) (ix2 (0 : Fin 1) q)
      = Cert.Spec.chx (m ((c.tc : Thread nD τ).loc main_arg1)) (m ((c.tc : Thread nD τ).loc main_arg2))
          (m ((c.tc : Thread nD τ).loc main_arg3)) (m ((c.tc : Thread nD τ).loc main_arg4)) q := by
  have e1 : VE1 m c main_v41 = (dat0 (VE0 m) c).arrAt 2 cfg0.N :=
    (V12_main_v41 m (outs11 m) c).trans (W11_out m c)
  refine (congrFun e1 (ix2 (0 : Fin 1) q)).trans ?_
  refine (arrAt0_2 (VE0 m) c q).trans ?_
  exact padded_dot (by omega) _ _ _ _ (fun k => HostVal.V10_main_v40 m c hr k)
    (fun k => HostVal.V10_main_v38 m c hr k q)

/-- What the second region's output array holds at the end is the specification's perceptron at the states' own
    embeddings and the kernel's pooled graph feature. -/
theorem kernel_value
    (hr : Cert.Spec.InRange (m ((c.tc : Thread nD τ).loc main_arg0)) (m ((c.tc : Thread nD τ).loc main_arg1))
      (m ((c.tc : Thread nD τ).loc main_arg2))) :
    (W13 (F := Ideal) m c (Proc.devRef .tc main_v48) : S256x8.Idx → EReal)
      = Cert.Spec.mlp (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14))
          (m ((c.tc : Thread nD τ).loc main_arg15)) (m ((c.tc : Thread nD τ).loc main_arg16))
          (Cert.Spec.x1 (m ((c.tc : Thread nD τ).loc main_arg0)) (m ((c.tc : Thread nD τ).loc main_arg4)))
          (Cert.Spec.x2ker (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))) := by
  refine (W13_out m c).trans ?_
  refine (arrAt1_14 (VE1 m) c).trans ?_
  refine (out1_14_eq _ _ _ _ _ _ _ _ _ _ _ _ _ _).trans ?_
  refine (PayVal.pay_eq_mlp _ _ _ _ _ _ _ _ _ _ _ _ _ _).trans ?_
  refine mlp_congr ?_ ?_ ?_ ?_ ?_ ?_ ?_ ?_ ?_ ?_ ?_ ?_
  · exact V12_main_arg7 m (outs11 m) c
  · funext i
    exact (V12_main_v43 m (outs11 m) c (i 0)).trans (congrArg _ (eq_ix1 i).symm)
  · exact V12_main_arg9 m (outs11 m) c
  · funext i
    exact (V12_main_v44 m (outs11 m) c (i 0)).trans (congrArg _ (eq_ix1 i).symm)
  · exact V12_main_arg11 m (outs11 m) c
  · funext i
    exact (V12_main_v45 m (outs11 m) c (i 0)).trans (congrArg _ (eq_ix1 i).symm)
  · exact V12_main_arg13 m (outs11 m) c
  · funext i
    exact (V12_main_v46 m (outs11 m) c (i 0)).trans (congrArg _ (eq_ix1 i).symm)
  · exact V12_main_arg15 m (outs11 m) c
  · funext i
    exact (V12_main_v47 m (outs11 m) c (i 0)).trans (congrArg _ (eq_ix1 i).symm)
  · funext b q
    exact (congrFun (V12_main_v2 m (outs11 m) c) (ix2 b q)).trans (HostVal.V10_main_v2 m c hr b q)
  · exact x2_congr _ _ _ _ _ _ (cx_eq m c hr) (V12_main_arg5 m (outs11 m) c)
      (fun j => V12_main_v42 m (outs11 m) c j)

end Join

end Cert.KernelIdeal.Hand

end
-- ==== Proof.LibHostScatterAdd.lean ====
/-
  General facts for reading a host program with index wraps, gathers of single entries and accumulating scatters.

  Three float words and the reals they denote (1, 50000, 8).  A node number, read as a signed 32-bit word, is not
  negative, so the "add the table size to a negative index" step leaves it as it is.  Choosing a value where a degree is positive and 0 elsewhere is
  an if-then-else on the order of the extended reals.  A gather that takes single
  entries of a vector reads entry (start index, read signed and clamped into the vector).  An update of a scatter
  lands on the entry its start index names (read signed, not clamped) and, for a scatter of rows, in its own column;
  hence an accumulating scatter read at one entry is the entry's old value plus the sum, over all updates, of the
  update if its start index names that entry and 0 otherwise.
-/
import Idealize.ShloMosaic.Lib.ValueIdx
import Idealize.ShloMosaic.PureOps.Ideal
import Idealize.ShloMosaic.PureOps.Ideal.Laws
import proofs.«409071_j82351702934075_2_alg».proof.Proof.LibScatterLand
import proofs.«409071_j82351702934075_2_alg».proof.Proof.LibSumIdx

noncomputable section

open scoped BigOperators

namespace Cert.RefValue

open Idealize.ShloMosaic Idealize.ShloMosaic.ValueIdx

/-! ## The float words of the reference -/

/-- The word of 1.0 denotes 1. -/
theorem ofBits_one : Ideal.ofBits .f32 0x3F800000#32 = 1 := by
  simp [Ideal.ofBits, Ideal.ieee, -EReal.coe_mul]; norm_num

/-- The word of 50000.0 denotes 50000. -/
theorem ofBits_50000 : Ideal.ofBits .f32 0x47435000#32 = ((50000 : ℝ) : EReal) := by
  simp [Ideal.ofBits, Ideal.ieee, -EReal.coe_mul]; norm_num

/-- The word of 8.0 denotes 8. -/
theorem ofBits_8 : Ideal.ofBits .f32 0x41000000#32 = ((8 : ℝ) : EReal) := by
  simp [Ideal.ofBits, Ideal.ieee, -EReal.coe_mul]; norm_num

/-! ## Words that are node numbers -/

/-- A word that is not negative as a signed number is left alone by "if w < 0 then w + 50000 else w". -/
theorem wrap_node (w : BitVec 32) (h0 : 0 ≤ w.toInt) :
    Scalar.select (IntOp.cmpi .slt w 0#32) (IntOp.addi w 50000#32) w = w := by
  have h : IntOp.cmpi .slt w 0#32 = 0#1 := by
    have hs : w.slt 0#32 = false := by
      simp only [BitVec.slt, BitVec.toInt_zero]
      exact decide_eq_false (by omega)
    simp only [IntOp.cmpi, hs]
    rfl
  rw [h]
  exact select_zero _ _

/-- The 32-bit word of a number below 50000, read signed, is that number. -/
theorem toInt_ofNat_small (k : Nat) (hk : k < 50000) : (BitVec.ofNat 32 k).toInt = (k : Int) := by
  have h1 : (BitVec.ofNat 32 k).toNat = k := by rw [BitVec.toNat_ofNat]; omega
  rw [BitVec.toInt_eq_toNat_cond, h1, if_pos (by omega)]

/-! ## A select on "greater than zero" -/

/-- Choosing r where d > 0 and 0 elsewhere, as the comparison word and the select spell it. -/
theorem select_pos (d r : EReal) : Scalar.select (Ideal.cmp .ogt d 0) r 0 = if 0 < d then r else 0 := by
  unfold Ideal.cmp Scalar.select
  by_cases h : 0 < d
  · simp [h]
  · simp [h]

/-! ## A gather of single entries of a vector -/

/-- Entry r of a gather of single entries of a vector of length N, with a column of n start indices, is the vector's
    entry at start index r read signed and clamped into [0, N − 1]. -/
theorem gather_vec_clamp_apply {α : Type} {N n w : Nat}
    (d : GatherDims ⟨1, ![N]⟩ ⟨2, ![n, 1]⟩ ⟨1, ![n]⟩)
    (hoff : d.offsetDims = []) (hcol : d.collapsedSliceDims = [0]) (hob : d.operandBatchingDims = [])
    (hsb : d.startIndicesBatchingDims = []) (hmap : d.startIndexMap = [0]) (hiv : d.indexVectorDim = 1)
    (hsl : d.sliceSizes = ![1])
    (x : (⟨1, ![N]⟩ : Shape).Idx → α) (idx : IVec ⟨2, ![n, 1]⟩ w) (r : Fin n) (hN : 0 < N) :
    Host.gather d x idx (ix1 r)
      = x (ix1 (⟨min (idx (ix2 r (0 : Fin 1))).toInt.toNat (N - 1), by omega⟩ : Fin N)) := by
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the one axis is collapsed and start-indexed: no batching coordinate, no offset coordinate
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    -- the start index is read at (r, 0)
    generalize hX : GatherDims.siIdx _ (ix1 r) _ = X
    have hX' : X = ix2 r (0 : Fin 1) := by
      rw [← hX]
      funext b
      match b with
      | ⟨0, _⟩ => rfl
      | ⟨1, _⟩ => rfl
    rw [hX']
    rfl

/-! ## Where the updates of a scatter land -/

/-- Scatter into a vector, one start index per update: update e lands on entry k exactly when its start index, read
    signed, is k. -/
theorem scatter_vec_lands {N n w : Nat} (d : ScatterDims ⟨1, ![N]⟩ ⟨2, ![n, 1]⟩ ⟨1, ![n]⟩)
    (huw : d.updateWindowDims = []) (hins : d.insertedWindowDims = [0])
    (hmap : d.scatterDimsToOperandDims = [0]) (hiv : d.indexVectorDim = 1)
    (idx : IVec ⟨2, ![n, 1]⟩ w) (e : Fin n) (k : Fin N) :
    d.resultIdx? (ix1 e) idx = some (ix1 k) ↔ (idx (ix2 e (0 : Fin 1))).toInt = (k.val : Int) := by
  obtain ⟨uw, ins, sdo, ivd, wf⟩ := d
  dsimp only at huw hins hmap hiv
  subst huw hins hmap hiv
  rw [ScatterLand.resultIdx?_eq_some_iff]
  have hst : ∀ a : Fin 1,
      ScatterDims.start ⟨[], [0], [0], 1, wf⟩ (ix1 e) idx a = (idx (ix2 e (0 : Fin 1))).toInt := by
    intro a
    obtain rfl : a = 0 := Subsingleton.elim _ _
    unfold ScatterDims.start
    rw [dif_pos (by simp)]
    generalize hX : ScatterDims.siIdx _ (ix1 e) _ = X
    have hX' : X = ix2 e (0 : Fin 1) := by
      rw [← hX]
      funext b
      match b with
      | ⟨0, _⟩ => rfl
      | ⟨1, _⟩ => rfl
    rw [hX']
  have hwin : ∀ a : Fin 1, ScatterDims.window ⟨[], [0], [0], 1, wf⟩ (ix1 e) a = 0 := by
    intro a
    obtain rfl : a = 0 := Subsingleton.elim _ _
    unfold ScatterDims.window
    rw [dif_neg (by simp [ScatterDims.sKept, Shape.kept])]
  constructor
  · intro h
    have := h 0
    rw [hst, hwin, Nat.cast_zero, add_zero] at this
    exact this
  · intro h a
    obtain rfl : a = 0 := Subsingleton.elim _ _
    rw [hst, hwin, Nat.cast_zero, add_zero]
    exact h

/-- Scatter of rows into a table, one start index per row of updates: update (e, q) lands on entry (k, j) exactly when
    row e's start index, read signed, is k and the columns agree. -/
theorem scatter_rows_lands {N C n w : Nat} (d : ScatterDims ⟨2, ![N, C]⟩ ⟨2, ![n, 1]⟩ ⟨2, ![n, C]⟩)
    (huw : d.updateWindowDims = [1]) (hins : d.insertedWindowDims = [0])
    (hmap : d.scatterDimsToOperandDims = [0]) (hiv : d.indexVectorDim = 1)
    (idx : IVec ⟨2, ![n, 1]⟩ w) (e : Fin n) (q : Fin C) (k : Fin N) (j : Fin C) :
    d.resultIdx? (ix2 e q) idx = some (ix2 k j)
      ↔ (idx (ix2 e (0 : Fin 1))).toInt = (k.val : Int) ∧ q = j := by
  obtain ⟨uw, ins, sdo, ivd, wf⟩ := d
  dsimp only at huw hins hmap hiv
  subst huw hins hmap hiv
  rw [ScatterLand.resultIdx?_eq_some_iff]
  -- the row axis: the start index alone; the column axis: the update's column alone
  have hst0 : ScatterDims.start ⟨[1], [0], [0], 1, wf⟩ (ix2 e q) idx 0 = (idx (ix2 e (0 : Fin 1))).toInt := by
    unfold ScatterDims.start
    rw [dif_pos (by simp)]
    generalize hX : ScatterDims.siIdx _ (ix2 e q) _ = X
    have hX' : X = ix2 e (0 : Fin 1) := by
      rw [← hX]
      funext b
      match b with
      | ⟨0, _⟩ => rfl
      | ⟨1, _⟩ => rfl
    rw [hX']
  have hst1 : ScatterDims.start ⟨[1], [0], [0], 1, wf⟩ (ix2 e q) idx 1 = 0 := by
    unfold ScatterDims.start
    rw [dif_neg (by simp)]
  have hwin0 : ScatterDims.window ⟨[1], [0], [0], 1, wf⟩ (ix2 e q) 0 = 0 := by
    unfold ScatterDims.window
    rw [dif_neg (by simp [ScatterDims.sKept, Shape.kept])]
  have hwin1 : ScatterDims.window ⟨[1], [0], [0], 1, wf⟩ (ix2 e q) 1 = q.val := by
    unfold ScatterDims.window
    rw [dif_pos (by simp [ScatterDims.sKept, Shape.kept])]
    rfl
  constructor
  · intro h
    have h0 := h 0
    have h1 := h 1
    rw [hst0, hwin0, Nat.cast_zero, add_zero] at h0
    rw [hst1, hwin1, zero_add] at h1
    exact ⟨h0, Fin.ext (Int.ofNat_inj.mp h1)⟩
  · rintro ⟨h0, rfl⟩ a
    match a with
    | ⟨0, _⟩ =>
      show ScatterDims.start _ (ix2 e q) idx 0 + ((ScatterDims.window _ (ix2 e q) 0 : Nat) : Int) = _
      rw [hst0, hwin0, Nat.cast_zero, add_zero]
      exact h0
    | ⟨1, _⟩ =>
      show ScatterDims.start _ (ix2 e q) idx 1 + ((ScatterDims.window _ (ix2 e q) 1 : Nat) : Int) = _
      rw [hst1, hwin1, zero_add]

/-! ## An accumulating scatter read at one entry -/

/-- An accumulating scatter into a vector, at entry k: the old entry plus the updates whose start index is k. -/
theorem scatterAdd_vec_apply {N n w : Nat} (d : ScatterDims ⟨1, ![N]⟩ ⟨2, ![n, 1]⟩ ⟨1, ![n]⟩)
    (huw : d.updateWindowDims = []) (hins : d.insertedWindowDims = [0])
    (hmap : d.scatterDimsToOperandDims = [0]) (hiv : d.indexVectorDim = 1)
    (x : (⟨1, ![N]⟩ : Shape).Idx → EReal) (idx : IVec ⟨2, ![n, 1]⟩ w)
    (upd : (⟨1, ![n]⟩ : Shape).Idx → EReal) (k : Fin N) :
    Ideal.hostScatterAdd d x idx upd (ix1 k)
      = x (ix1 k) + ∑ e : Fin n, if (idx (ix2 e (0 : Fin 1))).toInt = (k.val : Int) then upd (ix1 e) else 0 := by
  unfold Ideal.hostScatterAdd
  refine congrArg (x (ix1 k) + ·) ?_
  rw [Finset.sum_filter, sum_idx1]
  exact Finset.sum_congr rfl fun e _ => if_congr (scatter_vec_lands d huw hins hmap hiv idx e k) rfl rfl

/-- An accumulating scatter of rows into a table, at entry (k, j): the old entry plus column j of the update rows whose
    start index is k. -/
theorem scatterAdd_rows_apply {N C n w : Nat} (d : ScatterDims ⟨2, ![N, C]⟩ ⟨2, ![n, 1]⟩ ⟨2, ![n, C]⟩)
    (huw : d.updateWindowDims = [1]) (hins : d.insertedWindowDims = [0])
    (hmap : d.scatterDimsToOperandDims = [0]) (hiv : d.indexVectorDim = 1)
    (x : (⟨2, ![N, C]⟩ : Shape).Idx → EReal) (idx : IVec ⟨2, ![n, 1]⟩ w)
    (upd : (⟨2, ![n, C]⟩ : Shape).Idx → EReal) (k : Fin N) (j : Fin C) :
    Ideal.hostScatterAdd d x idx upd (ix2 k j)
      = x (ix2 k j) + ∑ e : Fin n, if (idx (ix2 e (0 : Fin 1))).toInt = (k.val : Int) then upd (ix2 e j) else 0 := by
  unfold Ideal.hostScatterAdd
  refine congrArg (x (ix2 k j) + ·) ?_
  rw [Finset.sum_filter, sum_idx2]
  refine Finset.sum_congr rfl fun e _ => ?_
  rw [Finset.sum_congr rfl fun q _ => if_congr (scatter_rows_lands d huw hins hmap hiv idx e q k j) rfl rfl]
  by_cases hA : (idx (ix2 e (0 : Fin 1))).toInt = (k.val : Int)
  · -- the row lands on k: of its columns only column j lands on (k, j)
    rw [if_pos hA]
    simp only [hA, true_and]
    rw [Finset.sum_ite_eq' Finset.univ j (fun q => upd (ix2 e q)), if_pos (Finset.mem_univ j)]
  · rw [if_neg hA]
    exact Finset.sum_eq_zero fun q _ => if_neg fun h => hA h.1

/-- The host's accumulating scatter into a vector, at entry k: the old entry plus the updates whose start index is k. -/
theorem host_scatterAdd_vec_apply {N n w : Nat} (d : ScatterDims ⟨1, ![N]⟩ ⟨2, ![n, 1]⟩ ⟨1, ![n]⟩)
    (huw : d.updateWindowDims = []) (hins : d.insertedWindowDims = [0])
    (hmap : d.scatterDimsToOperandDims = [0]) (hiv : d.indexVectorDim = 1)
    (x : FVec Ideal ⟨1, ![N]⟩ .f32) (idx : IVec ⟨2, ![n, 1]⟩ w) (upd : FVec Ideal ⟨1, ![n]⟩ .f32) (k : Fin N) :
    Host.scatterAdd (F := Ideal) d x idx upd (ix1 k)
      = x (ix1 k) + ∑ e : Fin n, if (idx (ix2 e (0 : Fin 1))).toInt = (k.val : Int) then upd (ix1 e) else 0 :=
  scatterAdd_vec_apply d huw hins hmap hiv x idx upd k

/-- The host's accumulating scatter of rows into a table, at entry (k, j): the old entry plus column j of the update
    rows whose start index is k. -/
theorem host_scatterAdd_rows_apply {N C n w : Nat} (d : ScatterDims ⟨2, ![N, C]⟩ ⟨2, ![n, 1]⟩ ⟨2, ![n, C]⟩)
    (huw : d.updateWindowDims = [1]) (hins : d.insertedWindowDims = [0])
    (hmap : d.scatterDimsToOperandDims = [0]) (hiv : d.indexVectorDim = 1)
    (x : FVec Ideal ⟨2, ![N, C]⟩ .f32) (idx : IVec ⟨2, ![n, 1]⟩ w) (upd : FVec Ideal ⟨2, ![n, C]⟩ .f32)
    (k : Fin N) (j : Fin C) :
    Host.scatterAdd (F := Ideal) d x idx upd (ix2 k j)
      = x (ix2 k j) + ∑ e : Fin n, if (idx (ix2 e (0 : Fin 1))).toInt = (k.val : Int) then upd (ix2 e j) else 0 :=
  scatterAdd_rows_apply d huw hins hmap hiv x idx upd k j

end Cert.RefValue

end
-- ==== Proof.RefValue2.lean ====
/-
  The graph half of the reference, read stage by stage, is the specification's graph layer.

  The edge list with the self loops appended gives each of the 850000 edges a source word, a target word and a weight.
  Every such word is a node number when the integer inputs are (a self loop's word is its own number, below 50000),
  so the "add 50000 to a negative index" step before each gather changes nothing, and a gather's clamped row is the
  row the word names.  The first accumulating scatter starts from zeros, so node n's entry is the sum of the weights of
  the edges whose target word is n: the degree.  Its inverse square root where positive, gathered at both ends of an
  edge and multiplied with the weight, is the edge's normalised weight.  The embeddings gathered at the node inputs and
  contracted with the projection matrix are the projected embeddings; gathered at an edge's source and scaled by the
  edge's normalised weight they are the edge's message, and the second accumulating scatter, again from zeros, sums at
  node n the messages of the edges whose target word is n.  Adding the bias, summing over the nodes and dividing by
  50000 gives the pooled feature, the same in every row of the batch.
-/
import proofs.«409071_j82351702934075_2_alg».proof.Proof.Gen.ReferenceIdeal.Read
import proofs.«409071_j82351702934075_2_alg».proof.Proof.Spec
import proofs.«409071_j82351702934075_2_alg».proof.Proof.LibHostScatterAdd
import proofs.«409071_j82351702934075_2_alg».proof.Proof.LibRowGatherClamp
import Idealize.ShloMosaic.Lib.Pipeline.Value

noncomputable section

open scoped BigOperators

namespace Cert.RefValue

open Cert.ReferenceIdeal Cert.ReferenceIdeal.Gen Cert.ReferenceIdeal.Read Idealize.ShloMosaic Idealize.ShloMosaic.ValueIdx

variable (x0 : (⟨S256x1, .i32⟩ : BufTy).Contents (Elt Ideal)) (x1 : (⟨S50000, .i32⟩ : BufTy).Contents (Elt Ideal))
  (x2 : (⟨S2x800000, .i32⟩ : BufTy).Contents (Elt Ideal)) (x3 : (⟨S800000, .f32⟩ : BufTy).Contents (Elt Ideal))
  (x4 : (⟨S50000x64, .f32⟩ : BufTy).Contents (Elt Ideal)) (x5 : (⟨S64x128, .f32⟩ : BufTy).Contents (Elt Ideal))
  (x6 : (⟨S128, .f32⟩ : BufTy).Contents (Elt Ideal))

/-! ## The edges: source word, target word, weight -/

/-- Entry e of the source row followed by 0, 1, …, 49999 is edge e's source word. -/
theorem src_at (e : Fin 850000) : val_main_v18 (F := Ideal) x2 (ix1 e) = Cert.Spec.srcW x2 e := by
  unfold val_main_v18 Cert.Spec.srcW
  by_cases h : e.val < 800000
  · rw [dif_pos h]
    refine (concatenate_pair_apply_left (0 : Fin S850000.rank) _ _ concatenates_S800000_S50000_S850000_d0 (ix1 e) rfl
      (ix1 (⟨e.val, h⟩ : Fin 800000)) (fun b => by match b with | ⟨0, _⟩ => rfl)).trans ?_
    rw [val_main_v17_apply, val_main_v16_apply]
    refine congrArg x2 (funext fun a => Fin.ext ?_)
    match a with
    | ⟨0, _⟩ => rfl
    | ⟨1, _⟩ => exact Nat.mod_eq_of_lt h
  · rw [dif_neg h]
    have he := e.isLt
    refine (concatenate_pair_apply_right (0 : Fin S850000.rank) _ _ concatenates_S800000_S50000_S850000_d0 (ix1 e) rfl rfl
      (ix1 (⟨e.val - 800000, by omega⟩ : Fin 50000)) (fun b hb => absurd (Subsingleton.elim _ _) hb) ?_).trans ?_
    · show e.val - 800000 + 800000 = e.val
      omega
    · rfl

/-- Entry e of the target row followed by 0, 1, …, 49999 is edge e's target word. -/
theorem dst_at (e : Fin 850000) : val_main_v21 (F := Ideal) x2 (ix1 e) = Cert.Spec.dstW x2 e := by
  unfold val_main_v21 Cert.Spec.dstW
  by_cases h : e.val < 800000
  · rw [dif_pos h]
    refine (concatenate_pair_apply_left (0 : Fin S850000.rank) _ _ concatenates_S800000_S50000_S850000_d0 (ix1 e) rfl
      (ix1 (⟨e.val, h⟩ : Fin 800000)) (fun b => by match b with | ⟨0, _⟩ => rfl)).trans ?_
    rw [val_main_v20_apply, val_main_v19_apply]
    refine congrArg x2 (funext fun a => Fin.ext ?_)
    match a with
    | ⟨0, _⟩ => rfl
    | ⟨1, _⟩ => exact Nat.mod_eq_of_lt h
  · rw [dif_neg h]
    have he := e.isLt
    refine (concatenate_pair_apply_right (0 : Fin S850000.rank) _ _ concatenates_S800000_S50000_S850000_d0 (ix1 e) rfl rfl
      (ix1 (⟨e.val - 800000, by omega⟩ : Fin 50000)) (fun b hb => absurd (Subsingleton.elim _ _) hb) ?_).trans ?_
    · show e.val - 800000 + 800000 = e.val
      omega
    · rfl

/-- Entry e of the weights followed by 50000 ones is edge e's weight. -/
theorem wt_at (e : Fin 850000) : val_main_v23 (F := Ideal) x3 (ix1 e) = Cert.Spec.wt x3 e := by
  unfold val_main_v23 Cert.Spec.wt
  by_cases h : e.val < 800000
  · rw [dif_pos h]
    exact concatenate_pair_apply_left (0 : Fin S850000.rank) _ _ concatenates_S800000_S50000_S850000_d0 (ix1 e) rfl
      (ix1 (⟨e.val, h⟩ : Fin 800000)) (fun b => by match b with | ⟨0, _⟩ => rfl)
  · rw [dif_neg h]
    have he := e.isLt
    refine (concatenate_pair_apply_right (0 : Fin S850000.rank) _ _ concatenates_S800000_S50000_S850000_d0 (ix1 e) rfl rfl
      (ix1 (⟨e.val - 800000, by omega⟩ : Fin 50000)) (fun b hb => absurd (Subsingleton.elim _ _) hb) ?_).trans ?_
    · show e.val - 800000 + 800000 = e.val
      omega
    · rw [val_main_v22_apply, val_main_cst_apply, Ideal.ofBits_def, ofBits_one]

/-- Every source word is a node number when the edge list's words are. -/
theorem srcW_node (hn : ∀ i, Cert.Spec.IsNode (x2 i)) (e : Fin 850000) : Cert.Spec.IsNode (Cert.Spec.srcW x2 e) := by
  unfold Cert.Spec.srcW
  by_cases h : e.val < 800000
  · rw [dif_pos h]
    exact hn _
  · rw [dif_neg h]
    have he := e.isLt
    have ht := toInt_ofNat_small (e.val - 800000) (by omega)
    unfold Cert.Spec.IsNode
    rw [ht]
    omega

/-- Every target word is a node number when the edge list's words are. -/
theorem dstW_node (hn : ∀ i, Cert.Spec.IsNode (x2 i)) (e : Fin 850000) : Cert.Spec.IsNode (Cert.Spec.dstW x2 e) := by
  unfold Cert.Spec.dstW
  by_cases h : e.val < 800000
  · rw [dif_pos h]
    exact hn _
  · rw [dif_neg h]
    have he := e.isLt
    have ht := toInt_ofNat_small (e.val - 800000) (by omega)
    unfold Cert.Spec.IsNode
    rw [ht]
    omega

/-! ## The index wrap in front of each gather is the identity on node numbers -/

/-- The wrapped source word (first use: the gather of the inverse roots at the sources). -/
theorem src_wrapped_a (hn : ∀ i, Cert.Spec.IsNode (x2 i)) (e : Fin 850000) :
    val_main_v36 (F := Ideal) x2 (ix2 e (0 : Fin 1)) = Cert.Spec.srcW x2 e := by
  have hi : idx_main_v36 (ix2 e (0 : Fin 1)) = ix1 e := funext fun a => by match a with | ⟨0, _⟩ => rfl
  rw [val_main_v36_apply, hi, val_main_v35_apply, val_main_v32_apply, val_main_v34_apply, val_main_v31_apply,
    val_main_v33_apply, val_main_c_6_apply, val_main_c_7_apply, src_at]
  exact wrap_node _ (srcW_node x2 hn e).1

/-- The wrapped target word (the gather of the inverse roots at the targets). -/
theorem dst_wrapped (hn : ∀ i, Cert.Spec.IsNode (x2 i)) (e : Fin 850000) :
    val_main_v44 (F := Ideal) x2 (ix2 e (0 : Fin 1)) = Cert.Spec.dstW x2 e := by
  have hi : idx_main_v44 (ix2 e (0 : Fin 1)) = ix1 e := funext fun a => by match a with | ⟨0, _⟩ => rfl
  rw [val_main_v44_apply, hi, val_main_v43_apply, val_main_v40_apply, val_main_v42_apply, val_main_v39_apply,
    val_main_v41_apply, val_main_c_8_apply, val_main_c_9_apply, dst_at]
  exact wrap_node _ (dstW_node x2 hn e).1

/-- The wrapped source word (second use: the gather of the projected embeddings at the sources). -/
theorem src_wrapped_b (hn : ∀ i, Cert.Spec.IsNode (x2 i)) (e : Fin 850000) :
    val_main_v53 (F := Ideal) x2 (ix2 e (0 : Fin 1)) = Cert.Spec.srcW x2 e := by
  have hi : idx_main_v53 (ix2 e (0 : Fin 1)) = ix1 e := funext fun a => by match a with | ⟨0, _⟩ => rfl
  rw [val_main_v53_apply, hi, val_main_v52_apply, val_main_v49_apply, val_main_v51_apply, val_main_v48_apply,
    val_main_v50_apply, val_main_c_10_apply, val_main_c_11_apply, src_at]
  exact wrap_node _ (srcW_node x2 hn e).1

/-- The wrapped state word of batch row b. -/
theorem state_wrapped (hn : ∀ i, Cert.Spec.IsNode (x0 i)) (b : Fin 256) :
    val_main_v6 (F := Ideal) x0 (ix2 b (0 : Fin 1)) = x0 (ix2 b (0 : Fin 1)) := by
  have hi : idx_main_v0 (idx_main_v6 (ix2 b (0 : Fin 1))) = ix2 b (0 : Fin 1) := funext fun a => Fin.ext (by
    match a with
    | ⟨0, _⟩ => exact Nat.div_one _
    | ⟨1, _⟩ => rfl)
  rw [val_main_v6_apply, val_main_v5_apply, val_main_v2_apply, val_main_v4_apply, val_main_v1_apply, val_main_v3_apply,
    val_main_c_apply, val_main_c_0_apply, val_main_v0_apply, hi]
  exact wrap_node _ (hn _).1

/-- The wrapped node word of node n. -/
theorem xidx_wrapped (hn : ∀ i, Cert.Spec.IsNode (x1 i)) (n : Fin 50000) :
    val_main_v13 (F := Ideal) x1 (ix2 n (0 : Fin 1)) = x1 (ix1 n) := by
  have hi : idx_main_v13 (ix2 n (0 : Fin 1)) = ix1 n := funext fun a => by match a with | ⟨0, _⟩ => rfl
  rw [val_main_v13_apply, hi, val_main_v12_apply, val_main_v9_apply, val_main_v11_apply, val_main_v8_apply,
    val_main_v10_apply, val_main_c_1_apply, val_main_c_2_apply]
  exact wrap_node _ (hn _).1

/-! ## The embeddings -/

/-- The gather at the state words: each batch row's own embedding. -/
theorem x1_at (hn : ∀ i, Cert.Spec.IsNode (x0 i)) (b : Fin 256) (q : Fin 64) :
    val_main_v7 (F := Ideal) x0 x4 (ix2 b q) = Cert.Spec.x1 x0 x4 b q := by
  unfold val_main_v7 Cert.Spec.x1
  refine (Cert.LibRowGatherClamp.gather_rows_clamp_apply gather_S50000x64_S256x1_S256x64_1_0_n_n_0_1_164
    rfl rfl rfl rfl rfl rfl rfl x4 (val_main_v6 (F := Ideal) x0) b q (by decide)).trans ?_
  refine congrArg (fun r : Fin 50000 => x4 (ix2 r q)) (Fin.ext ?_)
  exact congrArg (fun w : BitVec 32 => min w.toInt.toNat 49999) (state_wrapped x0 hn b)

/-- The gather at the node words: each node's embedding. -/
theorem hx_at (hn : ∀ i, Cert.Spec.IsNode (x1 i)) (n : Fin 50000) (q : Fin 64) :
    val_main_v14 (F := Ideal) x1 x4 (ix2 n q) = Cert.Spec.hx x1 x4 n q := by
  unfold val_main_v14 Cert.Spec.hx
  refine (Cert.LibRowGatherClamp.gather_rows_clamp_apply gather_S50000x64_S50000x1_S50000x64_1_0_n_n_0_1_164
    rfl rfl rfl rfl rfl rfl rfl x4 (val_main_v13 (F := Ideal) x1) n q (by decide)).trans ?_
  refine congrArg (fun r : Fin 50000 => x4 (ix2 r q)) (Fin.ext ?_)
  exact congrArg (fun w : BitVec 32 => min w.toInt.toNat 49999) (xidx_wrapped x1 hn n)

/-- The contraction with the projection matrix: each node's projected embedding. -/
theorem hW_at (hn : ∀ i, Cert.Spec.IsNode (x1 i)) (n : Fin 50000) (j : Fin 128) :
    val_main_v47 (F := Ideal) x1 x4 x5 (ix2 n j) = Cert.Spec.hW x1 x4 x5 n j := by
  rw [val_main_v47_apply]
  unfold Cert.Spec.hW
  refine Finset.sum_congr rfl fun k _ => ?_
  have hl : lidx_main_v47 (ix2 n j) k = ix2 n k := funext fun a => by match a with | ⟨0, _⟩ => rfl | ⟨1, _⟩ => rfl
  have hr : ridx_main_v47 (ix2 n j) k = ix2 k j := funext fun a => by match a with | ⟨0, _⟩ => rfl | ⟨1, _⟩ => rfl
  rw [hl, hr, hx_at x1 x4 hn]

/-! ## Degrees, inverse roots, normalised weights -/

/-- The first accumulating scatter, from zeros: node n's degree. -/
theorem deg_at (n : Fin 50000) : val_main_v26 (F := Ideal) x2 x3 (ix1 n) = Cert.Spec.deg x2 x3 n := by
  unfold val_main_v26
  rw [host_scatterAdd_vec_apply scatter_S50000_S850000x1_S850000_n_0_0_1 rfl rfl rfl rfl,
    val_main_v24_apply, val_main_cst_3_apply, Ideal.ofBits_def, Ideal.ofBits_zero_f32, zero_add]
  unfold Cert.Spec.deg
  refine Finset.sum_congr rfl fun e _ => ?_
  have hi : idx_main_v25 (ix2 e (0 : Fin 1)) = ix1 e := funext fun a => by match a with | ⟨0, _⟩ => rfl
  rw [val_main_v25_apply, hi, dst_at, wt_at]

/-- The inverse square root of a positive degree, 0 otherwise. -/
theorem dinv_at (n : Fin 50000) : val_main_v30 (F := Ideal) x2 x3 (ix1 n) = Cert.Spec.dinv x2 x3 n := by
  rw [val_main_v30_apply, val_main_v28_apply, val_main_v29_apply, deg_at, val_main_v27_apply, val_main_cst_4_apply,
    val_main_call0_v1_apply, val_main_call0_v0_apply, val_main_cst_5_apply, Ideal.ofBits_def, Ideal.ofBits_zero_f32,
    Ideal.hostUnary_rsqrt_def, Ideal.cmpf_def, select_pos]
  rfl

/-- The inverse root gathered at edge e's source. -/
theorem dinv_src_at (hn : ∀ i, Cert.Spec.IsNode (x2 i)) (e : Fin 850000) :
    val_main_v37 (F := Ideal) x2 x3 (ix1 e) = Cert.Spec.dinv x2 x3 (Cert.Spec.rowOf (Cert.Spec.srcW x2 e)) := by
  unfold val_main_v37
  refine (gather_vec_clamp_apply gather_S50000_S850000x1_S850000_n_0_n_n_0_1_1 rfl rfl rfl rfl rfl rfl rfl
    (val_main_v30 (F := Ideal) x2 x3) (val_main_v36 (F := Ideal) x2) e (by decide)).trans ?_
  refine Eq.trans (congrArg (fun r : Fin 50000 => val_main_v30 (F := Ideal) x2 x3 (ix1 r)) (Fin.ext ?_))
    (dinv_at x2 x3 (Cert.Spec.rowOf (Cert.Spec.srcW x2 e)))
  exact congrArg (fun w : BitVec 32 => min w.toInt.toNat 49999) (src_wrapped_a x2 hn e)

/-- The inverse root gathered at edge e's target. -/
theorem dinv_dst_at (hn : ∀ i, Cert.Spec.IsNode (x2 i)) (e : Fin 850000) :
    val_main_v45 (F := Ideal) x2 x3 (ix1 e) = Cert.Spec.dinv x2 x3 (Cert.Spec.rowOf (Cert.Spec.dstW x2 e)) := by
  unfold val_main_v45
  refine (gather_vec_clamp_apply gather_S50000_S850000x1_S850000_n_0_n_n_0_1_1 rfl rfl rfl rfl rfl rfl rfl
    (val_main_v30 (F := Ideal) x2 x3) (val_main_v44 (F := Ideal) x2) e (by decide)).trans ?_
  refine Eq.trans (congrArg (fun r : Fin 50000 => val_main_v30 (F := Ideal) x2 x3 (ix1 r)) (Fin.ext ?_))
    (dinv_at x2 x3 (Cert.Spec.rowOf (Cert.Spec.dstW x2 e)))
  exact congrArg (fun w : BitVec 32 => min w.toInt.toNat 49999) (dst_wrapped x2 hn e)

/-- Edge e's normalised weight. -/
theorem norm_at (hn : ∀ i, Cert.Spec.IsNode (x2 i)) (e : Fin 850000) :
    val_main_v46 (F := Ideal) x2 x3 (ix1 e) = Cert.Spec.norm x2 x3 e := by
  unfold Cert.Spec.norm
  rw [val_main_v46_apply, val_main_v38_apply, dinv_src_at x2 x3 hn, dinv_dst_at x2 x3 hn, wt_at,
    Ideal.mulf_def, Ideal.mulf_def]

/-! ## Messages, aggregation, pooling -/

/-- The projected embedding gathered at edge e's source. -/
theorem hW_src_at (hn1 : ∀ i, Cert.Spec.IsNode (x1 i)) (hn2 : ∀ i, Cert.Spec.IsNode (x2 i)) (e : Fin 850000)
    (j : Fin 128) :
    val_main_v54 (F := Ideal) x1 x2 x4 x5 (ix2 e j)
      = Cert.Spec.hW x1 x4 x5 (Cert.Spec.rowOf (Cert.Spec.srcW x2 e)) j := by
  unfold val_main_v54
  refine (Cert.LibRowGatherClamp.gather_rows_clamp_apply gather_S50000x128_S850000x1_S850000x128_1_0_n_n_0_1_1128
    rfl rfl rfl rfl rfl rfl rfl (val_main_v47 (F := Ideal) x1 x4 x5) (val_main_v53 (F := Ideal) x2) e j
    (by decide)).trans ?_
  refine Eq.trans (congrArg (fun r : Fin 50000 => val_main_v47 (F := Ideal) x1 x4 x5 (ix2 r j)) (Fin.ext ?_))
    (hW_at x1 x4 x5 hn1 (Cert.Spec.rowOf (Cert.Spec.srcW x2 e)) j)
  exact congrArg (fun w : BitVec 32 => min w.toInt.toNat 49999) (src_wrapped_b x2 hn2 e)

/-- Edge e's message in column j: the source's projected embedding times the edge's normalised weight. -/
theorem msg_at (hn1 : ∀ i, Cert.Spec.IsNode (x1 i)) (hn2 : ∀ i, Cert.Spec.IsNode (x2 i)) (e : Fin 850000)
    (j : Fin 128) :
    val_main_v57 (F := Ideal) x1 x2 x3 x4 x5 (ix2 e j)
      = Cert.Spec.hW x1 x4 x5 (Cert.Spec.rowOf (Cert.Spec.srcW x2 e)) j * Cert.Spec.norm x2 x3 e := by
  have hi : idx_main_v55 (idx_main_v56 (ix2 e j)) = ix1 e := funext fun a => by match a with | ⟨0, _⟩ => rfl
  rw [val_main_v57_apply, hW_src_at x1 x2 x4 x5 hn1 hn2, val_main_v56_apply, val_main_v55_apply, hi,
    norm_at x2 x3 hn2, Ideal.mulf_def]

/-- The second accumulating scatter, from zeros: what the edges ending in node n bring to it. -/
theorem agg_at (hn1 : ∀ i, Cert.Spec.IsNode (x1 i)) (hn2 : ∀ i, Cert.Spec.IsNode (x2 i)) (n : Fin 50000)
    (j : Fin 128) :
    val_main_v60 (F := Ideal) x1 x2 x3 x4 x5 (ix2 n j) = Cert.Spec.agg x1 x2 x3 x4 x5 n j := by
  unfold val_main_v60
  rw [host_scatterAdd_rows_apply scatter_S50000x128_S850000x1_S850000x128_1_0_0_1 rfl rfl rfl rfl,
    val_main_v58_apply, val_main_cst_12_apply, Ideal.ofBits_def, Ideal.ofBits_zero_f32, zero_add]
  unfold Cert.Spec.agg
  refine Finset.sum_congr rfl fun e _ => ?_
  have hi : idx_main_v59 (ix2 e (0 : Fin 1)) = ix1 e := funext fun a => by match a with | ⟨0, _⟩ => rfl
  rw [val_main_v59_apply, hi, dst_at, msg_at x1 x2 x3 x4 x5 hn1 hn2]

/-- The pooled graph feature, the same in every row of the batch: the mean over the nodes of the layer's output. -/
theorem x2ref_at (hn1 : ∀ i, Cert.Spec.IsNode (x1 i)) (hn2 : ∀ i, Cert.Spec.IsNode (x2 i)) (b : Fin 256)
    (j : Fin 128) :
    val_main_v68 (F := Ideal) x1 x2 x3 x4 x5 x6 (ix2 b j) = Cert.Spec.x2ref x1 x2 x3 x4 x5 x6 j := by
  have hi : idx_main_v65 (idx_main_v68 (ix2 b j)) = ix1 j := funext fun a => by match a with | ⟨0, _⟩ => rfl
  rw [val_main_v68_apply, val_main_v67_apply, val_main_v65_apply, hi, val_main_v64_apply, val_main_cst_13_apply,
    val_main_v66_apply, val_main_cst_14_apply, Ideal.hostDivf_def,
    Ideal.ofBits_def (φ := .f32) 0x00000000#32, Ideal.ofBits_zero_f32, zero_add,
    Ideal.ofBits_def (φ := .f32) 0x47435000#32, ofBits_50000]
  unfold Cert.Spec.x2ref
  refine congrArg (fun s : EReal => Ideal.div s ((50000 : ℝ) : EReal)) (Finset.sum_congr rfl fun n _ => ?_)
  have h64 : idx_main_v64 (ix1 j) n = ix2 n j := funext fun a => by match a with | ⟨0, _⟩ => rfl | ⟨1, _⟩ => rfl
  have h62 : idx_main_v61 (idx_main_v62 (ix2 n j)) = ix1 j := funext fun a => by match a with | ⟨0, _⟩ => rfl
  rw [h64, val_main_v63_apply, agg_at x1 x2 x3 x4 x5 hn1 hn2, val_main_v62_apply, val_main_v61_apply, h62,
    Ideal.addf_def]

end Cert.RefValue

end
-- ==== Proof.RefValue3.lean ====
/-
  The head of the reference, layer by layer, at one state b and one action a.

  The head reads two earlier stages: the gathered embedding of each state (a 256 x 64 array) and the pooled graph
  feature repeated on every row (a 256 x 128 array).  Given what those two hold entry by entry, the rest is a
  three-layer perceptron on the 192-wide row "own embedding beside pooled feature": each layer is a product with a
  weight matrix (a sum over the contracted axis), plus a bias row, clamped below at 0; then a value column and an
  8-wide advantage matrix, each with its bias; and the result is the value plus the advantage less the mean of the
  eight advantages (their sum, started from 0, divided by 8).  Every entry of the result depends on row b only, so
  each layer is read at (b, j) and the sums of the specification appear term by term.
-/
import proofs.«409071_j82351702934075_2_alg».proof.Proof.Gen.ReferenceIdeal.Read
import proofs.«409071_j82351702934075_2_alg».proof.Proof.Spec
import proofs.«409071_j82351702934075_2_alg».proof.Proof.LibHostScatterAdd
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx

variable (x0 : (⟨S256x1, .i32⟩ : BufTy).Contents (Elt Ideal))
  (x1 : (⟨S50000, .i32⟩ : BufTy).Contents (Elt Ideal))
  (x2 : (⟨S2x800000, .i32⟩ : BufTy).Contents (Elt Ideal))
  (x3 : (⟨S800000, .f32⟩ : BufTy).Contents (Elt Ideal))
  (x4 : (⟨S50000x64, .f32⟩ : BufTy).Contents (Elt Ideal))
  (x5 : (⟨S64x128, .f32⟩ : BufTy).Contents (Elt Ideal))
  (x6 : (⟨S128, .f32⟩ : BufTy).Contents (Elt Ideal))
  (x7 : (⟨S192x128, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))
  (x11 : (⟨S128x128, .f32⟩ : BufTy).Contents (Elt Ideal))
  (x12 : (⟨S128, .f32⟩ : BufTy).Contents (Elt Ideal))
  (x13 : (⟨S128x1, .f32⟩ : BufTy).Contents (Elt Ideal))
  (x14 : (⟨S1, .f32⟩ : BufTy).Contents (Elt Ideal))
  (x15 : (⟨S128x8, .f32⟩ : BufTy).Contents (Elt Ideal))
  (x16 : (⟨S8, .f32⟩ : BufTy).Contents (Elt Ideal))
  (x1v : Fin 256 → Fin 64 → EReal) (x2v : Fin 128 → EReal)

/-! ## The input row, the three hidden layers -/

/-- The concatenated input row of state b: its first 64 columns are the state's own embedding, its last 128 the pooled
    graph feature. -/
theorem cat_at (h7 : ∀ (b : Fin 256) (q : Fin 64), val_main_v7 (F := Ideal) x0 x4 (ix2 b q) = x1v b q)
    (h68 : ∀ (b : Fin 256) (j : Fin 128), val_main_v68 (F := Ideal) x1 x2 x3 x4 x5 x6 (ix2 b j) = x2v j) (b : Fin 256) (k : Fin 192) :
    val_main_v69 (F := Ideal) x0 x1 x2 x3 x4 x5 x6 (ix2 b k) = Cert.Spec.xcat x1v x2v b k := by
  unfold val_main_v69 Cert.Spec.xcat
  by_cases h : k.val < 64
  · rw [dif_pos h]
    refine (concatenate_pair_apply_left (1 : Fin S256x192.rank) _ _ concatenates_S256x64_S256x128_S256x192_d1 (ix2 b k) rfl
      (ix2 b (⟨k.val, h⟩ : Fin 64)) (fun a => by match a with | ⟨0, _⟩ => rfl | ⟨1, _⟩ => rfl)).trans ?_
    exact h7 b ⟨k.val, h⟩
  · rw [dif_neg h]
    have hk := k.isLt
    refine (concatenate_pair_apply_right (1 : Fin S256x192.rank) _ _ concatenates_S256x64_S256x128_S256x192_d1 (ix2 b k) rfl rfl
      (ix2 b (⟨k.val - 64, by omega⟩ : Fin 128)) (fun a ha => ?_) ?_).trans ?_
    · match a with
      | ⟨0, _⟩ => rfl
      | ⟨1, _⟩ => exact absurd rfl ha
    · show k.val - 64 + 64 = k.val
      omega
    · exact h68 b ⟨k.val - 64, by omega⟩

/-- The first hidden layer: the input row times the first weight matrix, plus the bias, clamped below at 0. -/
theorem h1_at (h7 : ∀ (b : Fin 256) (q : Fin 64), val_main_v7 (F := Ideal) x0 x4 (ix2 b q) = x1v b q)
    (h68 : ∀ (b : Fin 256) (j : Fin 128), val_main_v68 (F := Ideal) x1 x2 x3 x4 x5 x6 (ix2 b j) = x2v j) (b : Fin 256) (j : Fin 128) :
    val_main_v74 (F := Ideal) x0 x1 x2 x3 x4 x5 x6 x7 x8 (ix2 b j) = Cert.Spec.h1 x7 x8 x1v x2v b j := by
  rw [val_main_v74_apply, val_main_v73_apply, val_main_v70_apply, val_main_v72_apply, val_main_v71_apply, val_main_call1_v0_apply, val_main_call1_cst_apply]
  simp only [Ideal.maximumf_def, Ideal.addf_def, Ideal.ofBits_def, Ideal.ofBits_zero_f32]
  have hl : ∀ k : Fin 192, lidx_main_v70 (ix2 b j) k = ix2 b k := fun k => funext (fun a => by match a with | ⟨0, _⟩ => rfl | ⟨1, _⟩ => rfl)
  have hr : ∀ k : Fin 192, ridx_main_v70 (ix2 b j) k = ix2 k j := fun k => funext (fun a => by match a with | ⟨0, _⟩ => rfl | ⟨1, _⟩ => rfl)
  have hb : idx_main_v71 (idx_main_v72 (ix2 b j)) = ix1 j := funext (fun a => by match a with | ⟨0, _⟩ => rfl)
  rw [hb]
  unfold Cert.Spec.h1
  refine congrArg (fun s => max (s + x8 (ix1 j)) 0) (Finset.sum_congr rfl fun k _ => ?_)
  rw [hl, hr, cat_at x0 x1 x2 x3 x4 x5 x6 x1v x2v h7 h68 b k]

/-- The second hidden layer, over the first. -/
theorem h2_at (h7 : ∀ (b : Fin 256) (q : Fin 64), val_main_v7 (F := Ideal) x0 x4 (ix2 b q) = x1v b q)
    (h68 : ∀ (b : Fin 256) (j : Fin 128), val_main_v68 (F := Ideal) x1 x2 x3 x4 x5 x6 (ix2 b j) = x2v j) (b : Fin 256) (j : Fin 128) :
    val_main_v79 (F := Ideal) x0 x1 x2 x3 x4 x5 x6 x7 x8 x9 x10 (ix2 b j) = Cert.Spec.h2 x7 x8 x9 x10 x1v x2v b j := by
  rw [val_main_v79_apply, val_main_v78_apply, val_main_v75_apply, val_main_v77_apply, val_main_v76_apply, val_main_call2_v0_apply, val_main_call2_cst_apply]
  simp only [Ideal.maximumf_def, Ideal.addf_def, Ideal.ofBits_def, Ideal.ofBits_zero_f32]
  have hl : ∀ k : Fin 128, lidx_main_v75 (ix2 b j) k = ix2 b k := fun k => funext (fun a => by match a with | ⟨0, _⟩ => rfl | ⟨1, _⟩ => rfl)
  have hr : ∀ k : Fin 128, ridx_main_v75 (ix2 b j) k = ix2 k j := fun k => funext (fun a => by match a with | ⟨0, _⟩ => rfl | ⟨1, _⟩ => rfl)
  have hb : idx_main_v76 (idx_main_v77 (ix2 b j)) = ix1 j := funext (fun a => by match a with | ⟨0, _⟩ => rfl)
  rw [hb]
  unfold Cert.Spec.h2
  refine congrArg (fun s => max (s + x10 (ix1 j)) 0) (Finset.sum_congr rfl fun k _ => ?_)
  rw [hl, hr, h1_at x0 x1 x2 x3 x4 x5 x6 x7 x8 x1v x2v h7 h68 b k]

/-- The third hidden layer, over the second. -/
theorem h3_at (h7 : ∀ (b : Fin 256) (q : Fin 64), val_main_v7 (F := Ideal) x0 x4 (ix2 b q) = x1v b q)
    (h68 : ∀ (b : Fin 256) (j : Fin 128), val_main_v68 (F := Ideal) x1 x2 x3 x4 x5 x6 (ix2 b j) = x2v j) (b : Fin 256) (j : Fin 128) :
    val_main_v84 (F := Ideal) x0 x1 x2 x3 x4 x5 x6 x7 x8 x9 x10 x11 x12 (ix2 b j) = Cert.Spec.h3 x7 x8 x9 x10 x11 x12 x1v x2v b j := by
  rw [val_main_v84_apply, val_main_v83_apply, val_main_v80_apply, val_main_v82_apply, val_main_v81_apply, val_main_call3_v0_apply, val_main_call3_cst_apply]
  simp only [Ideal.maximumf_def, Ideal.addf_def, Ideal.ofBits_def, Ideal.ofBits_zero_f32]
  have hl : ∀ k : Fin 128, lidx_main_v80 (ix2 b j) k = ix2 b k := fun k => funext (fun a => by match a with | ⟨0, _⟩ => rfl | ⟨1, _⟩ => rfl)
  have hr : ∀ k : Fin 128, ridx_main_v80 (ix2 b j) k = ix2 k j := fun k => funext (fun a => by match a with | ⟨0, _⟩ => rfl | ⟨1, _⟩ => rfl)
  have hb : idx_main_v81 (idx_main_v82 (ix2 b j)) = ix1 j := funext (fun a => by match a with | ⟨0, _⟩ => rfl)
  rw [hb]
  unfold Cert.Spec.h3
  refine congrArg (fun s => max (s + x12 (ix1 j)) 0) (Finset.sum_congr rfl fun k _ => ?_)
  rw [hl, hr, h2_at x0 x1 x2 x3 x4 x5 x6 x7 x8 x9 x10 x1v x2v h7 h68 b k]

/-! ## The two heads and the dueling combination -/

/-- The value head: the third hidden layer times the value column, plus its bias. -/
theorem value_at (h7 : ∀ (b : Fin 256) (q : Fin 64), val_main_v7 (F := Ideal) x0 x4 (ix2 b q) = x1v b q)
    (h68 : ∀ (b : Fin 256) (j : Fin 128), val_main_v68 (F := Ideal) x1 x2 x3 x4 x5 x6 (ix2 b j) = x2v j) (b : Fin 256) :
    val_main_v88 (F := Ideal) x0 x1 x2 x3 x4 x5 x6 x7 x8 x9 x10 x11 x12 x13 x14 (ix2 b (0 : Fin 1)) = Cert.Spec.value x7 x8 x9 x10 x11 x12 x13 x14 x1v x2v b := by
  rw [val_main_v88_apply, val_main_v85_apply, val_main_v87_apply, val_main_v86_apply]
  simp only [Ideal.addf_def]
  have hl : ∀ k : Fin 128, lidx_main_v85 (ix2 b (0 : Fin 1)) k = ix2 b k := fun k => funext (fun a => by match a with | ⟨0, _⟩ => rfl | ⟨1, _⟩ => rfl)
  have hr : ∀ k : Fin 128, ridx_main_v85 (ix2 b (0 : Fin 1)) k = ix2 k (0 : Fin 1) := fun k => funext (fun a => by match a with | ⟨0, _⟩ => rfl | ⟨1, _⟩ => rfl)
  have hb : idx_main_v86 (idx_main_v87 (ix2 b (0 : Fin 1))) = ix1 (0 : Fin 1) := funext (fun a => by match a with | ⟨0, _⟩ => rfl)
  rw [hb]
  unfold Cert.Spec.value
  refine congrArg (fun s => s + x14 (ix1 (0 : Fin 1))) (Finset.sum_congr rfl fun k _ => ?_)
  rw [hl, hr, h3_at x0 x1 x2 x3 x4 x5 x6 x7 x8 x9 x10 x11 x12 x1v x2v h7 h68 b k]

/-- The advantage head: the third hidden layer times the advantage matrix, plus its bias. -/
theorem adv_at (h7 : ∀ (b : Fin 256) (q : Fin 64), val_main_v7 (F := Ideal) x0 x4 (ix2 b q) = x1v b q)
    (h68 : ∀ (b : Fin 256) (j : Fin 128), val_main_v68 (F := Ideal) x1 x2 x3 x4 x5 x6 (ix2 b j) = x2v j) (b : Fin 256) (a : Fin 8) :
    val_main_v92 (F := Ideal) x0 x1 x2 x3 x4 x5 x6 x7 x8 x9 x10 x11 x12 x15 x16 (ix2 b a) = Cert.Spec.adv x7 x8 x9 x10 x11 x12 x15 x16 x1v x2v b a := by
  rw [val_main_v92_apply, val_main_v89_apply, val_main_v91_apply, val_main_v90_apply]
  simp only [Ideal.addf_def]
  have hl : ∀ k : Fin 128, lidx_main_v89 (ix2 b a) k = ix2 b k := fun k => funext (fun a => by match a with | ⟨0, _⟩ => rfl | ⟨1, _⟩ => rfl)
  have hr : ∀ k : Fin 128, ridx_main_v89 (ix2 b a) k = ix2 k a := fun k => funext (fun a => by match a with | ⟨0, _⟩ => rfl | ⟨1, _⟩ => rfl)
  have hb : idx_main_v90 (idx_main_v91 (ix2 b a)) = ix1 a := funext (fun a => by match a with | ⟨0, _⟩ => rfl)
  rw [hb]
  unfold Cert.Spec.adv
  refine congrArg (fun s => s + x16 (ix1 a)) (Finset.sum_congr rfl fun k _ => ?_)
  rw [hl, hr, h3_at x0 x1 x2 x3 x4 x5 x6 x7 x8 x9 x10 x11 x12 x1v x2v h7 h68 b k]

/-- The reference's result at state b and action a: the value plus the advantage less the mean of the eight advantages. -/
theorem head_at (h7 : ∀ (b : Fin 256) (q : Fin 64), val_main_v7 (F := Ideal) x0 x4 (ix2 b q) = x1v b q)
    (h68 : ∀ (b : Fin 256) (j : Fin 128), val_main_v68 (F := Ideal) x1 x2 x3 x4 x5 x6 (ix2 b j) = x2v j) (b : Fin 256) (a : Fin 8) :
    val_main_v100 (F := Ideal) x0 x1 x2 x3 x4 x5 x6 x7 x8 x9 x10 x11 x12 x13 x14 x15 x16 (ix2 b a)
      = Cert.Spec.mlp x7 x8 x9 x10 x11 x12 x13 x14 x15 x16 x1v x2v (ix2 b a) := by
  rw [val_main_v100_apply, val_main_v99_apply, val_main_v98_apply, val_main_v97_apply, val_main_v96_apply, val_main_v94_apply,
    val_main_v93_apply, val_main_v95_apply, val_main_cst_16_apply, val_main_cst_15_apply]
  simp only [Ideal.addf_def, Ideal.subf_def, Ideal.hostDivf_def, Ideal.ofBits_def, Ideal.ofBits_zero_f32, ofBits_8, zero_add]
  have h99 : idx_main_v99 (ix2 b a) = ix2 b (0 : Fin 1) := funext (fun a => by match a with | ⟨0, _⟩ => rfl | ⟨1, _⟩ => rfl)
  have h93 : ∀ k : Fin 8, idx_main_v93 (idx_main_v94 (idx_main_v97 (ix2 b a))) k = ix2 b k := fun k => funext (fun a => by match a with | ⟨0, _⟩ => rfl | ⟨1, _⟩ => rfl)
  rw [h99, value_at x0 x1 x2 x3 x4 x5 x6 x7 x8 x9 x10 x11 x12 x13 x14 x1v x2v h7 h68 b, adv_at x0 x1 x2 x3 x4 x5 x6 x7 x8 x9 x10 x11 x12 x15 x16 x1v x2v h7 h68 b a]
  unfold Cert.Spec.mlp
  refine congrArg (fun s => Cert.Spec.value x7 x8 x9 x10 x11 x12 x13 x14 x1v x2v b + (Cert.Spec.adv x7 x8 x9 x10 x11 x12 x15 x16 x1v x2v b a - Ideal.div s ((8 : ℝ) : EReal))) (Finset.sum_congr rfl fun k _ => ?_)
  rw [h93, adv_at x0 x1 x2 x3 x4 x5 x6 x7 x8 x9 x10 x11 x12 x15 x16 x1v x2v h7 h68 b k]

end Cert.RefValue

end
-- ==== Proof.RefValue.lean ====
/-
  The reference's result is the specification.

  Under the range precondition every integer input is a node number, so the graph half of the reference is the
  specification's graph layer: the gather at the state words gives each batch row its own embedding, and the pooled
  feature is the mean over the nodes of the aggregated, normalised, projected embeddings plus the bias.  The
  perceptron reads only those two arrays and the weight arguments, and is the specification's three layers with the
  value head, the advantage head and the dueling combination.  Entry by entry the run's result term is therefore the
  specification's function of the argument arrays.
-/
import proofs.«409071_j82351702934075_2_alg».proof.Proof.Gen.ReferenceIdeal.Run
import proofs.«409071_j82351702934075_2_alg».proof.Proof.Gen.ReferenceIdeal.Read
import proofs.«409071_j82351702934075_2_alg».proof.Proof.Spec
import proofs.«409071_j82351702934075_2_alg».proof.Proof.RefValue2
import proofs.«409071_j82351702934075_2_alg».proof.Proof.RefValue3

noncomputable section

open scoped BigOperators

namespace Cert.RefValue

open Idealize.ShloMosaic Idealize.ShloMosaic.TcCoe Idealize.SL.Sem Idealize.ShloMosaic.ValueIdx

/-- For every memory and device, when the three integer arguments hold node numbers, the reference's result term at
    the ideal instance is the specification's perceptron of each state's own embedding and the pooled graph feature. -/
theorem res_eq (m : (ℓ : Loc Cert.ReferenceIdeal.nD Cert.ReferenceIdeal.τ Cert.ReferenceIdeal.sig) → Buf (Elt Ideal) ℓ)
    (c : Dev Cert.ReferenceIdeal.nD)
    (hr : Cert.Spec.InRange (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) :
    Cert.ReferenceIdeal.Value.res_out0 (F := Ideal) m c
      = Cert.Spec.mlp (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))
          (Cert.Spec.x1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg4)))
          (Cert.Spec.x2ref (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) := by
  funext i
  obtain ⟨b, a, rfl⟩ : ∃ (b : Fin 256) (a : Fin 8), i = ix2 b a := ⟨i 0, i 1, eq_ix2 i⟩
  show Cert.ReferenceIdeal.Value.res_main_v100 (F := Ideal) m c (ix2 b a) = _
  rw [Cert.ReferenceIdeal.Read.val_main_v100_eq]
  exact head_at _ _ _ _ _ _ _ _ _ _ _ _ _ _ _ _ _ _ _
    (fun b q => x1_at _ _ hr.state b q)
    (fun b j => x2ref_at _ _ _ _ _ _ hr.xidx hr.ei b j) b a

end Cert.RefValue

end
-- ==== Proof.Algebra.lean ====
/-
  The pooled graph feature, computed node by node and averaged, equals the one computed through the per-source totals.

  Every quantity is a real number: the weights, embeddings, projection and bias are finite, an edge weight is a given
  weight or 1, a degree is a finite sum of reals, and the inverse square root of a positive real is real.  Each
  extended-real quantity of the specification therefore has a real twin, and the two pooled features are the
  extended-real readings of two real expressions.  Those agree by counting: every edge has exactly one target node
  and exactly one source node, so the sum over the nodes of "what the edges ending there bring" is a sum over all
  edges, and grouping the same edges by source gives the per-source totals contracted with the embeddings; the mean of
  a constant bias is the bias.
-/
import proofs.«409071_j82351702934075_2_alg».proof.Proof.Spec
import Mathlib.Algebra.BigOperators.Group.Finset.Basic
import Mathlib.Algebra.BigOperators.Group.Finset.Piecewise
import Mathlib.Algebra.BigOperators.Group.Finset.Sigma
import Mathlib.Algebra.BigOperators.Ring.Finset
import Mathlib.Algebra.Ring.Defs
import Mathlib.Analysis.Real.Sqrt
import Mathlib.Data.EReal.Basic
import Mathlib.Data.Fintype.Card
import Mathlib.Tactic.Ring
import Mathlib.Tactic.NormNum

noncomputable section

open scoped BigOperators

namespace Cert.Spec

open Idealize.ShloMosaic Idealize.ShloMosaic.ValueIdx

/-! ### The counting identity, in the reals -/

/-- Edges `e` with a source `s e`, a target `t e` and a weight `nrm e`; nodes `n` with features `h n q`; a projection
    `wg`; a bias `b`; `c` the reciprocal of the number of nodes.  Summing over the nodes what the edges ending in each
    bring, plus the bias, and scaling by `c`, is the projection of the per-source weight totals contracted with the
    features, scaled by `c`, plus the bias. -/
theorem real_core {E N Q : Type*} [Fintype E] [Fintype N] [Fintype Q] [DecidableEq N]
    (s t : E → N) (nrm : E → ℝ) (h : N → Q → ℝ) (wg : Q → ℝ) (b c : ℝ) (hc : (Fintype.card N : ℝ) * c = 1) :
    (∑ n, ((∑ e, if t e = n then (∑ q, h (s e) q * wg q) * nrm e else 0) + b)) * c
      = (∑ q, (∑ n, (∑ e, if s e = n then nrm e else 0) * h n q) * wg q) * c + b := by
  have hL : (∑ n, ∑ e, if t e = n then (∑ q, h (s e) q * wg q) * nrm e else 0)
      = ∑ e, (∑ q, h (s e) q * wg q) * nrm e := by
    rw [Finset.sum_comm]
    exact Finset.sum_congr rfl fun e _ => by simp
  have hR : ∀ q, (∑ n, (∑ e, if s e = n then nrm e else 0) * h n q) = ∑ e, nrm e * h (s e) q := by
    intro q
    have : ∀ n, (∑ e, if s e = n then nrm e else 0) * h n q = ∑ e, if s e = n then nrm e * h (s e) q else 0 := by
      intro n
      rw [Finset.sum_mul]
      refine Finset.sum_congr rfl fun e _ => ?_
      by_cases he : s e = n
      · simp [he]
      · simp [he]
    simp_rw [this]
    rw [Finset.sum_comm]
    exact Finset.sum_congr rfl fun e _ => by simp
  rw [Finset.sum_add_distrib, hL]
  simp_rw [hR]
  have hE : (∑ q, (∑ e, nrm e * h (s e) q) * wg q) = ∑ e, (∑ q, h (s e) q * wg q) * nrm e := by
    simp_rw [Finset.sum_mul]
    rw [Finset.sum_comm]
    refine Finset.sum_congr rfl fun e _ => Finset.sum_congr rfl fun q _ => by ring
  rw [hE, Finset.sum_const, Finset.card_univ, nsmul_eq_mul, add_mul, mul_comm (Fintype.card N : ℝ) b, mul_assoc, hc, mul_one]

/-! ### Reading reals in the extended reals -/

/-- A finite sum of reals, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reading of a choice between two reals is the choice between the readings. -/
theorem coe_ite (p : Prop) [Decidable p] (a b : ℝ) :
    ((if p then a else b : ℝ) : EReal) = if p then (a : EReal) else (b : EReal) := by
  split <;> rfl

/-! ### Words and nodes -/

/-- A node word names its own row: it is the word of node `n` exactly when its row is `n`. -/
theorem toInt_eq_iff_rowOf {w : BitVec 32} (hw : IsNode w) (n : Fin 50000) :
    w.toInt = (n.val : ℤ) ↔ rowOf w = n := by
  obtain ⟨h0, h1⟩ := hw
  rw [Fin.ext_iff]
  show _ ↔ min w.toInt.toNat 49999 = n.val
  omega

/-- The word of a number below 50000 is a node. -/
theorem isNode_ofNat {k : Nat} (hk : k < 50000) : IsNode (BitVec.ofNat 32 k) := by
  have hn : (BitVec.ofNat 32 k).toNat = k := by rw [BitVec.toNat_ofNat]; exact Nat.mod_eq_of_lt (by omega)
  have hi : (BitVec.ofNat 32 k).toInt = k := by
    rw [BitVec.toInt_eq_toNat_cond, hn]
    split <;> omega
  constructor <;> rw [hi] <;> omega

section Graph

variable (xidx : IVec ⟨1, ![50000]⟩ 32) (ei : IVec ⟨2, ![2, 800000]⟩ 32)
  (ew : Arr ⟨1, ![800000]⟩) (emb : Arr ⟨2, ![50000, 64]⟩) (Wg : Arr ⟨2, ![64, 128]⟩) (bg : Arr ⟨1, ![128]⟩)

/-- Every edge's source word is a node: a listed source is one by hypothesis, a self loop's is its own node. -/
theorem srcW_isNode (hei : ∀ i, IsNode (ei i)) (e : Fin 850000) : IsNode (srcW ei e) := by
  unfold srcW
  split
  · exact hei _
  · exact isNode_ofNat (by omega)

/-- Every edge's target word is a node. -/
theorem dstW_isNode (hei : ∀ i, IsNode (ei i)) (e : Fin 850000) : IsNode (dstW ei e) := by
  unfold dstW
  split
  · exact hei _
  · exact isNode_ofNat (by omega)

/-- The source node of edge e. -/
def srcN (e : Fin 850000) : Fin 50000 := rowOf (srcW ei e)

/-- The target node of edge e. -/
def dstN (e : Fin 850000) : Fin 50000 := rowOf (dstW ei e)

theorem srcW_eq_iff (hei : ∀ i, IsNode (ei i)) (e : Fin 850000) (n : Fin 50000) :
    (srcW ei e).toInt = (n.val : ℤ) ↔ srcN ei e = n := toInt_eq_iff_rowOf (srcW_isNode ei hei e) n

theorem dstW_eq_iff (hei : ∀ i, IsNode (ei i)) (e : Fin 850000) (n : Fin 50000) :
    (dstW ei e).toInt = (n.val : ℤ) ↔ dstN ei e = n := toInt_eq_iff_rowOf (dstW_isNode ei hei e) n

/-! ### The real twins -/

/-- The weight of edge e, as a real. -/
def wtR (e : Fin 850000) : ℝ := (wt ew e).toReal

theorem wt_eq (hew : Fin' ew) (e : Fin 850000) : wt ew e = (wtR ew e : EReal) := by
  unfold wtR wt
  split
  · exact (EReal.coe_toReal (hew _).1 (hew _).2).symm
  · simp

/-- The degree of node n, as a real. -/
def degR (n : Fin 50000) : ℝ := ∑ e : Fin 850000, if dstN ei e = n then wtR ew e else 0

theorem deg_eq (hei : ∀ i, IsNode (ei i)) (hew : Fin' ew) (n : Fin 50000) :
    deg ei ew n = (degR ei ew n : EReal) := by
  unfold deg degR
  rw [coe_sum]
  refine Finset.sum_congr rfl fun e _ => ?_
  rw [coe_ite, ← wt_eq ew hew, EReal.coe_zero]
  exact if_congr (dstW_eq_iff ei hei e n) rfl rfl

/-- The inverse square root of a positive degree, 0 otherwise, as a real. -/
def dinvR (n : Fin 50000) : ℝ := if 0 < degR ei ew n then (Real.sqrt (degR ei ew n))⁻¹ else 0

theorem dinv_eq (hei : ∀ i, IsNode (ei i)) (hew : Fin' ew) (n : Fin 50000) :
    dinv ei ew n = (dinvR ei ew n : EReal) := by
  unfold dinv dinvR
  rw [deg_eq ei ew hei hew n]
  by_cases h : 0 < degR ei ew n
  · rw [if_pos (EReal.coe_pos.2 h), if_pos h, Ideal.rsqrt_coe, if_neg (not_lt.2 h.le), if_neg h.ne']
  · rw [if_neg (fun h' => h (EReal.coe_pos.1 h')), if_neg h, EReal.coe_zero]

/-- The normalised weight of edge e, as a real. -/
def normR (e : Fin 850000) : ℝ := dinvR ei ew (srcN ei e) * wtR ew e * dinvR ei ew (dstN ei e)

theorem norm_eq (hei : ∀ i, IsNode (ei i)) (hew : Fin' ew) (e : Fin 850000) :
    norm ei ew e = (normR ei ew e : EReal) := by
  unfold norm normR srcN dstN
  rw [EReal.coe_mul, EReal.coe_mul, ← dinv_eq ei ew hei hew, ← dinv_eq ei ew hei hew, ← wt_eq ew hew]

/-- The embedding of node n, as a real. -/
def hxR (n : Fin 50000) (q : Fin 64) : ℝ := (hx xidx emb n q).toReal

theorem hx_eq (hemb : Fin' emb) (n : Fin 50000) (q : Fin 64) : hx xidx emb n q = (hxR xidx emb n q : EReal) := by
  unfold hxR hx
  exact (EReal.coe_toReal (hemb _).1 (hemb _).2).symm

/-- The projection, as reals. -/
def WgR (q : Fin 64) (j : Fin 128) : ℝ := (Wg (ix2 q j)).toReal

theorem Wg_eq (hWg : Fin' Wg) (q : Fin 64) (j : Fin 128) : Wg (ix2 q j) = (WgR Wg q j : EReal) :=
  (EReal.coe_toReal (hWg _).1 (hWg _).2).symm

/-- The bias, as reals. -/
def bgR (j : Fin 128) : ℝ := (bg (ix1 j)).toReal

theorem bg_eq (hbg : Fin' bg) (j : Fin 128) : bg (ix1 j) = (bgR bg j : EReal) :=
  (EReal.coe_toReal (hbg _).1 (hbg _).2).symm

/-- The projected embedding of node n is real. -/
theorem hW_eq (hemb : Fin' emb) (hWg : Fin' Wg) (n : Fin 50000) (j : Fin 128) :
    hW xidx emb Wg n j = ((∑ q : Fin 64, hxR xidx emb n q * WgR Wg q j : ℝ) : EReal) := by
  unfold hW
  rw [coe_sum]
  refine Finset.sum_congr rfl fun q _ => ?_
  rw [EReal.coe_mul, ← hx_eq xidx emb hemb, ← Wg_eq Wg hWg]

/-- What the edges ending in node n bring to it is real. -/
theorem agg_eq (hei : ∀ i, IsNode (ei i)) (hew : Fin' ew) (hemb : Fin' emb) (hWg : Fin' Wg)
    (n : Fin 50000) (j : Fin 128) :
    agg xidx ei ew emb Wg n j
      = ((∑ e : Fin 850000, if dstN ei e = n
            then (∑ q : Fin 64, hxR xidx emb (srcN ei e) q * WgR Wg q j) * normR ei ew e else 0 : ℝ) : EReal) := by
  unfold agg
  rw [coe_sum]
  refine Finset.sum_congr rfl fun e _ => ?_
  rw [coe_ite, EReal.coe_mul, ← norm_eq ei ew hei hew, EReal.coe_zero]
  unfold srcN
  rw [← hW_eq xidx emb Wg hemb hWg]
  exact if_congr (dstW_eq_iff ei hei e n) rfl rfl

/-- The total normalised weight of the edges leaving node n is real. -/
theorem cvec_eq (hei : ∀ i, IsNode (ei i)) (hew : Fin' ew) (n : Fin 50000) :
    cvec ei ew n = ((∑ e : Fin 850000, if srcN ei e = n then normR ei ew e else 0 : ℝ) : EReal) := by
  unfold cvec
  rw [coe_sum]
  refine Finset.sum_congr rfl fun e _ => ?_
  rw [coe_ite, ← norm_eq ei ew hei hew, EReal.coe_zero]
  exact if_congr (srcW_eq_iff ei hei e n) rfl rfl

/-- That vector contracted with the embeddings is real. -/
theorem chx_eq (hei : ∀ i, IsNode (ei i)) (hew : Fin' ew) (hemb : Fin' emb) (q : Fin 64) :
    chx xidx ei ew emb q
      = ((∑ n : Fin 50000, (∑ e : Fin 850000, if srcN ei e = n then normR ei ew e else 0) * hxR xidx emb n q : ℝ)
          : EReal) := by
  unfold chx
  rw [coe_sum]
  refine Finset.sum_congr rfl fun n _ => ?_
  rw [EReal.coe_mul, ← cvec_eq ei ew hei hew, ← hx_eq xidx emb hemb]

/-- The reference's pooled feature is the reading of a real. -/
theorem x2ref_eq_coe (hei : ∀ i, IsNode (ei i)) (hew : Fin' ew) (hemb : Fin' emb) (hWg : Fin' Wg) (hbg : Fin' bg)
    (j : Fin 128) :
    x2ref xidx ei ew emb Wg bg j
      = (((∑ n : Fin 50000, ((∑ e : Fin 850000, if dstN ei e = n
            then (∑ q : Fin 64, hxR xidx emb (srcN ei e) q * WgR Wg q j) * normR ei ew e else 0) + bgR bg j))
          * (1 / 50000) : ℝ) : EReal) := by
  have key : ∀ n : Fin 50000, agg xidx ei ew emb Wg n j + bg (ix1 j)
      = (((∑ e : Fin 850000, if dstN ei e = n
            then (∑ q : Fin 64, hxR xidx emb (srcN ei e) q * WgR Wg q j) * normR ei ew e else 0) + bgR bg j : ℝ)
          : EReal) := by
    intro n
    rw [EReal.coe_add, ← agg_eq xidx ei ew emb Wg hei hew hemb hWg, ← bg_eq bg hbg]
  unfold x2ref
  rw [Ideal.div_coe (by norm_num), EReal.coe_mul, coe_sum, Finset.sum_congr rfl fun n _ => key n]

/-- The kernel's pooled feature is the reading of a real. -/
theorem x2ker_eq_coe (hei : ∀ i, IsNode (ei i)) (hew : Fin' ew) (hemb : Fin' emb) (hWg : Fin' Wg) (hbg : Fin' bg)
    (j : Fin 128) :
    x2ker xidx ei ew emb Wg bg j
      = (((∑ q : Fin 64, (∑ n : Fin 50000, (∑ e : Fin 850000, if srcN ei e = n then normR ei ew e else 0)
            * hxR xidx emb n q) * WgR Wg q j) * (1 / 50000) + bgR bg j : ℝ) : EReal) := by
  have key : ∀ q : Fin 64, chx xidx ei ew emb q * Wg (ix2 q j)
      = (((∑ n : Fin 50000, (∑ e : Fin 850000, if srcN ei e = n then normR ei ew e else 0) * hxR xidx emb n q)
            * WgR Wg q j : ℝ) : EReal) := by
    intro q
    rw [EReal.coe_mul, ← chx_eq xidx ei ew emb hei hew hemb, ← Wg_eq Wg hWg]
  unfold x2ker
  rw [EReal.coe_add, EReal.coe_mul, coe_sum, ← bg_eq bg hbg, Finset.sum_congr rfl fun q _ => key q]

end Graph

/-- The pooled graph feature of the reference is that of the kernel. -/
theorem x2ref_eq_x2ker (state : IVec ⟨2, ![256, 1]⟩ 32) (xidx : IVec ⟨1, ![50000]⟩ 32) (ei : IVec ⟨2, ![2, 800000]⟩ 32)
    (ew : Arr ⟨1, ![800000]⟩) (emb : Arr ⟨2, ![50000, 64]⟩) (Wg : Arr ⟨2, ![64, 128]⟩) (bg : Arr ⟨1, ![128]⟩)
    (hr : InRange state xidx ei) (hew : Fin' ew) (hemb : Fin' emb) (hWg : Fin' Wg) (hbg : Fin' bg) (j : Fin 128) :
    x2ref xidx ei ew emb Wg bg j = x2ker xidx ei ew emb Wg bg j := by
  rw [x2ref_eq_coe xidx ei ew emb Wg bg hr.ei hew hemb hWg hbg j,
    x2ker_eq_coe xidx ei ew emb Wg bg hr.ei hew hemb hWg hbg j]
  exact congrArg _ (real_core (srcN ei) (dstN ei) (normR ei ew) (hxR xidx emb) (fun q => WgR Wg q j) (bgR bg j)
    (1 / 50000) (by rw [Fintype.card_fin]; norm_num))

end Cert.Spec

end
-- ==== Proof.PreFacts.lean ====
/-
  What the precondition says of the inputs.  The precondition is one bit: the and of seventeen bits, one per input.
  For each of the fourteen float inputs the bit is the and, over all entries x, of |x| < +inf, where |x| = max x (-x) on
  the extended reals; it is 1 exactly when every entry is a real number.  For each of the three integer inputs the bit
  is the and, over all entries w, of (0 ≤ w) and (w < 50000), both read signed; it is 1 exactly when every entry is a
  node number.  An and of single bits is 1 only if every one of them is.
-/
import proofs.«409071_j82351702934075_2_alg».proof.Pre_finite_inputs
import proofs.«409071_j82351702934075_2_alg».proof.Proof.Gen.Pre_finite_inputs
import proofs.«409071_j82351702934075_2_alg».proof.Proof.Spec
import Idealize.ShloMosaic.Lib.ReduceAll
import Idealize.ShloMosaic.Lib.Affine
import Idealize.ShloMosaic.Lib.ValueIdx
import Idealize.ShloMosaic.PureOps.Ideal

noncomputable section

namespace Cert.PreFacts

open Idealize.ShloMosaic Idealize.ShloMosaic.ValueIdx

/-- The shape of a single bit: rank 0. -/
abbrev SBit : Shape := ⟨0, ![]⟩

/-- A rank-0 array has one index. -/
instance : Subsingleton SBit.Idx := ⟨fun a b => funext fun d => d.elim0⟩

/-- An extended real whose absolute value max x (-x) lies strictly below +inf is a real number:
    at x = +inf or x = -inf the absolute value is +inf itself. -/
theorem real_of_abs_lt (x : EReal) (h : Ideal.cmp .olt (max x (-x)) (Ideal.ofBits .f32 0x7F800000#32) = 1#1) :
    x ≠ ⊤ ∧ x ≠ ⊥ := by
  have ht : Ideal.ofBits .f32 0x7F800000#32 = ⊤ := by simp [Ideal.ofBits, Ideal.ieee]
  rw [ht] at h
  induction x using EReal.rec with
  | bot => simp [Ideal.cmp] at h
  | coe r => exact ⟨EReal.coe_ne_top r, EReal.coe_ne_bot r⟩
  | top => simp [Ideal.cmp] at h

/-- A float array is finite when the bit "every |x i| < +inf" (the and over all entries) is 1. -/
theorem fin_of_bit {s : Shape} {axes : List (Fin s.rank)} (bc : SBit.BroadcastsInDim s (![] : Fin 0 → Fin s.rank))
    (rd : s.ReducesTo axes SBit) (hu : 0 < SBit.numel) (x : FVec Ideal s .f32)
    (h : Host.reduce IntOp.andi
        (cmpf .olt (Host.absf x) (broadcastInDim s ![] bc (constant (F := Ideal) SBit .f32 0x7F800000#32)))
        (constantI SBit 1 1#1) rd hu ix0 = 1#1) :
    Cert.Spec.Fin' x := by
  intro i
  have e := Host.reduce_andi_all _ _ rd hu ix0 h i
  exact real_of_abs_lt (x i) e

/-- An integer array holds node numbers when the bit "every 0 ≤ x i and x i < 50000" (signed; the and over all
    entries) is 1. -/
theorem node_of_bit {s : Shape} {axes : List (Fin s.rank)} (bc : SBit.BroadcastsInDim s (![] : Fin 0 → Fin s.rank))
    (rd : s.ReducesTo axes SBit) (hu : 0 < SBit.numel) (x : IVec s 32)
    (h : Host.reduce IntOp.andi
        (andi (cmpi .sge x (broadcastInDim s ![] bc (constantI SBit 32 0#32)))
          (cmpi .slt x (broadcastInDim s ![] bc (constantI SBit 32 50000#32))))
        (constantI SBit 1 1#1) rd hu ix0 = 1#1) (i : s.Idx) :
    Cert.Spec.IsNode (x i) := by
  have e := Host.reduce_andi_all _ _ rd hu ix0 h i
  obtain ⟨h0, h1⟩ := IntOp.andi_eq_one.1 e
  have z0 : (0#32 : BitVec 32).toInt = 0 := by decide
  have z1 : (50000#32 : BitVec 32).toInt = 50000 := by decide
  exact ⟨z0 ▸ IntOp.cmpi_sge.1 h0, z1 ▸ IntOp.cmpi_slt.1 h1⟩

/-- Both halves of an and of two single bits that is 1. -/
theorem and_split {a b : IVec SBit 1} (h : andi a b ix0 = 1#1) : a ix0 = 1#1 ∧ b ix0 = 1#1 := IntOp.andi_eq_one.1 h

/-- The printed precondition, decoded: its one bit is the and of seventeen bits, one per input — for a float input
    "every entry has absolute value below +inf", for an integer input "every entry is in [0, 50000)" — so when it
    is 1 every float input is an array of reals and every integer input an array of node numbers. -/
theorem of_pre [Cert.Pre_finite_inputs.Facts] (a0 : IVec Cert.Pre_finite_inputs.S256x1 32) (a1 : IVec Cert.Pre_finite_inputs.S50000 32) (a2 : IVec Cert.Pre_finite_inputs.S2x800000 32)
    (a3 : FVec Ideal Cert.Pre_finite_inputs.S800000 .f32) (a4 : FVec Ideal Cert.Pre_finite_inputs.S50000x64 .f32) (a5 : FVec Ideal Cert.Pre_finite_inputs.S64x128 .f32) (a6 : FVec Ideal Cert.Pre_finite_inputs.S128 .f32)
    (a7 : FVec Ideal Cert.Pre_finite_inputs.S192x128 .f32) (a8 : FVec Ideal Cert.Pre_finite_inputs.S128 .f32) (a9 : FVec Ideal Cert.Pre_finite_inputs.S128x128 .f32) (a10 : FVec Ideal Cert.Pre_finite_inputs.S128 .f32)
    (a11 : FVec Ideal Cert.Pre_finite_inputs.S128x128 .f32) (a12 : FVec Ideal Cert.Pre_finite_inputs.S128 .f32) (a13 : FVec Ideal Cert.Pre_finite_inputs.S128x1 .f32) (a14 : FVec Ideal Cert.Pre_finite_inputs.S1 .f32)
    (a15 : FVec Ideal Cert.Pre_finite_inputs.S128x8 .f32) (a16 : FVec Ideal Cert.Pre_finite_inputs.S8 .f32)
    (h : Cert.Pre_finite_inputs.fn (F := Ideal) a0 a1 a2 a3 a4 a5 a6 a7 a8 a9 a10 a11 a12 a13 a14 a15 a16 = fun _ => 1#1) :
    Cert.Spec.InRange a0 a1 a2 ∧ Cert.Spec.Fin' a3 ∧ Cert.Spec.Fin' a4 ∧ Cert.Spec.Fin' a5 ∧ Cert.Spec.Fin' a6 ∧ Cert.Spec.Fin' a7 ∧ Cert.Spec.Fin' a8 ∧ Cert.Spec.Fin' a9
      ∧ Cert.Spec.Fin' a10 ∧ Cert.Spec.Fin' a11 ∧ Cert.Spec.Fin' a12 ∧ Cert.Spec.Fin' a13 ∧ Cert.Spec.Fin' a14 ∧ Cert.Spec.Fin' a15 ∧ Cert.Spec.Fin' a16 := by
  have e := congrFun h ix0
  unfold Cert.Pre_finite_inputs.fn at e
  dsimp only at e
  unfold Cert.Pre_finite_inputs.fn_part1 at e
  dsimp only at e
  unfold Cert.Pre_finite_inputs.fn_part2 at e
  dsimp only at e
  unfold Cert.Pre_finite_inputs.fn_part3 at e
  dsimp only at e
  unfold Cert.Pre_finite_inputs.fn_part4 at e
  dsimp only at e
  unfold Cert.Pre_finite_inputs.fn_part5 at e
  dsimp only at e
  obtain ⟨e, h2⟩ := and_split e
  obtain ⟨e, h1⟩ := and_split e
  obtain ⟨e, h0⟩ := and_split e
  obtain ⟨e, h16⟩ := and_split e
  obtain ⟨e, h15⟩ := and_split e
  obtain ⟨e, h14⟩ := and_split e
  obtain ⟨e, h13⟩ := and_split e
  obtain ⟨e, h12⟩ := and_split e
  obtain ⟨e, h11⟩ := and_split e
  obtain ⟨e, h10⟩ := and_split e
  obtain ⟨e, h9⟩ := and_split e
  obtain ⟨e, h8⟩ := and_split e
  obtain ⟨e, h7⟩ := and_split e
  obtain ⟨e, h6⟩ := and_split e
  obtain ⟨e, h5⟩ := and_split e
  obtain ⟨h3, h4⟩ := and_split e
  exact ⟨⟨node_of_bit _ _ _ a0 h0, node_of_bit _ _ _ a1 h1, node_of_bit _ _ _ a2 h2⟩,
    fin_of_bit _ _ _ a3 h3, fin_of_bit _ _ _ a4 h4, fin_of_bit _ _ _ a5 h5, fin_of_bit _ _ _ a6 h6, fin_of_bit _ _ _ a7 h7,
    fin_of_bit _ _ _ a8 h8, fin_of_bit _ _ _ a9 h9, fin_of_bit _ _ _ a10 h10, fin_of_bit _ _ _ a11 h11, fin_of_bit _ _ _ a12 h12,
    fin_of_bit _ _ _ a13 h13, fin_of_bit _ _ _ a14 h14, fin_of_bit _ _ _ a15 h15, fin_of_bit _ _ _ a16 h16⟩

end Cert.PreFacts

end
-- ==== Proof.lean ====
/-
  The certificate's five claims.

  The kernel program computes, for a batch of 256 states, a dueling value/advantage output from each state's own
  embedding and ONE pooled feature of a weighted graph of 50000 nodes (a graph convolution with symmetric degree
  normalisation, averaged over all nodes); the reference computes the graph convolution node by node and averages,
  the kernel sums each source node's outgoing normalised weights first and contracts that vector with the
  embeddings — equal over the reals because every edge ends in exactly one node.  The precondition asks every float
  input to be finite and every integer input to be a node number (outside that range the reference's own indexing
  leaves its arrays).

  Frames: the kernel program at both instances runs its two regions through the chain of its items; the reference
  is a host program whose run is read back operation by operation.  The named constant 1/50000 is the ledger's one
  entry.  The algebraic claim joins the kernel's value (its second region's write-back, read as the
  specification's perceptron over the kernel's pooled feature) with the reference's (the same perceptron over the
  reference's pooled feature) by the graph identity.
-/
import proofs.«409071_j82351702934075_2_alg».proof.Defs
import proofs.«409071_j82351702934075_2_alg».proof.Proof.Gen.Kernel
import proofs.«409071_j82351702934075_2_alg».proof.Proof.Gen.Kernel.Skeleton
import proofs.«409071_j82351702934075_2_alg».proof.Proof.Gen.Kernel.Launch
import proofs.«409071_j82351702934075_2_alg».proof.Proof.Gen.Kernel.Regions
import proofs.«409071_j82351702934075_2_alg».proof.Proof.Gen.Kernel.Points
import proofs.«409071_j82351702934075_2_alg».proof.Proof.Gen.KernelIdeal
import proofs.«409071_j82351702934075_2_alg».proof.Proof.Gen.KernelIdeal.Skeleton
import proofs.«409071_j82351702934075_2_alg».proof.Proof.Gen.KernelIdeal.Launch
import proofs.«409071_j82351702934075_2_alg».proof.Proof.Gen.KernelIdeal.Regions
import proofs.«409071_j82351702934075_2_alg».proof.Proof.Gen.KernelIdeal.Points
import proofs.«409071_j82351702934075_2_alg».proof.Proof.Gen.ReferenceIdeal
import proofs.«409071_j82351702934075_2_alg».proof.Proof.Gen.ReferenceIdeal.Run
import proofs.«409071_j82351702934075_2_alg».proof.Proof.Gen.Pre_finite_inputs
import proofs.«409071_j82351702934075_2_alg».proof.Proof.K.Run
import proofs.«409071_j82351702934075_2_alg».proof.Proof.KI.Run
import proofs.«409071_j82351702934075_2_alg».proof.Proof.KI.KValue
import proofs.«409071_j82351702934075_2_alg».proof.Proof.RefValue
import proofs.«409071_j82351702934075_2_alg».proof.Proof.Algebra
import proofs.«409071_j82351702934075_2_alg».proof.Proof.PreFacts
import Idealize.ShloMosaic.Adequacy
import Idealize.ShloMosaic.Init
import Idealize.ShloMosaic.PureOps.IdealRules

noncomputable section

namespace Cert.Proof

open Idealize.ShloMosaic Idealize.ShloMosaic.TcCoe Idealize.SL.Sem

/-- The word-level kernel program runs and keeps its arguments. -/
theorem frame_k : Cert.frame_Kernel := fun m ρ _ =>
  (θ_run (Cert.Kernel.defs (F := Bits)) _ _).mono (fun _ h c => (h c).2) (Cert.Kernel.Hand.run_main (F := Bits) m ρ)

/-- The idealized kernel program runs and keeps its arguments. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- The reference runs and keeps its arguments: its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The ledger's one entry: the table gives "inv_50000" the value 1/50000. -/
theorem preserves : Cert.preserves_Kernel_KernelIdeal :=
  IdealRules.named_const.statement Cert.KernelIdeal.κ "inv_50000" .f32 0x37A7C5AC#32 ((1 / 50000 : ℝ) : EReal) rfl

/-- Both idealized programs end at the perceptron's output over the same pooled graph feature. -/
theorem algebraic : Cert.algebraic_KernelIdeal_ReferenceIdeal := by
  intro m ρ m' ρ' hpre hagree
  refine ⟨fun c => Cert.KernelIdeal.Hand.W13 (F := Ideal) m c (Proc.devRef .tc Cert.KernelIdeal.main_v48),
    Cert.KernelIdeal.Hand.run_main (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  obtain ⟨hr, hew, hemb, hWg, hbg, -⟩ := Cert.PreFacts.of_pre _ _ _ _ _ _ _ _ _ _ _ _ _ _ _ _ _ (hpre c)
  obtain ⟨e0, e1, e2, e3, e4, e5, e6, e7, e8, e9, e10, e11, e12, e13, e14, e15, e16⟩ := hagree c
  have hr' : Cert.Spec.InRange (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) := by
    rw [e0, e1, e2]; exact hr
  refine ((Cert.RefValue.res_eq m' c hr').trans ?_).trans (Cert.KernelIdeal.Hand.kernel_value m c hr).symm
  rw [e0, e1, e2, e3, e4, e5, e6, e7, e8, e9, e10, e11, e12, e13, e14, e15, e16]
  exact congrArg (Cert.Spec.mlp _ _ _ _ _ _ _ _ _ _ _)
    (funext fun j => Cert.Spec.x2ref_eq_x2ker _ _ _ _ _ _ _ hr hew hemb hWg hbg j)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
